-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v154_2)) (v1 : (c : Dev Cert.KernelIdeal.nD) → Buf (Elt Ideal) ((c.tc : Thread Cert.KernelIdeal.nD Cert.KernelIdeal.τ).loc Cert.KernelIdeal.main_v154_0)) (v2 : (c : Dev Cert.KernelIdeal.nD) → Buf (Elt Ideal) ((c.tc : Thread Cert.KernelIdeal.nD Cert.KernelIdeal.τ).loc Cert.KernelIdeal.main_v222)) (v3 : (c : Dev Cert.KernelIdeal.nD) → Buf (Elt Ideal) ((c.tc : Thread Cert.KernelIdeal.nD Cert.KernelIdeal.τ).loc Cert.KernelIdeal.main_v154_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154_2) = v0 c
          ∧ r.2.mem ((c.tc : Thread Cert.KernelIdeal.nD Cert.KernelIdeal.τ).loc Cert.KernelIdeal.main_v154_0) = v1 c
          ∧ r.2.mem ((c.tc : Thread Cert.KernelIdeal.nD Cert.KernelIdeal.τ).loc Cert.KernelIdeal.main_v222) = v2 c
          ∧ r.2.mem ((c.tc : Thread Cert.KernelIdeal.nD Cert.KernelIdeal.τ).loc Cert.KernelIdeal.main_v154_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_v257) = v2 c
          ∧ r.2.mem ((c.tc : Thread Cert.ReferenceIdeal.nD Cert.ReferenceIdeal.τ).loc Cert.ReferenceIdeal.main_v180) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2000 : Shape := ⟨2, ![10000, 2000]⟩
abbrev S320000 : Shape := ⟨1, ![320000]⟩
abbrev S10000x20 : Shape := ⟨2, ![10000, 20]⟩
abbrev S2000x100 : Shape := ⟨2, ![2000, 100]⟩
abbrev S100 : Shape := ⟨1, ![100]⟩
abbrev S100x20 : Shape := ⟨2, ![100, 20]⟩
abbrev S20 : Shape := ⟨1, ![20]⟩
abbrev S20x32 : Shape := ⟨2, ![20, 32]⟩
abbrev S32 : Shape := ⟨1, ![32]⟩
abbrev S32x20 : Shape := ⟨2, ![32, 20]⟩
abbrev S40x2000 : Shape := ⟨2, ![40, 2000]⟩
abbrev S2000 : Shape := ⟨1, ![2000]⟩
abbrev S40x64 : Shape := ⟨2, ![40, 64]⟩
abbrev S64 : Shape := ⟨1, ![64]⟩
abbrev S40x10 : Shape := ⟨2, ![40, 10]⟩
abbrev S10 : Shape := ⟨1, ![10]⟩
abbrev S40x20000 : Shape := ⟨2, ![40, 20000]⟩
abbrev S20000 : Shape := ⟨1, ![20000]⟩
abbrev S2x320000 : Shape := ⟨2, ![2, 320000]⟩
abbrev S_ : Shape := ⟨0, ![]⟩

class Facts : Prop where
  bcast_S_S10000x2000 : S_.BroadcastsInDim S10000x2000 (![] : Fin 0 → Fin S10000x2000.rank)
  reducesTo_S10000x2000_S_d0_1 : S10000x2000.ReducesTo [0, 1] S_
  h_S_ : 0 < S_.numel
  bcast_S_S320000 : S_.BroadcastsInDim S320000 (![] : Fin 0 → Fin S320000.rank)
  reducesTo_S320000_S_d0 : S320000.ReducesTo [0] S_
  bcast_S_S10000x20 : S_.BroadcastsInDim S10000x20 (![] : Fin 0 → Fin S10000x20.rank)
  reducesTo_S10000x20_S_d0_1 : S10000x20.ReducesTo [0, 1] S_
  bcast_S_S2000x100 : S_.BroadcastsInDim S2000x100 (![] : Fin 0 → Fin S2000x100.rank)
  reducesTo_S2000x100_S_d0_1 : S2000x100.ReducesTo [0, 1] S_
  bcast_S_S100 : S_.BroadcastsInDim S100 (![] : Fin 0 → Fin S100.rank)
  reducesTo_S100_S_d0 : S100.ReducesTo [0] S_
  bcast_S_S100x20 : S_.BroadcastsInDim S100x20 (![] : Fin 0 → Fin S100x20.rank)
  reducesTo_S100x20_S_d0_1 : S100x20.ReducesTo [0, 1] S_
  bcast_S_S20 : S_.BroadcastsInDim S20 (![] : Fin 0 → Fin S20.rank)
  reducesTo_S20_S_d0 : S20.ReducesTo [0] S_
  bcast_S_S20x32 : S_.BroadcastsInDim S20x32 (![] : Fin 0 → Fin S20x32.rank)
  reducesTo_S20x32_S_d0_1 : S20x32.ReducesTo [0, 1] S_
  bcast_S_S32 : S_.BroadcastsInDim S32 (![] : Fin 0 → Fin S32.rank)
  reducesTo_S32_S_d0 : S32.ReducesTo [0] S_
  bcast_S_S32x20 : S_.BroadcastsInDim S32x20 (![] : Fin 0 → Fin S32x20.rank)
  reducesTo_S32x20_S_d0_1 : S32x20.ReducesTo [0, 1] S_
  bcast_S_S40x2000 : S_.BroadcastsInDim S40x2000 (![] : Fin 0 → Fin S40x2000.rank)
  reducesTo_S40x2000_S_d0_1 : S40x2000.ReducesTo [0, 1] S_
  bcast_S_S2000 : S_.BroadcastsInDim S2000 (![] : Fin 0 → Fin S2000.rank)
  reducesTo_S2000_S_d0 : S2000.ReducesTo [0] S_
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S40x10 : S_.BroadcastsInDim S40x10 (![] : Fin 0 → Fin S40x10.rank)
  reducesTo_S40x10_S_d0_1 : S40x10.ReducesTo [0, 1] S_
  bcast_S_S10 : S_.BroadcastsInDim S10 (![] : Fin 0 → Fin S10.rank)
  reducesTo_S10_S_d0 : S10.ReducesTo [0] S_
  bcast_S_S40x20000 : S_.BroadcastsInDim S40x20000 (![] : Fin 0 → Fin S40x20000.rank)
  reducesTo_S40x20000_S_d0_1 : S40x20000.ReducesTo [0, 1] S_
  bcast_S_S20000 : S_.BroadcastsInDim S20000 (![] : Fin 0 → Fin S20000.rank)
  reducesTo_S20000_S_d0 : S20000.ReducesTo [0] S_

variable [Facts]

def fn_part6 {F : FTy → Type} [FloatOps F] (main_v98 : IVec S_ 1) (main_v101 : IVec S20000 1) (main_c_39 : IVec S_ 1) : IVec S_ 1 :=
  let main_v102 : IVec S_ 1 := (fun x v => Host.reduce IntOp.andi x v reducesTo_S20000_S_d0 h_S_) main_v101 main_c_39
  let main_v103 : IVec S_ 1 := andi main_v98 main_v102
  main_v103

def fn_part5 {F : FTy → Type} [FloatOps F] (main_arg18 : FVec F S10 .f32) (main_arg19 : FVec F S40x20000 .f32) (main_arg20 : FVec F S20000 .f32) (main_v83 : IVec S_ 1) (main_v84 : FVec F S40x10 .f32) (main_cst_32 : FVec F S_ .f32) : IVec S_ 1 :=
  let main_v85 : FVec F S40x10 .f32 := broadcastInDim S40x10 ![] bcast_S_S40x10 main_cst_32
  let main_v86 : IVec S40x10 1 := cmpf .olt main_v84 main_v85
  let main_c_33 : IVec S_ 1 := constantI S_ 1 1#1
  let main_v87 : IVec S_ 1 := (fun x v => Host.reduce IntOp.andi x v reducesTo_S40x10_S_d0_1 h_S_) main_v86 main_c_33
  let main_v88 : IVec S_ 1 := andi main_v83 main_v87
  let main_v89 : FVec F S10 .f32 := Host.absf main_arg18
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S40x20000 .f32 := Host.absf main_arg19
  let main_cst_36 : FVec F S_ .f32 := constant S_ .f32 0x7F800000#32
  let main_v95 : FVec F S40x20000 .f32 := broadcastInDim S40x20000 ![] bcast_S_S40x20000 main_cst_36
  let main_v96 : IVec S40x20000 1 := cmpf .olt main_v94 main_v95
  let main_c_37 : IVec S_ 1 := constantI S_ 1 1#1
  let main_v97 : IVec S_ 1 := (fun x v => Host.reduce IntOp.andi x v reducesTo_S40x20000_S_d0_1 h_S_) main_v96 main_c_37
  let main_v98 : IVec S_ 1 := andi main_v93 main_v97
  let main_v99 : FVec F S20000 .f32 := Host.absf main_arg20
  let main_cst_38 : FVec F S_ .f32 := constant S_ .f32 0x7F800000#32
  let main_v100 : FVec F S20000 .f32 := broadcastInDim S20000 ![] bcast_S_S20000 main_cst_38
  let main_v101 : IVec S20000 1 := cmpf .olt main_v99 main_v100
  let main_c_39 : IVec S_ 1 := constantI S_ 1 1#1
  fn_part6 (F := F) main_v98 main_v101 main_c_39

def fn_part4 {F : FTy → Type} [FloatOps F] (main_arg14 : FVec F S2000 .f32) (main_arg15 : FVec F S40x64 .f32) (main_arg16 : FVec F S64 .f32) (main_arg17 : FVec F S40x10 .f32) (main_arg18 : FVec F S10 .f32) (main_arg19 : FVec F S40x20000 .f32) (main_arg20 : FVec F S20000 .f32) (main_v63 : IVec S_ 1) (main_v67 : IVec S_ 1) : IVec S_ 1 :=
  let main_v68 : IVec S_ 1 := andi main_v63 main_v67
  let main_v69 : FVec F S2000 .f32 := Host.absf main_arg14
  let main_cst_26 : FVec F S_ .f32 := constant S_ .f32 0x7F800000#32
  let main_v70 : FVec F S2000 .f32 := broadcastInDim S2000 ![] bcast_S_S2000 main_cst_26
  let main_v71 : IVec S2000 1 := cmpf .olt main_v69 main_v70
  let main_c_27 : IVec S_ 1 := constantI S_ 1 1#1
  let main_v72 : IVec S_ 1 := (fun x v => Host.reduce IntOp.andi x v reducesTo_S2000_S_d0 h_S_) main_v71 main_c_27
  let main_v73 : IVec S_ 1 := andi main_v68 main_v72
  let main_v74 : FVec F S40x64 .f32 := Host.absf main_arg15
  let main_cst_28 : FVec F S_ .f32 := constant S_ .f32 0x7F800000#32
  let main_v75 : FVec F S40x64 .f32 := broadcastInDim S40x64 ![] bcast_S_S40x64 main_cst_28
  let main_v76 : IVec S40x64 1 := cmpf .olt main_v74 main_v75
  let main_c_29 : IVec S_ 1 := constantI S_ 1 1#1
  let main_v77 : IVec S_ 1 := (fun x v => Host.reduce IntOp.andi x v reducesTo_S40x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S40x10 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S32x20 .f32) (main_arg12 : FVec F S20 .f32) (main_arg13 : FVec F S40x2000 .f32) (main_arg14 : FVec F S2000 .f32) (main_arg15 : FVec F S40x64 .f32) (main_arg16 : FVec F S64 .f32) (main_arg17 : FVec F S40x10 .f32) (main_arg18 : FVec F S10 .f32) (main_arg19 : FVec F S40x20000 .f32) (main_arg20 : FVec F S20000 .f32) (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  let main_v54 : FVec F S32x20 .f32 := Host.absf main_arg11
  let main_cst_20 : FVec F S_ .f32 := constant S_ .f32 0x7F800000#32
  let main_v55 : FVec F S32x20 .f32 := broadcastInDim S32x20 ![] bcast_S_S32x20 main_cst_20
  let main_v56 : IVec S32x20 1 := cmpf .olt main_v54 main_v55
  let main_c_21 : IVec S_ 1 := constantI S_ 1 1#1
  let main_v57 : IVec S_ 1 := (fun x v => Host.reduce IntOp.andi x v reducesTo_S32x20_S_d0_1 h_S_) main_v56 main_c_21
  let main_v58 : IVec S_ 1 := andi main_v53 main_v57
  let main_v59 : FVec F S20 .f32 := Host.absf main_arg12
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  let main_v64 : FVec F S40x2000 .f32 := Host.absf main_arg13
  let main_cst_24 : FVec F S_ .f32 := constant S_ .f32 0x7F800000#32
  let main_v65 : FVec F S40x2000 .f32 := broadcastInDim S40x2000 ![] bcast_S_S40x2000 main_cst_24
  let main_v66 : IVec S40x2000 1 := cmpf .olt main_v64 main_v65
  let main_c_25 : IVec S_ 1 := constantI S_ 1 1#1
  let main_v67 : IVec S_ 1 := (fun x v => Host.reduce IntOp.andi x v reducesTo_S40x2000_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S20x32 .f32) (main_arg8 : FVec F S32 .f32) (main_arg9 : FVec F S32x20 .f32) (main_arg10 : FVec F S20 .f32) (main_arg11 : FVec F S32x20 .f32) (main_arg12 : FVec F S20 .f32) (main_arg13 : FVec F S40x2000 .f32) (main_arg14 : FVec F S2000 .f32) (main_arg15 : FVec F S40x64 .f32) (main_arg16 : FVec F S64 .f32) (main_arg17 : FVec F S40x10 .f32) (main_arg18 : FVec F S10 .f32) (main_arg19 : FVec F S40x20000 .f32) (main_arg20 : FVec F S20000 .f32) (main_v33 : IVec S_ 1) : IVec S_ 1 :=
  let main_v34 : FVec F S20x32 .f32 := Host.absf main_arg7
  let main_cst_12 : FVec F S_ .f32 := constant S_ .f32 0x7F800000#32
  let main_v35 : FVec F S20x32 .f32 := broadcastInDim S20x32 ![] bcast_S_S20x32 main_cst_12
  let main_v36 : IVec S20x32 1 := cmpf .olt main_v34 main_v35
  let main_c_13 : IVec S_ 1 := constantI S_ 1 1#1
  let main_v37 : IVec S_ 1 := (fun x v => Host.reduce IntOp.andi x v reducesTo_S20x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x20 .f32 := Host.absf main_arg9
  let main_cst_16 : FVec F S_ .f32 := constant S_ .f32 0x7F800000#32
  let main_v45 : FVec F S32x20 .f32 := broadcastInDim S32x20 ![] bcast_S_S32x20 main_cst_16
  let main_v46 : IVec S32x20 1 := cmpf .olt main_v44 main_v45
  let main_c_17 : IVec S_ 1 := constantI S_ 1 1#1
  let main_v47 : IVec S_ 1 := (fun x v => Host.reduce IntOp.andi x v reducesTo_S32x20_S_d0_1 h_S_) main_v46 main_c_17
  let main_v48 : IVec S_ 1 := andi main_v43 main_v47
  let main_v49 : FVec F S20 .f32 := Host.absf main_arg10
  let main_cst_18 : FVec F S_ .f32 := constant S_ .f32 0x7F800000#32
  let main_v50 : FVec F S20 .f32 := broadcastInDim S20 ![] bcast_S_S20 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S100 .f32) (main_arg5 : FVec F S100x20 .f32) (main_arg6 : FVec F S20 .f32) (main_arg7 : FVec F S20x32 .f32) (main_arg8 : FVec F S32 .f32) (main_arg9 : FVec F S32x20 .f32) (main_arg10 : FVec F S20 .f32) (main_arg11 : FVec F S32x20 .f32) (main_arg12 : FVec F S20 .f32) (main_arg13 : FVec F S40x2000 .f32) (main_arg14 : FVec F S2000 .f32) (main_arg15 : FVec F S40x64 .f32) (main_arg16 : FVec F S64 .f32) (main_arg17 : FVec F S40x10 .f32) (main_arg18 : FVec F S10 .f32) (main_arg19 : FVec F S40x20000 .f32) (main_arg20 : FVec F S20000 .f32) (main_v13 : IVec S_ 1) (main_v16 : IVec S2000x100 1) : IVec S_ 1 :=
  let main_c_5 : IVec S_ 1 := constantI S_ 1 1#1
  let main_v17 : IVec S_ 1 := (fun x v => Host.reduce IntOp.andi x v reducesTo_S2000x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x20 .f32 := Host.absf main_arg5
  let main_cst_8 : FVec F S_ .f32 := constant S_ .f32 0x7F800000#32
  let main_v25 : FVec F S100x20 .f32 := broadcastInDim S100x20 ![] bcast_S_S100x20 main_cst_8
  let main_v26 : IVec S100x20 1 := cmpf .olt main_v24 main_v25
  let main_c_9 : IVec S_ 1 := constantI S_ 1 1#1
  let main_v27 : IVec S_ 1 := (fun x v => Host.reduce IntOp.andi x v reducesTo_S100x20_S_d0_1 h_S_) main_v26 main_c_9
  let main_v28 : IVec S_ 1 := andi main_v23 main_v27
  let main_v29 : FVec F S20 .f32 := Host.absf main_arg6
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S10000x2000 .f32) (main_arg1 : FVec F S320000 .f32) (main_arg2 : FVec F S10000x20 .f32) (main_arg3 : FVec F S2000x100 .f32) (main_arg4 : FVec F S100 .f32) (main_arg5 : FVec F S100x20 .f32) (main_arg6 : FVec F S20 .f32) (main_arg7 : FVec F S20x32 .f32) (main_arg8 : FVec F S32 .f32) (main_arg9 : FVec F S32x20 .f32) (main_arg10 : FVec F S20 .f32) (main_arg11 : FVec F S32x20 .f32) (main_arg12 : FVec F S20 .f32) (main_arg13 : FVec F S40x2000 .f32) (main_arg14 : FVec F S2000 .f32) (main_arg15 : FVec F S40x64 .f32) (main_arg16 : FVec F S64 .f32) (main_arg17 : FVec F S40x10 .f32) (main_arg18 : FVec F S10 .f32) (main_arg19 : FVec F S40x20000 .f32) (main_arg20 : FVec F S20000 .f32) (main_arg21 : IVec S2x320000 32) (main_arg22 : IVec S2x320000 32) : IVec S_ 1 :=
  let main_v0 : FVec F S10000x2000 .f32 := Host.absf main_arg0
  let main_cst : FVec F S_ .f32 := constant S_ .f32 0x7F800000#32
  let main_v1 : FVec F S10000x2000 .f32 := broadcastInDim S10000x2000 ![] bcast_S_S10000x2000 main_cst
  let main_v2 : IVec S10000x2000 1 := cmpf .olt main_v0 main_v1
  let main_c : IVec S_ 1 := constantI S_ 1 1#1
  let main_v3 : IVec S_ 1 := (fun x v => Host.reduce IntOp.andi x v reducesTo_S10000x2000_S_d0_1 h_S_) main_v2 main_c
  let main_v4 : FVec F S320000 .f32 := Host.absf main_arg1
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S10000x20 .f32 := Host.absf main_arg2
  let main_cst_2 : FVec F S_ .f32 := constant S_ .f32 0x7F800000#32
  let main_v10 : FVec F S10000x20 .f32 := broadcastInDim S10000x20 ![] bcast_S_S10000x20 main_cst_2
  let main_v11 : IVec S10000x20 1 := cmpf .olt main_v9 main_v10
  let main_c_3 : IVec S_ 1 := constantI S_ 1 1#1
  let main_v12 : IVec S_ 1 := (fun x v => Host.reduce IntOp.andi x v reducesTo_S10000x20_S_d0_1 h_S_) main_v11 main_c_3
  let main_v13 : IVec S_ 1 := andi main_v8 main_v12
  let main_v14 : FVec F S2000x100 .f32 := Host.absf main_arg3
  let main_cst_4 : FVec F S_ .f32 := constant S_ .f32 0x7F800000#32
  let main_v15 : FVec F S2000x100 .f32 := broadcastInDim S2000x100 ![] bcast_S_S2000x100 main_cst_4
  let main_v16 : IVec S2000x100 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S10000x2000 : Shape := ⟨2, ![10000, 2000]⟩
abbrev S320000 : Shape := ⟨1, ![320000]⟩
abbrev S10000x20 : Shape := ⟨2, ![10000, 20]⟩
abbrev S2000x100 : Shape := ⟨2, ![2000, 100]⟩
abbrev S100 : Shape := ⟨1, ![100]⟩
abbrev S100x20 : Shape := ⟨2, ![100, 20]⟩
abbrev S20 : Shape := ⟨1, ![20]⟩
abbrev S20x32 : Shape := ⟨2, ![20, 32]⟩
abbrev S32 : Shape := ⟨1, ![32]⟩
abbrev S32x20 : Shape := ⟨2, ![32, 20]⟩
abbrev S40x2000 : Shape := ⟨2, ![40, 2000]⟩
abbrev S2000 : Shape := ⟨1, ![2000]⟩
abbrev S40x64 : Shape := ⟨2, ![40, 64]⟩
abbrev S64 : Shape := ⟨1, ![64]⟩
abbrev S40x10 : Shape := ⟨2, ![40, 10]⟩
abbrev S10 : Shape := ⟨1, ![10]⟩
abbrev S40x20000 : Shape := ⟨2, ![40, 20000]⟩
abbrev S20000 : Shape := ⟨1, ![20000]⟩
abbrev S2x320000 : Shape := ⟨2, ![2, 320000]⟩
abbrev S1x320000 : Shape := ⟨2, ![1, 320000]⟩
abbrev S1x100 : Shape := ⟨2, ![1, 100]⟩
abbrev S1x20 : Shape := ⟨2, ![1, 20]⟩
abbrev S1000x2000 : Shape := ⟨2, ![1000, 2000]⟩
abbrev S1000x20 : Shape := ⟨2, ![1000, 20]⟩
abbrev S1000x100 : Shape := ⟨2, ![1000, 100]⟩
abbrev S_ : Shape := ⟨0, ![]⟩
abbrev S10000 : Shape := ⟨1, ![10000]⟩
abbrev S320000x1 : Shape := ⟨2, ![320000, 1]⟩
abbrev S10000x32 : Shape := ⟨2, ![10000, 32]⟩
abbrev S320000x32 : Shape := ⟨2, ![320000, 32]⟩
abbrev S10000x1 : Shape := ⟨2, ![10000, 1]⟩
abbrev S1x32 : Shape := ⟨2, ![1, 32]⟩
abbrev S320000x20 : Shape := ⟨2, ![320000, 20]⟩
abbrev S10000x40 : Shape := ⟨2, ![10000, 40]⟩
abbrev S1x2000 : Shape := ⟨2, ![1, 2000]⟩
abbrev S1x20000 : Shape := ⟨2, ![1, 20000]⟩
abbrev S1x10 : Shape := ⟨2, ![1, 10]⟩
abbrev S1x64 : Shape := ⟨2, ![1, 64]⟩
abbrev S10000x20000 : Shape := ⟨2, ![10000, 20000]⟩
abbrev S10000x10 : Shape := ⟨2, ![10000, 10]⟩
abbrev S10000x64 : Shape := ⟨2, ![10000, 64]⟩
abbrev S200x40 : Shape := ⟨2, ![200, 40]⟩
abbrev S200x2000 : Shape := ⟨2, ![200, 2000]⟩
abbrev S200x20000 : Shape := ⟨2, ![200, 20000]⟩
abbrev S200x10 : Shape := ⟨2, ![200, 10]⟩
abbrev S200x64 : Shape := ⟨2, ![200, 64]⟩
abbrev S40x1000 : Shape := ⟨2, ![40, 1000]⟩
abbrev S1x1000 : Shape := ⟨2, ![1, 1000]⟩
abbrev S200x1000 : Shape := ⟨2, ![200, 1000]⟩
abbrev S200x100x10 : Shape := ⟨3, ![200, 100, 10]⟩
abbrev S200x100 : Shape := ⟨2, ![200, 100]⟩
abbrev S200x100x1 : Shape := ⟨3, ![200, 100, 1]⟩
abbrev S200 : Shape := ⟨1, ![200]⟩
abbrev S200x1 : Shape := ⟨2, ![200, 1]⟩
abbrev S320000x64 : Shape := ⟨2, ![320000, 64]⟩

abbrev nBuf : Space → Nat
  | .hbm => 305
  | .vmem => 26
  | .smem => 0
  | _ => 0

abbrev hbmTy0_0 (i : Nat) : BufTy := match i % 128 with
  | 0 => ⟨S10000x2000, .f32⟩
  | 1 => ⟨S320000, .f32⟩
  | 2 => ⟨S10000x20, .f32⟩
  | 3 => ⟨S2000x100, .f32⟩
  | 4 => ⟨S100, .f32⟩
  | 5 => ⟨S100x20, .f32⟩
  | 6 => ⟨S20, .f32⟩
  | 7 => ⟨S20x32, .f32⟩
  | 8 => ⟨S32, .f32⟩
  | 9 => ⟨S32x20, .f32⟩
  | 10 => ⟨S20, .f32⟩
  | 11 => ⟨S32x20, .f32⟩
  | 12 => ⟨S20, .f32⟩
  | 13 => ⟨S40x2000, .f32⟩
  | 14 => ⟨S2000, .f32⟩
  | 15 => ⟨S40x64, .f32⟩
  | 16 => ⟨S64, .f32⟩
  | 17 => ⟨S40x10, .f32⟩
  | 18 => ⟨S10, .f32⟩
  | 19 => ⟨S40x20000, .f32⟩
  | 20 => ⟨S20000, .f32⟩
  | 21 => ⟨S2x320000, .i32⟩
  | 22 => ⟨S2x320000, .i32⟩
  | 23 => ⟨S1x320000, .i32⟩
  | 24 => ⟨S320000, .i32⟩
  | 25 => ⟨S1x320000, .i32⟩
  | 26 => ⟨S320000, .i32⟩
  | 27 => ⟨S1x320000, .i32⟩
  | 28 => ⟨S320000, .i32⟩
  | 29 => ⟨S1x320000, .i32⟩
  | 30 => ⟨S320000, .i32⟩
  | 31 => ⟨S1x100, .f32⟩
  | 32 => ⟨S1x20, .f32⟩
  | 33 => ⟨S10000x20, .f32⟩
  | 34 => ⟨S_, .f32⟩
  | 35 => ⟨S10000, .f32⟩
  | 36 => ⟨S320000x1, .i32⟩
  | 37 => ⟨S10000, .f32⟩
  | 38 => ⟨S_, .f32⟩
  | 39 => ⟨S10000, .f32⟩
  | 40 => ⟨S10000, .f32⟩
  | 41 => ⟨S10000, .f32⟩
  | 42 => ⟨S10000x32, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000, .f32⟩
  | 61 => ⟨S320000, .f32⟩
  | 62 => ⟨S320000, .f32⟩
  | 63 => ⟨S320000x1, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S320000x32, .f32⟩
  | 73 => ⟨S320000x32, .f32⟩
  | 74 => ⟨S320000x32, .f32⟩
  | 75 => ⟨S_, .f32⟩
  | 76 => ⟨S10000x32, .f32⟩
  | 77 => ⟨S320000x1, .i32⟩
  | 78 => ⟨S10000x32, .f32⟩
  | 79 => ⟨S10000, .f32⟩
  | 80 => ⟨S10000x1, .f32⟩
  | 81 => ⟨S10000x32, .f32⟩
  | 82 => ⟨S10000x32, .f32⟩
  | 83 => ⟨S10000x32, .f32⟩
  | 84 => ⟨S1x32, .f32⟩
  | 85 => ⟨S10000x32, .f32⟩
  | 86 => ⟨S10000x32, .f32⟩
  | 87 => ⟨S_, .f32⟩
  | 88 => ⟨S10000x32, .f32⟩
  | 89 => ⟨S10000x32, .f32⟩
  | 90 => ⟨S_, .f32⟩
  | 91 => ⟨S10000, .f32⟩
  | 92 => ⟨S320000x1, .i32⟩
  | 93 => ⟨S10000, .f32⟩
  | 94 => ⟨S_, .f32⟩
  | 95 => ⟨S10000, .f32⟩
  | 96 => ⟨S10000, .f32⟩
  | 97 => ⟨S10000, .f32⟩
  | 98 => ⟨S10000x20, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000, .f32⟩
  | 117 => ⟨S320000, .f32⟩
  | 118 => ⟨S320000, .f32⟩
  | 119 => ⟨S320000x1, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x2000, .f32⟩

abbrev hbmTy0_1 (i : Nat) : BufTy := match i % 128 with
  | 0 => ⟨S320000x20, .f32⟩
  | 1 => ⟨S320000x20, .f32⟩
  | 2 => ⟨S320000x20, .f32⟩
  | 3 => ⟨S_, .f32⟩
  | 4 => ⟨S10000x20, .f32⟩
  | 5 => ⟨S320000x1, .i32⟩
  | 6 => ⟨S10000x20, .f32⟩
  | 7 => ⟨S10000, .f32⟩
  | 8 => ⟨S10000x1, .f32⟩
  | 9 => ⟨S10000x20, .f32⟩
  | 10 => ⟨S10000x20, .f32⟩
  | 11 => ⟨S10000x20, .f32⟩
  | 12 => ⟨S1x20, .f32⟩
  | 13 => ⟨S10000x20, .f32⟩
  | 14 => ⟨S10000x20, .f32⟩
  | 15 => ⟨S_, .f32⟩
  | 16 => ⟨S10000, .f32⟩
  | 17 => ⟨S320000x1, .i32⟩
  | 18 => ⟨S10000, .f32⟩
  | 19 => ⟨S_, .f32⟩
  | 20 => ⟨S10000, .f32⟩
  | 21 => ⟨S10000, .f32⟩
  | 22 => ⟨S10000, .f32⟩
  | 23 => ⟨S10000x20, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000, .f32⟩
  | 42 => ⟨S320000, .f32⟩
  | 43 => ⟨S320000, .f32⟩
  | 44 => ⟨S320000x1, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000x20, .f32⟩
  | 54 => ⟨S320000x20, .f32⟩
  | 55 => ⟨S320000x20, .f32⟩
  | 56 => ⟨S_, .f32⟩
  | 57 => ⟨S10000x20, .f32⟩
  | 58 => ⟨S320000x1, .i32⟩
  | 59 => ⟨S10000x20, .f32⟩
  | 60 => ⟨S10000, .f32⟩
  | 61 => ⟨S10000x1, .f32⟩
  | 62 => ⟨S10000x20, .f32⟩
  | 63 => ⟨S10000x20, .f32⟩
  | 64 => ⟨S10000x20, .f32⟩
  | 65 => ⟨S1x20, .f32⟩
  | 66 => ⟨S10000x20, .f32⟩
  | 67 => ⟨S10000x20, .f32⟩
  | 68 => ⟨S_, .f32⟩
  | 69 => ⟨S10000x20, .f32⟩
  | 70 => ⟨S10000x20, .f32⟩
  | 71 => ⟨S10000x20, .f32⟩
  | 72 => ⟨S10000x20, .f32⟩
  | 73 => ⟨S10000x20, .f32⟩
  | 74 => ⟨S10000x40, .f32⟩
  | 75 => ⟨S1x2000, .f32⟩
  | 76 => ⟨S1x20000, .f32⟩
  | 77 => ⟨S1x10, .f32⟩
  | 78 => ⟨S1x64, .f32⟩
  | 79 => ⟨S10000x2000, .f32⟩
  | 80 => ⟨S10000x20000, .f32⟩
  | 81 => ⟨S10000x10, .f32⟩
  | 82 => ⟨S10000x64, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x64, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x64, .f32⟩
  | 101 => ⟨S320000x64, .f32⟩
  | 102 => ⟨S_, .f32⟩
  | 103 => ⟨S320000, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000x64, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x64, .f32⟩
  | 122 => ⟨S320000x64, .f32⟩
  | 123 => ⟨S_, .f32⟩
  | 124 => ⟨S320000, .f32⟩
  | 125 => ⟨S320000, .f32⟩
  | 126 => ⟨S320000, .f32⟩
  | 127 => ⟨S_, .f32⟩
  | _ => ⟨S10000x2000, .f32⟩

abbrev hbmTy0_2 (i : Nat) : BufTy := match i % 128 with
  | 0 => ⟨S320000, .f32⟩
  | 1 => ⟨S320000, .f32⟩
  | 2 => ⟨S_, .f32⟩
  | 3 => ⟨S320000, .f32⟩
  | 4 => ⟨S320000, .f32⟩
  | 5 => ⟨S320000, .f32⟩
  | 6 => ⟨S320000, .f32⟩
  | 7 => ⟨S_, .f32⟩
  | 8 => ⟨S320000, .f32⟩
  | 9 => ⟨S320000, .f32⟩
  | 10 => ⟨S_, .f32⟩
  | 11 => ⟨S320000, .f32⟩
  | 12 => ⟨S320000, .f32⟩
  | 13 => ⟨S320000, .f32⟩
  | 14 => ⟨S320000, .f32⟩
  | 15 => ⟨S_, .f32⟩
  | 16 => ⟨S_, .f32⟩
  | 17 => ⟨S_, .f32⟩
  | 18 => ⟨S_, .f32⟩
  | 19 => ⟨S320000, .f32⟩
  | 20 => ⟨S_, .f32⟩
  | 21 => ⟨S_, .f32⟩
  | 22 => ⟨S_, .f32⟩
  | 23 => ⟨S_, .f32⟩
  | 24 => ⟨S_, .f32⟩
  | 25 => ⟨S10000x20, .f32⟩
  | 26 => ⟨S10000x20, .f32⟩
  | 27 => ⟨S_, .f32⟩
  | 28 => ⟨S10000x20, .f32⟩
  | 29 => ⟨S10000x20, .f32⟩
  | 30 => ⟨S10000x20, .f32⟩
  | 31 => ⟨S10000x20, .f32⟩
  | 32 => ⟨S_, .f32⟩
  | 33 => ⟨S10000x20, .f32⟩
  | 34 => ⟨S10000x20, .f32⟩
  | 35 => ⟨S10000x20, .f32⟩
  | 36 => ⟨S10000x20, .f32⟩
  | 37 => ⟨S_, .f32⟩
  | 38 => ⟨S10000, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | _ => ⟨S10000x2000, .f32⟩

abbrev hbmTy (i : Nat) : BufTy := match i / 128 with
  | 0 => hbmTy0_0 i
  | 1 => hbmTy0_1 i
  | 2 => hbmTy0_2 i
  | _ => ⟨S10000x2000, .f32⟩

abbrev bufTy : (tb : Table) → Fin (tcTables nBuf tb) → BufTy
  | .hbm, ⟨i, _⟩ => hbmTy i
  | .local _ .vmem, ⟨0, _⟩ => ⟨S1000x2000, .f32⟩
  | .local _ .vmem, ⟨1, _⟩ => ⟨S1000x2000, .f32⟩
  | .local _ .vmem, ⟨2, _⟩ => ⟨S2000x100, .f32⟩
  | .local _ .vmem, ⟨3, _⟩ => ⟨S1x100, .f32⟩
  | .local _ .vmem, ⟨4, _⟩ => ⟨S100x20, .f32⟩
  | .local _ .vmem, ⟨5, _⟩ => ⟨S1x20, .f32⟩
  | .local _ .vmem, ⟨6, _⟩ => ⟨S1000x20, .f32⟩
  | .local _ .vmem, ⟨7, _⟩ => ⟨S1000x20, .f32⟩
  | .local _ .vmem, ⟨8, _⟩ => ⟨S200x40, .f32⟩
  | .local _ .vmem, ⟨9, _⟩ => ⟨S200x40, .f32⟩
  | .local _ .vmem, ⟨10, _⟩ => ⟨S40x2000, .f32⟩
  | .local _ .vmem, ⟨11, _⟩ => ⟨S1x2000, .f32⟩
  | .local _ .vmem, ⟨12, _⟩ => ⟨S40x20000, .f32⟩
  | .local _ .vmem, ⟨13, _⟩ => ⟨S1x20000, .f32⟩
  | .local _ .vmem, ⟨14, _⟩ => ⟨S40x10, .f32⟩
  | .local _ .vmem, ⟨15, _⟩ => ⟨S1x10, .f32⟩
  | .local _ .vmem, ⟨16, _⟩ => ⟨S40x64, .f32⟩
  | .local _ .vmem, ⟨17, _⟩ => ⟨S1x64, .f32⟩
  | .local _ .vmem, ⟨18, _⟩ => ⟨S200x2000, .f32⟩
  | .local _ .vmem, ⟨19, _⟩ => ⟨S200x2000, .f32⟩
  | .local _ .vmem, ⟨20, _⟩ => ⟨S200x20000, .f32⟩
  | .local _ .vmem, ⟨21, _⟩ => ⟨S200x20000, .f32⟩
  | .local _ .vmem, ⟨22, _⟩ => ⟨S200x10, .f32⟩
  | .local _ .vmem, ⟨23, _⟩ => ⟨S200x10, .f32⟩
  | .local _ .vmem, ⟨24, _⟩ => ⟨S200x64, .f32⟩
  | .local _ .vmem, ⟨25, _⟩ => ⟨S200x64, .f32⟩
  | _, _ => ⟨S10000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_2 : Ref sig .tc := ⟨.hbm, 52, rfl⟩
abbrev main_v25 : Ref sig .tc := ⟨.hbm, 53, rfl⟩
abbrev main_v26 : Ref sig .tc := ⟨.hbm, 54, rfl⟩
abbrev main_c_3 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_4 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call0_cst : Ref sig .tc := ⟨.hbm, 87, rfl⟩
abbrev main_call0_v0 : Ref sig .tc := ⟨.hbm, 88, rfl⟩
abbrev main_v55 : Ref sig .tc := ⟨.hbm, 89, rfl⟩
abbrev main_cst_7 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_8 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_9 : Ref sig .tc := ⟨.hbm, 99, rfl⟩
abbrev main_v63 : Ref sig .tc := ⟨.hbm, 100, rfl⟩
abbrev main_v64 : Ref sig .tc := ⟨.hbm, 101, rfl⟩
abbrev main_c_10 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_11 : Ref sig .tc := ⟨.hbm, 108, rfl⟩
abbrev main_v70 : Ref sig .tc := ⟨.hbm, 109, rfl⟩
abbrev main_v71 : Ref sig .tc := ⟨.hbm, 110, rfl⟩
abbrev main_c_12 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_13 : Ref sig .tc := ⟨.hbm, 120, rfl⟩
abbrev main_v80 : Ref sig .tc := ⟨.hbm, 121, rfl⟩
abbrev main_v81 : Ref sig .tc := ⟨.hbm, 122, rfl⟩
abbrev main_c_14 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_15 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_16 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_17 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_18 : Ref sig .tc := ⟨.hbm, 152, rfl⟩
abbrev main_v107 : Ref sig .tc := ⟨.hbm, 153, rfl⟩
abbrev main_v108 : Ref sig .tc := ⟨.hbm, 154, rfl⟩
abbrev main_c_19 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_c_20 : Ref sig .tc := ⟨.hbm, 161, rfl⟩
abbrev main_v114 : Ref sig .tc := ⟨.hbm, 162, rfl⟩
abbrev main_v115 : Ref sig .tc := ⟨.hbm, 163, rfl⟩
abbrev main_c_21 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_c_22 : Ref sig .tc := ⟨.hbm, 173, rfl⟩
abbrev main_v124 : Ref sig .tc := ⟨.hbm, 174, rfl⟩
abbrev main_v125 : Ref sig .tc := ⟨.hbm, 175, rfl⟩
abbrev main_c_23 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_24 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_25 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154_0 : Ref sig .tc := ⟨.hbm, 207, rfl⟩
abbrev main_v154_1 : Ref sig .tc := ⟨.hbm, 208, rfl⟩
abbrev main_v154_2 : Ref sig .tc := ⟨.hbm, 209, rfl⟩
abbrev main_v154_3 : Ref sig .tc := ⟨.hbm, 210, rfl⟩
abbrev main_c_26 : Ref sig .tc := ⟨.hbm, 211, rfl⟩
abbrev main_v155 : Ref sig .tc := ⟨.hbm, 212, rfl⟩
abbrev main_v156 : Ref sig .tc := ⟨.hbm, 213, rfl⟩
abbrev main_c_27 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_c_28 : Ref sig .tc := ⟨.hbm, 220, rfl⟩
abbrev main_v162 : Ref sig .tc := ⟨.hbm, 221, rfl⟩
abbrev main_v163 : Ref sig .tc := ⟨.hbm, 222, rfl⟩
abbrev main_c_29 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_30 : Ref sig .tc := ⟨.hbm, 230, rfl⟩
abbrev main_v170 : Ref sig .tc := ⟨.hbm, 231, rfl⟩
abbrev main_c_31 : Ref sig .tc := ⟨.hbm, 232, rfl⟩
abbrev main_v171 : Ref sig .tc := ⟨.hbm, 233, rfl⟩
abbrev main_v172 : Ref sig .tc := ⟨.hbm, 234, rfl⟩
abbrev main_c_32 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_c_33 : Ref sig .tc := ⟨.hbm, 241, rfl⟩
abbrev main_v178 : Ref sig .tc := ⟨.hbm, 242, rfl⟩
abbrev main_v179 : Ref sig .tc := ⟨.hbm, 243, rfl⟩
abbrev main_c_34 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_35 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_cst_36 : Ref sig .tc := ⟨.hbm, 255, rfl⟩
abbrev main_v189 : Ref sig .tc := ⟨.hbm, 256, rfl⟩
abbrev main_v190 : Ref sig .tc := ⟨.hbm, 257, rfl⟩
abbrev main_cst_37 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_cst_38 : Ref sig .tc := ⟨.hbm, 263, rfl⟩
abbrev main_v195 : Ref sig .tc := ⟨.hbm, 264, rfl⟩
abbrev main_v196 : Ref sig .tc := ⟨.hbm, 265, rfl⟩
abbrev main_cst_39 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_cst_40 : Ref sig .tc := ⟨.hbm, 271, rfl⟩
abbrev main_v201 : Ref sig .tc := ⟨.hbm, 272, rfl⟩
abbrev main_cst_41 : Ref sig .tc := ⟨.hbm, 273, rfl⟩
abbrev main_v202 : Ref sig .tc := ⟨.hbm, 274, rfl⟩
abbrev main_v203 : Ref sig .tc := ⟨.hbm, 275, rfl⟩
abbrev main_cst_42 : Ref sig .tc := ⟨.hbm, 276, rfl⟩
abbrev main_v204 : Ref sig .tc := ⟨.hbm, 277, rfl⟩
abbrev main_cst_43 : Ref sig .tc := ⟨.hbm, 278, rfl⟩
abbrev main_v205 : Ref sig .tc := ⟨.hbm, 279, rfl⟩
abbrev main_cst_44 : Ref sig .tc := ⟨.hbm, 280, rfl⟩
abbrev main_v206 : Ref sig .tc := ⟨.hbm, 281, rfl⟩
abbrev main_v207 : Ref sig .tc := ⟨.hbm, 282, rfl⟩
abbrev main_cst_45 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_cst_46 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_cst_47 : Ref sig .tc := ⟨.hbm, 293, rfl⟩
abbrev main_v216 : Ref sig .tc := ⟨.hbm, 294, rfl⟩
abbrev main_cst_48 : Ref sig .tc := ⟨.hbm, 295, rfl⟩
abbrev main_v217 : Ref sig .tc := ⟨.hbm, 296, rfl⟩
abbrev main_cst_49 : Ref sig .tc := ⟨.hbm, 297, rfl⟩
abbrev main_v218 : Ref sig .tc := ⟨.hbm, 298, rfl⟩
abbrev main_cst_50 : Ref sig .tc := ⟨.hbm, 299, rfl⟩
abbrev main_v219 : Ref sig .tc := ⟨.hbm, 300, rfl⟩
abbrev main_v220 : Ref sig .tc := ⟨.hbm, 301, rfl⟩
abbrev main_cst_51 : Ref sig .tc := ⟨.hbm, 302, rfl⟩
abbrev main_v221 : Ref sig .tc := ⟨.hbm, 303, rfl⟩
abbrev main_v222 : Ref sig .tc := ⟨.hbm, 304, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x2000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x20000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x20000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S40x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S200x2000 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S200x20000 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S200x10 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S200x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S100_S1x100 : S100.ShapeCasts S1x100
  shapeCasts_S20_S1x20 : S20.ShapeCasts S1x20
  inb_S1000x2000_S1000x2000_0_0 : ∀ a, (![0, 0] : Fin 2 → Nat) a + S1000x2000.size a ≤ S1000x2000.size a
  h_S1000x2000 : 0 < S1000x2000.numel
  inb_S2000x100_S2000x100_0_0 : ∀ a, (![0, 0] : Fin 2 → Nat) a + S2000x100.size a ≤ S2000x100.size a
  h_S2000x100 : 0 < S2000x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1000x100 : S1x100.Broadcasts S1000x100
  inb_S100x20_S100x20_0_0 : ∀ a, (![0, 0] : Fin 2 → Nat) a + S100x20.size a ≤ S100x20.size a
  h_S100x20 : 0 < S100x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S1000x20 : S1x20.Broadcasts S1000x20
  inb_S1000x20_S1000x20_0_0 : ∀ a, (![0, 0] : Fin 2 → Nat) a + S1000x20.size a ≤ S1000x20.size a
  h_S1000x20 : 0 < S1000x20.numel
  bcast_S_S10000 : S_.BroadcastsInDim S10000 (![] : Fin 0 → Fin S10000.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x32_0_1 : S320000x1.BroadcastsInDim S320000x32 (![0, 1] : Fin 2 → Fin S320000x32.rank)
  bcast_S_S10000x32 : S_.BroadcastsInDim S10000x32 (![] : Fin 0 → Fin S10000x32.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S320000x1_S320000x20_0_1 : S320000x1.BroadcastsInDim S320000x20 (![0, 1] : Fin 2 → Fin S320000x20.rank)
  bcast_S_S10000x20 : S_.BroadcastsInDim S10000x20 (![] : Fin 0 → Fin S10000x20.rank)
  bcast_S10000x1_S10000x20_0_1 : S10000x1.BroadcastsInDim S10000x20 (![0, 1] : Fin 2 → Fin S10000x20.rank)
  bcast_S20_S1x20_1 : S20.BroadcastsInDim S1x20 (![1] : Fin 1 → Fin S1x20.rank)
  bcast_S1x20_S10000x20_0_1 : S1x20.BroadcastsInDim S10000x20 (![0, 1] : Fin 2 → Fin S10000x20.rank)
  concatenates_S10000x20_S10000x20_S10000x40_d1 : Shape.Concatenates [S10000x20, S10000x20] S10000x40 1
  shapeCasts_S2000_S1x2000 : S2000.ShapeCasts S1x2000
  shapeCasts_S20000_S1x20000 : S20000.ShapeCasts S1x20000
  shapeCasts_S10_S1x10 : S10.ShapeCasts S1x10
  shapeCasts_S64_S1x64 : S64.ShapeCasts S1x64
  inb_S200x40_S200x40_0_0 : ∀ a, (![0, 0] : Fin 2 → Nat) a + S200x40.size a ≤ S200x40.size a
  h_S200x40 : 0 < S200x40.numel
  shapeCasts_S200x40_S200x40 : S200x40.ShapeCasts S200x40
  inb_S40x2000_S40x2000_0_0 : ∀ a, (![0, 0] : Fin 2 → Nat) a + S40x2000.size a ≤ S40x2000.size a
  h_S40x2000 : 0 < S40x2000.numel
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S200x2000 : S1x2000.Broadcasts S200x2000
  inb_S200x2000_S200x2000_0_0 : ∀ a, (![0, 0] : Fin 2 → Nat) a + S200x2000.size a ≤ S200x2000.size a
  h_S200x2000 : 0 < S200x2000.numel
  inb_S40x20000_S40x1000_0_0 : ∀ a, (![0, 0] : Fin 2 → Nat) a + S40x1000.size a ≤ S40x20000.size a
  h_S40x1000 : 0 < S40x1000.numel
  inb_S1x20000_S1x1000_0_0 : ∀ a, (![0, 0] : Fin 2 → Nat) a + S1x1000.size a ≤ S1x20000.size a
  h_S1x1000 : 0 < S1x1000.numel
  shapeCasts_S1x1000_S1x1000 : S1x1000.ShapeCasts S1x1000
  broadcasts_S1x1000_S200x1000 : S1x1000.Broadcasts S200x1000
  shapeCasts_S200x1000_S200x100x10 : S200x1000.ShapeCasts S200x100x10
  reduces_S200x100x10_S200x100 : S200x100x10.Reduces [2] S200x100
  shapeCasts_S200x100_S200x100x1 : S200x100.ShapeCasts S200x100x1
  broadcasts_S200x100x1_S200x100x10 : S200x100x1.Broadcasts S200x100x10
  shapeCasts_S200x100x10_S200x1000 : S200x100x10.ShapeCasts S200x1000
  inb_S200x20000_S200x1000_0_0 : ∀ a, (![0, 0] : Fin 2 → Nat) a + S200x1000.size a ≤ S200x20000.size a
  h_S200x1000 : 0 < S200x1000.numel
  inb_S40x20000_S40x1000_0_1000 : ∀ a, (![0, 1000] : Fin 2 → Nat) a + S40x1000.size a ≤ S40x20000.size a
  inb_S1x20000_S1x1000_0_1000 : ∀ a, (![0, 1000] : Fin 2 → Nat) a + S1x1000.size a ≤ S1x20000.size a
  inb_S200x20000_S200x1000_0_1000 : ∀ a, (![0, 1000] : Fin 2 → Nat) a + S200x1000.size a ≤ S200x20000.size a
  inb_S40x20000_S40x1000_0_2000 : ∀ a, (![0, 2000] : Fin 2 → Nat) a + S40x1000.size a ≤ S40x20000.size a
  inb_S1x20000_S1x1000_0_2000 : ∀ a, (![0, 2000] : Fin 2 → Nat) a + S1x1000.size a ≤ S1x20000.size a
  inb_S200x20000_S200x1000_0_2000 : ∀ a, (![0, 2000] : Fin 2 → Nat) a + S200x1000.size a ≤ S200x20000.size a
  inb_S40x20000_S40x1000_0_3000 : ∀ a, (![0, 3000] : Fin 2 → Nat) a + S40x1000.size a ≤ S40x20000.size a
  inb_S1x20000_S1x1000_0_3000 : ∀ a, (![0, 3000] : Fin 2 → Nat) a + S1x1000.size a ≤ S1x20000.size a
  inb_S200x20000_S200x1000_0_3000 : ∀ a, (![0, 3000] : Fin 2 → Nat) a + S200x1000.size a ≤ S200x20000.size a
  inb_S40x20000_S40x1000_0_4000 : ∀ a, (![0, 4000] : Fin 2 → Nat) a + S40x1000.size a ≤ S40x20000.size a
  inb_S1x20000_S1x1000_0_4000 : ∀ a, (![0, 4000] : Fin 2 → Nat) a + S1x1000.size a ≤ S1x20000.size a
  inb_S200x20000_S200x1000_0_4000 : ∀ a, (![0, 4000] : Fin 2 → Nat) a + S200x1000.size a ≤ S200x20000.size a
  inb_S40x20000_S40x1000_0_5000 : ∀ a, (![0, 5000] : Fin 2 → Nat) a + S40x1000.size a ≤ S40x20000.size a
  inb_S1x20000_S1x1000_0_5000 : ∀ a, (![0, 5000] : Fin 2 → Nat) a + S1x1000.size a ≤ S1x20000.size a
  inb_S200x20000_S200x1000_0_5000 : ∀ a, (![0, 5000] : Fin 2 → Nat) a + S200x1000.size a ≤ S200x20000.size a
  inb_S40x20000_S40x1000_0_6000 : ∀ a, (![0, 6000] : Fin 2 → Nat) a + S40x1000.size a ≤ S40x20000.size a
  inb_S1x20000_S1x1000_0_6000 : ∀ a, (![0, 6000] : Fin 2 → Nat) a + S1x1000.size a ≤ S1x20000.size a
  inb_S200x20000_S200x1000_0_6000 : ∀ a, (![0, 6000] : Fin 2 → Nat) a + S200x1000.size a ≤ S200x20000.size a
  inb_S40x20000_S40x1000_0_7000 : ∀ a, (![0, 7000] : Fin 2 → Nat) a + S40x1000.size a ≤ S40x20000.size a
  inb_S1x20000_S1x1000_0_7000 : ∀ a, (![0, 7000] : Fin 2 → Nat) a + S1x1000.size a ≤ S1x20000.size a
  inb_S200x20000_S200x1000_0_7000 : ∀ a, (![0, 7000] : Fin 2 → Nat) a + S200x1000.size a ≤ S200x20000.size a
  inb_S40x20000_S40x1000_0_8000 : ∀ a, (![0, 8000] : Fin 2 → Nat) a + S40x1000.size a ≤ S40x20000.size a
  inb_S1x20000_S1x1000_0_8000 : ∀ a, (![0, 8000] : Fin 2 → Nat) a + S1x1000.size a ≤ S1x20000.size a
  inb_S200x20000_S200x1000_0_8000 : ∀ a, (![0, 8000] : Fin 2 → Nat) a + S200x1000.size a ≤ S200x20000.size a
  inb_S40x20000_S40x1000_0_9000 : ∀ a, (![0, 9000] : Fin 2 → Nat) a + S40x1000.size a ≤ S40x20000.size a
  inb_S1x20000_S1x1000_0_9000 : ∀ a, (![0, 9000] : Fin 2 → Nat) a + S1x1000.size a ≤ S1x20000.size a
  inb_S200x20000_S200x1000_0_9000 : ∀ a, (![0, 9000] : Fin 2 → Nat) a + S200x1000.size a ≤ S200x20000.size a
  inb_S40x20000_S40x1000_0_10000 : ∀ a, (![0, 10000] : Fin 2 → Nat) a + S40x1000.size a ≤ S40x20000.size a
  inb_S1x20000_S1x1000_0_10000 : ∀ a, (![0, 10000] : Fin 2 → Nat) a + S1x1000.size a ≤ S1x20000.size a
  inb_S200x20000_S200x1000_0_10000 : ∀ a, (![0, 10000] : Fin 2 → Nat) a + S200x1000.size a ≤ S200x20000.size a
  inb_S40x20000_S40x1000_0_11000 : ∀ a, (![0, 11000] : Fin 2 → Nat) a + S40x1000.size a ≤ S40x20000.size a
  inb_S1x20000_S1x1000_0_11000 : ∀ a, (![0, 11000] : Fin 2 → Nat) a + S1x1000.size a ≤ S1x20000.size a
  inb_S200x20000_S200x1000_0_11000 : ∀ a, (![0, 11000] : Fin 2 → Nat) a + S200x1000.size a ≤ S200x20000.size a
  inb_S40x20000_S40x1000_0_12000 : ∀ a, (![0, 12000] : Fin 2 → Nat) a + S40x1000.size a ≤ S40x20000.size a
  inb_S1x20000_S1x1000_0_12000 : ∀ a, (![0, 12000] : Fin 2 → Nat) a + S1x1000.size a ≤ S1x20000.size a
  inb_S200x20000_S200x1000_0_12000 : ∀ a, (![0, 12000] : Fin 2 → Nat) a + S200x1000.size a ≤ S200x20000.size a
  inb_S40x20000_S40x1000_0_13000 : ∀ a, (![0, 13000] : Fin 2 → Nat) a + S40x1000.size a ≤ S40x20000.size a
  inb_S1x20000_S1x1000_0_13000 : ∀ a, (![0, 13000] : Fin 2 → Nat) a + S1x1000.size a ≤ S1x20000.size a
  inb_S200x20000_S200x1000_0_13000 : ∀ a, (![0, 13000] : Fin 2 → Nat) a + S200x1000.size a ≤ S200x20000.size a
  inb_S40x20000_S40x1000_0_14000 : ∀ a, (![0, 14000] : Fin 2 → Nat) a + S40x1000.size a ≤ S40x20000.size a
  inb_S1x20000_S1x1000_0_14000 : ∀ a, (![0, 14000] : Fin 2 → Nat) a + S1x1000.size a ≤ S1x20000.size a
  inb_S200x20000_S200x1000_0_14000 : ∀ a, (![0, 14000] : Fin 2 → Nat) a + S200x1000.size a ≤ S200x20000.size a
  inb_S40x20000_S40x1000_0_15000 : ∀ a, (![0, 15000] : Fin 2 → Nat) a + S40x1000.size a ≤ S40x20000.size a
  inb_S1x20000_S1x1000_0_15000 : ∀ a, (![0, 15000] : Fin 2 → Nat) a + S1x1000.size a ≤ S1x20000.size a
  inb_S200x20000_S200x1000_0_15000 : ∀ a, (![0, 15000] : Fin 2 → Nat) a + S200x1000.size a ≤ S200x20000.size a
  inb_S40x20000_S40x1000_0_16000 : ∀ a, (![0, 16000] : Fin 2 → Nat) a + S40x1000.size a ≤ S40x20000.size a
  inb_S1x20000_S1x1000_0_16000 : ∀ a, (![0, 16000] : Fin 2 → Nat) a + S1x1000.size a ≤ S1x20000.size a
  inb_S200x20000_S200x1000_0_16000 : ∀ a, (![0, 16000] : Fin 2 → Nat) a + S200x1000.size a ≤ S200x20000.size a
  inb_S40x20000_S40x1000_0_17000 : ∀ a, (![0, 17000] : Fin 2 → Nat) a + S40x1000.size a ≤ S40x20000.size a
  inb_S1x20000_S1x1000_0_17000 : ∀ a, (![0, 17000] : Fin 2 → Nat) a + S1x1000.size a ≤ S1x20000.size a
  inb_S200x20000_S200x1000_0_17000 : ∀ a, (![0, 17000] : Fin 2 → Nat) a + S200x1000.size a ≤ S200x20000.size a
  inb_S40x20000_S40x1000_0_18000 : ∀ a, (![0, 18000] : Fin 2 → Nat) a + S40x1000.size a ≤ S40x20000.size a
  inb_S1x20000_S1x1000_0_18000 : ∀ a, (![0, 18000] : Fin 2 → Nat) a + S1x1000.size a ≤ S1x20000.size a
  inb_S200x20000_S200x1000_0_18000 : ∀ a, (![0, 18000] : Fin 2 → Nat) a + S200x1000.size a ≤ S200x20000.size a
  inb_S40x20000_S40x1000_0_19000 : ∀ a, (![0, 19000] : Fin 2 → Nat) a + S40x1000.size a ≤ S40x20000.size a
  inb_S1x20000_S1x1000_0_19000 : ∀ a, (![0, 19000] : Fin 2 → Nat) a + S1x1000.size a ≤ S1x20000.size a
  inb_S200x20000_S200x1000_0_19000 : ∀ a, (![0, 19000] : Fin 2 → Nat) a + S200x1000.size a ≤ S200x20000.size a
  inb_S40x10_S40x10_0_0 : ∀ a, (![0, 0] : Fin 2 → Nat) a + S40x10.size a ≤ S40x10.size a
  h_S40x10 : 0 < S40x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S200x10 : S1x10.Broadcasts S200x10
  reduces_S200x10_S200 : S200x10.Reduces [1] S200
  shapeCasts_S200_S200x1 : S200.ShapeCasts S200x1
  broadcasts_S200x1_S200x10 : S200x1.Broadcasts S200x10
  inb_S200x10_S200x10_0_0 : ∀ a, (![0, 0] : Fin 2 → Nat) a + S200x10.size a ≤ S200x10.size a
  h_S200x10 : 0 < S200x10.numel
  inb_S40x64_S40x64_0_0 : ∀ a, (![0, 0] : Fin 2 → Nat) a + S40x64.size a ≤ S40x64.size a
  h_S40x64 : 0 < S40x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  reducesTo_S320000x64_S320000_d1 : S320000x64.ReducesTo [1] S320000
  h_S_ : 0 < S_.numel
  reducesTo_S320000_S_d0 : S320000.ReducesTo [0] S_
  reducesTo_S10000x20_S10000_d1 : S10000x20.ReducesTo [1] S10000
  reducesTo_S10000_S_d0 : S10000.ReducesTo [0] S_
  dot_S1000x2000_S2000x100_S1000x100_1_0_0_1_n_n_wf : DotDims.WF S1000x2000 S2000x100 S1000x100 [1] [0] [0] [1] [] []
  dot_S1000x100_S100x20_S1000x20_1_0_0_1_n_n_wf : DotDims.WF S1000x100 S100x20 S1000x20 [1] [0] [0] [1] [] []
  scatter_S10000_S320000x1_S320000_n_0_0_1_wf : ScatterDims.WF S10000 S320000x1 S320000 [] [0] [0] 1
  dot_S10000x20_S20x32_S10000x32_1_0_0_1_n_n_wf : DotDims.WF S10000x20 S20x32 S10000x32 [1] [0] [0] [1] [] []
  gather_S10000_S320000x1_S320000_n_0_n_n_0_1_1_wf : GatherDims.WF S10000 S320000x1 S320000 [] [0] [] [0] [] 1 ![1]
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S10000x32_S32x20_S10000x20_1_0_0_1_n_n_wf : DotDims.WF S10000x32 S32x20 S10000x20 [1] [0] [0] [1] [] []
  gather_S10000x20_S320000x1_S320000x20_1_0_n_n_0_1_120_wf : GatherDims.WF S10000x20 S320000x1 S320000x20 [1] [0] [] [0] [] 1 ![1, 20]
  scatter_S10000x20_S320000x1_S320000x20_1_0_0_1_wf : ScatterDims.WF S10000x20 S320000x1 S320000x20 [1] [0] [0] 1
  dot_S200x40_S40x2000_S200x2000_1_0_0_1_n_n_wf : DotDims.WF S200x40 S40x2000 S200x2000 [1] [0] [0] [1] [] []
  dot_S200x40_S40x1000_S200x1000_1_0_0_1_n_n_wf : DotDims.WF S200x40 S40x1000 S200x1000 [1] [0] [0] [1] [] []
  dot_S200x40_S40x10_S200x10_1_0_0_1_n_n_wf : DotDims.WF S200x40 S40x10 S200x10 [1] [0] [0] [1] [] []
  dot_S200x40_S40x64_S200x64_1_0_0_1_n_n_wf : DotDims.WF S200x40 S40x64 S200x64 [1] [0] [0] [1] [] []
  gather_S10000x64_S320000x1_S320000x64_1_0_n_n_0_1_164_wf : GatherDims.WF S10000x64 S320000x1 S320000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S10000x2000.size a
  hwx0_0 : ∀ i : grid0.Coords, EltTy.bits .f32 = 32 ∨ (Rect.block (s := S10000x2000) S1000x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x100.size a ≤ S2000x100.size a
  hwx0_1 : ∀ i : grid0.Coords, EltTy.bits .f32 = 32 ∨ (Rect.block (s := S2000x100) S2000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x20.size a ≤ S100x20.size a
  hwx0_3 : ∀ i : grid0.Coords, EltTy.bits .f32 = 32 ∨ (Rect.block (s := S100x20) S100x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x20.size a ≤ S10000x20.size a
  hwx0_5 : ∀ i : grid0.Coords, EltTy.bits .f32 = 32 ∨ (Rect.block (s := S10000x20) S1000x20.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x40.size a ≤ S10000x40.size a
  hwx1_0 : ∀ i : grid1.Coords, EltTy.bits .f32 = 32 ∨ (Rect.block (s := S10000x40) S200x40.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40x2000.size a ≤ S40x2000.size a
  hwx1_1 : ∀ i : grid1.Coords, EltTy.bits .f32 = 32 ∨ (Rect.block (s := S40x2000) S40x2000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2000.size a ≤ S1x2000.size a
  hwx1_2 : ∀ i : grid1.Coords, EltTy.bits .f32 = 32 ∨ (Rect.block (s := S1x2000) S1x2000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x20000.size a ≤ S40x20000.size a
  hwx1_3 : ∀ i : grid1.Coords, EltTy.bits .f32 = 32 ∨ (Rect.block (s := S40x20000) S40x20000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x20000.size a ≤ S1x20000.size a
  hwx1_4 : ∀ i : grid1.Coords, EltTy.bits .f32 = 32 ∨ (Rect.block (s := S1x20000) S1x20000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S40x10.size a ≤ S40x10.size a
  hwx1_5 : ∀ i : grid1.Coords, EltTy.bits .f32 = 32 ∨ (Rect.block (s := S40x10) S40x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S40x64.size a ≤ S40x64.size a
  hwx1_7 : ∀ i : grid1.Coords, EltTy.bits .f32 = 32 ∨ (Rect.block (s := S40x64) S40x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S200x2000.size a ≤ S10000x2000.size a
  hwx1_9 : ∀ i : grid1.Coords, EltTy.bits .f32 = 32 ∨ (Rect.block (s := S10000x2000) S200x2000.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S200x20000.size a ≤ S10000x20000.size a
  hwx1_10 : ∀ i : grid1.Coords, EltTy.bits .f32 = 32 ∨ (Rect.block (s := S10000x20000) S200x20000.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S200x10.size a ≤ S10000x10.size a
  hwx1_11 : ∀ i : grid1.Coords, EltTy.bits .f32 = 32 ∨ (Rect.block (s := S10000x10) S200x10.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S200x64.size a ≤ S10000x64.size a
  hwx1_12 : ∀ i : grid1.Coords, EltTy.bits .f32 = 32 ∨ (Rect.block (s := S10000x64) S200x64.size (cc1_transform_12 i) (hinb1_12 i)).WholeWords (EltTy.packing .f32)

variable [Facts₀]

def dot_S1000x2000_S2000x100_S1000x100_1_0_0_1_n_n : DotDims S1000x2000 S2000x100 S1000x100 where
  lhsContracting := [1]
  rhsContracting := [0]
  lhsNonContracting := [0]
  rhsNonContracting := [1]
  lhsBatch := []
  rhsBatch := []
  wf := dot_S1000x2000_S2000x100_S1000x100_1_0_0_1_n_n_wf
def dot_S1000x100_S100x20_S1000x20_1_0_0_1_n_n : DotDims S1000x100 S100x20 S1000x20 where
  lhsContracting := [1]
  rhsContracting := [0]
  lhsNonContracting := [0]
  rhsNonContracting := [1]
  lhsBatch := []
  rhsBatch := []
  wf := dot_S1000x100_S100x20_S1000x20_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x20_S20x32_S10000x32_1_0_0_1_n_n : DotDims S10000x20 S20x32 S10000x32 where
  lhsContracting := [1]
  rhsContracting := [0]
  lhsNonContracting := [0]
  rhsNonContracting := [1]
  lhsBatch := []
  rhsBatch := []
  wf := dot_S10000x20_S20x32_S10000x32_1_0_0_1_n_n_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S10000x32_S32x20_S10000x20_1_0_0_1_n_n : DotDims S10000x32 S32x20 S10000x20 where
  lhsContracting := [1]
  rhsContracting := [0]
  lhsNonContracting := [0]
  rhsNonContracting := [1]
  lhsBatch := []
  rhsBatch := []
  wf := dot_S10000x32_S32x20_S10000x20_1_0_0_1_n_n_wf
def gather_S10000x20_S320000x1_S320000x20_1_0_n_n_0_1_120 : GatherDims S10000x20 S320000x1 S320000x20 where
  offsetDims := [1]
  collapsedSliceDims := [0]
  operandBatchingDims := []
  startIndicesBatchingDims := []
  startIndexMap := [0]
  indexVectorDim := 1
  sliceSizes := ![1, 20]
  wf := gather_S10000x20_S320000x1_S320000x20_1_0_n_n_0_1_120_wf
def scatter_S10000x20_S320000x1_S320000x20_1_0_0_1 : ScatterDims S10000x20 S320000x1 S320000x20 where
  updateWindowDims := [1]
  insertedWindowDims := [0]
  scatterDimsToOperandDims := [0]
  indexVectorDim := 1
  wf := scatter_S10000x20_S320000x1_S320000x20_1_0_0_1_wf
def dot_S200x40_S40x2000_S200x2000_1_0_0_1_n_n : DotDims S200x40 S40x2000 S200x2000 where
  lhsContracting := [1]
  rhsContracting := [0]
  lhsNonContracting := [0]
  rhsNonContracting := [1]
  lhsBatch := []
  rhsBatch := []
  wf := dot_S200x40_S40x2000_S200x2000_1_0_0_1_n_n_wf
def dot_S200x40_S40x1000_S200x1000_1_0_0_1_n_n : DotDims S200x40 S40x1000 S200x1000 where
  lhsContracting := [1]
  rhsContracting := [0]
  lhsNonContracting := [0]
  rhsNonContracting := [1]
  lhsBatch := []
  rhsBatch := []
  wf := dot_S200x40_S40x1000_S200x1000_1_0_0_1_n_n_wf
def dot_S200x40_S40x10_S200x10_1_0_0_1_n_n : DotDims S200x40 S40x10 S200x10 where
  lhsContracting := [1]
  rhsContracting := [0]
  lhsNonContracting := [0]
  rhsNonContracting := [1]
  lhsBatch := []
  rhsBatch := []
  wf := dot_S200x40_S40x10_S200x10_1_0_0_1_n_n_wf
def dot_S200x40_S40x64_S200x64_1_0_0_1_n_n : DotDims S200x40 S40x64 S200x64 where
  lhsContracting := [1]
  rhsContracting := [0]
  lhsNonContracting := [0]
  rhsNonContracting := [1]
  lhsBatch := []
  rhsBatch := []
  wf := dot_S200x40_S40x64_S200x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf

abbrev win0_0 : Pipeline.Window sig grid0 :=
  Pipeline.Window.ofSpec (Memref.whole main_arg0) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S100x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1000x20.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v149) S200x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S40x2000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v150) S1x2000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg19) S40x20000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v151) S1x20000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S40x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v152) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S40x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v153) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v154_0) S200x2000.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v154_1) S200x20000.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v154_2) S200x10.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v154_3) S200x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S10000x2000 : Shape := ⟨2, ![10000, 2000]⟩
abbrev S320000 : Shape := ⟨1, ![320000]⟩
abbrev S10000x20 : Shape := ⟨2, ![10000, 20]⟩
abbrev S2000x100 : Shape := ⟨2, ![2000, 100]⟩
abbrev S100 : Shape := ⟨1, ![100]⟩
abbrev S100x20 : Shape := ⟨2, ![100, 20]⟩
abbrev S20 : Shape := ⟨1, ![20]⟩
abbrev S20x32 : Shape := ⟨2, ![20, 32]⟩
abbrev S32 : Shape := ⟨1, ![32]⟩
abbrev S32x20 : Shape := ⟨2, ![32, 20]⟩
abbrev S40x2000 : Shape := ⟨2, ![40, 2000]⟩
abbrev S2000 : Shape := ⟨1, ![2000]⟩
abbrev S40x64 : Shape := ⟨2, ![40, 64]⟩
abbrev S64 : Shape := ⟨1, ![64]⟩
abbrev S40x10 : Shape := ⟨2, ![40, 10]⟩
abbrev S10 : Shape := ⟨1, ![10]⟩
abbrev S40x20000 : Shape := ⟨2, ![40, 20000]⟩
abbrev S20000 : Shape := ⟨1, ![20000]⟩
abbrev S2x320000 : Shape := ⟨2, ![2, 320000]⟩
abbrev S1x320000 : Shape := ⟨2, ![1, 320000]⟩
abbrev S10000x100 : Shape := ⟨2, ![10000, 100]⟩
abbrev S1x100 : Shape := ⟨2, ![1, 100]⟩
abbrev S_ : Shape := ⟨0, ![]⟩
abbrev S1x20 : Shape := ⟨2, ![1, 20]⟩
abbrev S10000 : Shape := ⟨1, ![10000]⟩
abbrev S320000x1 : Shape := ⟨2, ![320000, 1]⟩
abbrev S10000x32 : Shape := ⟨2, ![10000, 32]⟩
abbrev S320000x32 : Shape := ⟨2, ![320000, 32]⟩
abbrev S10000x1 : Shape := ⟨2, ![10000, 1]⟩
abbrev S1x32 : Shape := ⟨2, ![1, 32]⟩
abbrev S320000x20 : Shape := ⟨2, ![320000, 20]⟩
abbrev S10000x40 : Shape := ⟨2, ![10000, 40]⟩
abbrev S10000x10 : Shape := ⟨2, ![10000, 10]⟩
abbrev S1x10 : Shape := ⟨2, ![1, 10]⟩
abbrev S10000x20000 : Shape := ⟨2, ![10000, 20000]⟩
abbrev S1x20000 : Shape := ⟨2, ![1, 20000]⟩
abbrev S20000000x10 : Shape := ⟨2, ![20000000, 10]⟩
abbrev S20000000 : Shape := ⟨1, ![20000000]⟩
abbrev S20000000x1 : Shape := ⟨2, ![20000000, 1]⟩
abbrev S1x2000 : Shape := ⟨2, ![1, 2000]⟩
abbrev S10000x64 : Shape := ⟨2, ![10000, 64]⟩
abbrev S1x64 : Shape := ⟨2, ![1, 64]⟩
abbrev S320000x64 : Shape := ⟨2, ![320000, 64]⟩

abbrev nBuf : Space → Nat
  | .hbm => 373
  | .vmem => 0
  | .smem => 0
  | _ => 0

abbrev hbmTy0_0 (i : Nat) : BufTy := match i % 128 with
  | 0 => ⟨S10000x2000, .f32⟩
  | 1 => ⟨S320000, .f32⟩
  | 2 => ⟨S10000x20, .f32⟩
  | 3 => ⟨S2000x100, .f32⟩
  | 4 => ⟨S100, .f32⟩
  | 5 => ⟨S100x20, .f32⟩
  | 6 => ⟨S20, .f32⟩
  | 7 => ⟨S20x32, .f32⟩
  | 8 => ⟨S32, .f32⟩
  | 9 => ⟨S32x20, .f32⟩
  | 10 => ⟨S20, .f32⟩
  | 11 => ⟨S32x20, .f32⟩
  | 12 => ⟨S20, .f32⟩
  | 13 => ⟨S40x2000, .f32⟩
  | 14 => ⟨S2000, .f32⟩
  | 15 => ⟨S40x64, .f32⟩
  | 16 => ⟨S64, .f32⟩
  | 17 => ⟨S40x10, .f32⟩
  | 18 => ⟨S10, .f32⟩
  | 19 => ⟨S40x20000, .f32⟩
  | 20 => ⟨S20000, .f32⟩
  | 21 => ⟨S2x320000, .i32⟩
  | 22 => ⟨S2x320000, .i32⟩
  | 23 => ⟨S1x320000, .i32⟩
  | 24 => ⟨S320000, .i32⟩
  | 25 => ⟨S1x320000, .i32⟩
  | 26 => ⟨S320000, .i32⟩
  | 27 => ⟨S1x320000, .i32⟩
  | 28 => ⟨S320000, .i32⟩
  | 29 => ⟨S1x320000, .i32⟩
  | 30 => ⟨S320000, .i32⟩
  | 31 => ⟨S10000x100, .f32⟩
  | 32 => ⟨S1x100, .f32⟩
  | 33 => ⟨S10000x100, .f32⟩
  | 34 => ⟨S10000x100, .f32⟩
  | 35 => ⟨S_, .f32⟩
  | 36 => ⟨S10000x100, .f32⟩
  | 37 => ⟨S10000x100, .f32⟩
  | 38 => ⟨S_, .f32⟩
  | 39 => ⟨S10000x100, .f32⟩
  | 40 => ⟨S10000x100, .f32⟩
  | 41 => ⟨S_, .f32⟩
  | 42 => ⟨S10000x100, .f32⟩
  | 43 => ⟨S10000x100, .f32⟩
  | 44 => ⟨S10000x100, .f32⟩
  | 45 => ⟨S_, .f32⟩
  | 46 => ⟨S10000x100, .f32⟩
  | 47 => ⟨S10000x100, .f32⟩
  | 48 => ⟨S10000x100, .f32⟩
  | 49 => ⟨S10000x20, .f32⟩
  | 50 => ⟨S1x20, .f32⟩
  | 51 => ⟨S10000x20, .f32⟩
  | 52 => ⟨S10000x20, .f32⟩
  | 53 => ⟨S_, .f32⟩
  | 54 => ⟨S10000x20, .f32⟩
  | 55 => ⟨S10000x20, .f32⟩
  | 56 => ⟨S_, .f32⟩
  | 57 => ⟨S10000x20, .f32⟩
  | 58 => ⟨S10000x20, .f32⟩
  | 59 => ⟨S_, .f32⟩
  | 60 => ⟨S10000x20, .f32⟩
  | 61 => ⟨S10000x20, .f32⟩
  | 62 => ⟨S10000x20, .f32⟩
  | 63 => ⟨S_, .f32⟩
  | 64 => ⟨S10000x20, .f32⟩
  | 65 => ⟨S10000x20, .f32⟩
  | 66 => ⟨S10000x20, .f32⟩
  | 67 => ⟨S_, .f32⟩
  | 68 => ⟨S10000, .f32⟩
  | 69 => ⟨S320000x1, .i32⟩
  | 70 => ⟨S10000, .f32⟩
  | 71 => ⟨S_, .f32⟩
  | 72 => ⟨S10000, .f32⟩
  | 73 => ⟨S10000, .f32⟩
  | 74 => ⟨S10000, .f32⟩
  | 75 => ⟨S10000x32, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000, .f32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S320000, .f32⟩
  | 94 => ⟨S320000, .f32⟩
  | 95 => ⟨S320000, .f32⟩
  | 96 => ⟨S320000x1, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x32, .f32⟩
  | 106 => ⟨S320000x32, .f32⟩
  | 107 => ⟨S320000x32, .f32⟩
  | 108 => ⟨S_, .f32⟩
  | 109 => ⟨S10000x32, .f32⟩
  | 110 => ⟨S320000x1, .i32⟩
  | 111 => ⟨S10000x32, .f32⟩
  | 112 => ⟨S10000, .f32⟩
  | 113 => ⟨S10000x1, .f32⟩
  | 114 => ⟨S10000x32, .f32⟩
  | 115 => ⟨S10000x32, .f32⟩
  | 116 => ⟨S10000x32, .f32⟩
  | 117 => ⟨S1x32, .f32⟩
  | 118 => ⟨S10000x32, .f32⟩
  | 119 => ⟨S10000x32, .f32⟩
  | 120 => ⟨S_, .f32⟩
  | 121 => ⟨S10000x32, .f32⟩
  | 122 => ⟨S10000x32, .f32⟩
  | 123 => ⟨S_, .f32⟩
  | 124 => ⟨S10000, .f32⟩
  | 125 => ⟨S320000x1, .i32⟩
  | 126 => ⟨S10000, .f32⟩
  | 127 => ⟨S_, .f32⟩
  | _ => ⟨S10000x2000, .f32⟩

abbrev hbmTy0_1 (i : Nat) : BufTy := match i % 128 with
  | 0 => ⟨S10000, .f32⟩
  | 1 => ⟨S10000, .f32⟩
  | 2 => ⟨S10000, .f32⟩
  | 3 => ⟨S10000x20, .f32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000, .f32⟩
  | 22 => ⟨S320000, .f32⟩
  | 23 => ⟨S320000, .f32⟩
  | 24 => ⟨S320000x1, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x20, .f32⟩
  | 34 => ⟨S320000x20, .f32⟩
  | 35 => ⟨S320000x20, .f32⟩
  | 36 => ⟨S_, .f32⟩
  | 37 => ⟨S10000x20, .f32⟩
  | 38 => ⟨S320000x1, .i32⟩
  | 39 => ⟨S10000x20, .f32⟩
  | 40 => ⟨S10000, .f32⟩
  | 41 => ⟨S10000x1, .f32⟩
  | 42 => ⟨S10000x20, .f32⟩
  | 43 => ⟨S10000x20, .f32⟩
  | 44 => ⟨S10000x20, .f32⟩
  | 45 => ⟨S1x20, .f32⟩
  | 46 => ⟨S10000x20, .f32⟩
  | 47 => ⟨S10000x20, .f32⟩
  | 48 => ⟨S_, .f32⟩
  | 49 => ⟨S10000, .f32⟩
  | 50 => ⟨S320000x1, .i32⟩
  | 51 => ⟨S10000, .f32⟩
  | 52 => ⟨S_, .f32⟩
  | 53 => ⟨S10000, .f32⟩
  | 54 => ⟨S10000, .f32⟩
  | 55 => ⟨S10000, .f32⟩
  | 56 => ⟨S10000x20, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000, .f32⟩
  | 75 => ⟨S320000, .f32⟩
  | 76 => ⟨S320000, .f32⟩
  | 77 => ⟨S320000x1, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S320000x20, .f32⟩
  | 87 => ⟨S320000x20, .f32⟩
  | 88 => ⟨S320000x20, .f32⟩
  | 89 => ⟨S_, .f32⟩
  | 90 => ⟨S10000x20, .f32⟩
  | 91 => ⟨S320000x1, .i32⟩
  | 92 => ⟨S10000x20, .f32⟩
  | 93 => ⟨S10000, .f32⟩
  | 94 => ⟨S10000x1, .f32⟩
  | 95 => ⟨S10000x20, .f32⟩
  | 96 => ⟨S10000x20, .f32⟩
  | 97 => ⟨S10000x20, .f32⟩
  | 98 => ⟨S1x20, .f32⟩
  | 99 => ⟨S10000x20, .f32⟩
  | 100 => ⟨S10000x20, .f32⟩
  | 101 => ⟨S_, .f32⟩
  | 102 => ⟨S10000x20, .f32⟩
  | 103 => ⟨S10000x20, .f32⟩
  | 104 => ⟨S10000x20, .f32⟩
  | 105 => ⟨S10000x20, .f32⟩
  | 106 => ⟨S10000x20, .f32⟩
  | 107 => ⟨S10000x40, .f32⟩
  | 108 => ⟨S10000x10, .f32⟩
  | 109 => ⟨S1x10, .f32⟩
  | 110 => ⟨S10000x10, .f32⟩
  | 111 => ⟨S10000x10, .f32⟩
  | 112 => ⟨S_, .f32⟩
  | 113 => ⟨S10000x10, .f32⟩
  | 114 => ⟨S10000x10, .f32⟩
  | 115 => ⟨S_, .f32⟩
  | 116 => ⟨S10000, .f32⟩
  | 117 => ⟨S10000x1, .f32⟩
  | 118 => ⟨S_, .f32⟩
  | 119 => ⟨S10000x1, .f32⟩
  | 120 => ⟨S10000x1, .f32⟩
  | 121 => ⟨S10000x10, .f32⟩
  | 122 => ⟨S10000x10, .f32⟩
  | 123 => ⟨S10000x20000, .f32⟩
  | 124 => ⟨S1x20000, .f32⟩
  | 125 => ⟨S10000x20000, .f32⟩
  | 126 => ⟨S10000x20000, .f32⟩
  | 127 => ⟨S_, .f32⟩
  | _ => ⟨S10000x2000, .f32⟩

abbrev hbmTy0_2 (i : Nat) : BufTy := match i % 128 with
  | 0 => ⟨S10000x20000, .f32⟩
  | 1 => ⟨S10000x20000, .f32⟩
  | 2 => ⟨S20000000x10, .f32⟩
  | 3 => ⟨S_, .f32⟩
  | 4 => ⟨S20000000, .f32⟩
  | 5 => ⟨S20000000x1, .f32⟩
  | 6 => ⟨S_, .f32⟩
  | 7 => ⟨S20000000x1, .f32⟩
  | 8 => ⟨S20000000x1, .f32⟩
  | 9 => ⟨S20000000x10, .f32⟩
  | 10 => ⟨S20000000x10, .f32⟩
  | 11 => ⟨S10000x20000, .f32⟩
  | 12 => ⟨S10000x2000, .f32⟩
  | 13 => ⟨S1x2000, .f32⟩
  | 14 => ⟨S10000x2000, .f32⟩
  | 15 => ⟨S10000x2000, .f32⟩
  | 16 => ⟨S10000x64, .f32⟩
  | 17 => ⟨S1x64, .f32⟩
  | 18 => ⟨S10000x64, .f32⟩
  | 19 => ⟨S10000x64, .f32⟩
  | 20 => ⟨S_, .f32⟩
  | 21 => ⟨S10000x64, .f32⟩
  | 22 => ⟨S10000x64, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x64, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x64, .f32⟩
  | 41 => ⟨S320000x64, .f32⟩
  | 42 => ⟨S_, .f32⟩
  | 43 => ⟨S320000, .f32⟩
  | 44 => ⟨S320000, .f32⟩
  | 45 => ⟨S320000, .f32⟩
  | 46 => ⟨S_, .f32⟩
  | 47 => ⟨S320000, .f32⟩
  | 48 => ⟨S320000, .f32⟩
  | 49 => ⟨S_, .f32⟩
  | 50 => ⟨S320000, .f32⟩
  | 51 => ⟨S320000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x64, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x64, .f32⟩
  | 70 => ⟨S320000x64, .f32⟩
  | 71 => ⟨S_, .f32⟩
  | 72 => ⟨S320000, .f32⟩
  | 73 => ⟨S320000, .f32⟩
  | 74 => ⟨S320000, .f32⟩
  | 75 => ⟨S_, .f32⟩
  | 76 => ⟨S320000, .f32⟩
  | 77 => ⟨S320000, .f32⟩
  | 78 => ⟨S_, .f32⟩
  | 79 => ⟨S320000, .f32⟩
  | 80 => ⟨S320000, .f32⟩
  | 81 => ⟨S320000, .f32⟩
  | 82 => ⟨S320000, .f32⟩
  | 83 => ⟨S_, .f32⟩
  | 84 => ⟨S_, .f32⟩
  | 85 => ⟨S_, .f32⟩
  | 86 => ⟨S_, .f32⟩
  | 87 => ⟨S320000, .f32⟩
  | 88 => ⟨S_, .f32⟩
  | 89 => ⟨S_, .f32⟩
  | 90 => ⟨S_, .f32⟩
  | 91 => ⟨S_, .f32⟩
  | 92 => ⟨S_, .f32⟩
  | 93 => ⟨S10000x20, .f32⟩
  | 94 => ⟨S10000x20, .f32⟩
  | 95 => ⟨S_, .f32⟩
  | 96 => ⟨S10000x20, .f32⟩
  | 97 => ⟨S10000x20, .f32⟩
  | 98 => ⟨S10000x20, .f32⟩
  | 99 => ⟨S10000x20, .f32⟩
  | 100 => ⟨S_, .f32⟩
  | 101 => ⟨S10000x20, .f32⟩
  | 102 => ⟨S10000x20, .f32⟩
  | 103 => ⟨S10000x20, .f32⟩
  | 104 => ⟨S10000x20, .f32⟩
  | 105 => ⟨S_, .f32⟩
  | 106 => ⟨S10000, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | _ => ⟨S10000x2000, .f32⟩

abbrev hbmTy (i : Nat) : BufTy := match i / 128 with
  | 0 => hbmTy0_0 i
  | 1 => hbmTy0_1 i
  | 2 => hbmTy0_2 i
  | _ => ⟨S10000x2000, .f32⟩

abbrev bufTy : (tb : Table) → Fin (tcTables nBuf tb) → BufTy
  | .hbm, ⟨i, _⟩ => hbmTy i
  | _, _ => ⟨S10000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_cst_1 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_cst_2 : Ref sig .tc := ⟨.hbm, 45, rfl⟩
abbrev main_call0_v7 : Ref sig .tc := ⟨.hbm, 46, rfl⟩
abbrev main_call0_v8 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_cst_1 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_cst_2 : Ref sig .tc := ⟨.hbm, 63, rfl⟩
abbrev main_call1_v7 : Ref sig .tc := ⟨.hbm, 64, rfl⟩
abbrev main_call1_v8 : Ref sig .tc := ⟨.hbm, 65, rfl⟩
abbrev main_v17 : Ref sig .tc := ⟨.hbm, 66, rfl⟩
abbrev main_cst : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_cst_0 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_c : Ref sig .tc := ⟨.hbm, 76, rfl⟩
abbrev main_v25 : Ref sig .tc := ⟨.hbm, 77, rfl⟩
abbrev main_v26 : Ref sig .tc := ⟨.hbm, 78, rfl⟩
abbrev main_c_1 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_c_2 : Ref sig .tc := ⟨.hbm, 85, rfl⟩
abbrev main_v32 : Ref sig .tc := ⟨.hbm, 86, rfl⟩
abbrev main_v33 : Ref sig .tc := ⟨.hbm, 87, rfl⟩
abbrev main_c_3 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_c_4 : Ref sig .tc := ⟨.hbm, 97, rfl⟩
abbrev main_v42 : Ref sig .tc := ⟨.hbm, 98, rfl⟩
abbrev main_v43 : Ref sig .tc := ⟨.hbm, 99, rfl⟩
abbrev main_c_5 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_6 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_call2_cst : Ref sig .tc := ⟨.hbm, 120, rfl⟩
abbrev main_call2_v0 : Ref sig .tc := ⟨.hbm, 121, rfl⟩
abbrev main_v62 : Ref sig .tc := ⟨.hbm, 122, rfl⟩
abbrev main_cst_7 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_8 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_c_9 : Ref sig .tc := ⟨.hbm, 132, rfl⟩
abbrev main_v70 : Ref sig .tc := ⟨.hbm, 133, rfl⟩
abbrev main_v71 : Ref sig .tc := ⟨.hbm, 134, rfl⟩
abbrev main_c_10 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_c_11 : Ref sig .tc := ⟨.hbm, 141, rfl⟩
abbrev main_v77 : Ref sig .tc := ⟨.hbm, 142, rfl⟩
abbrev main_v78 : Ref sig .tc := ⟨.hbm, 143, rfl⟩
abbrev main_c_12 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_c_13 : Ref sig .tc := ⟨.hbm, 153, rfl⟩
abbrev main_v87 : Ref sig .tc := ⟨.hbm, 154, rfl⟩
abbrev main_v88 : Ref sig .tc := ⟨.hbm, 155, rfl⟩
abbrev main_c_14 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_cst_15 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_cst_16 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_17 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_c_18 : Ref sig .tc := ⟨.hbm, 185, rfl⟩
abbrev main_v114 : Ref sig .tc := ⟨.hbm, 186, rfl⟩
abbrev main_v115 : Ref sig .tc := ⟨.hbm, 187, rfl⟩
abbrev main_c_19 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_c_20 : Ref sig .tc := ⟨.hbm, 194, rfl⟩
abbrev main_v121 : Ref sig .tc := ⟨.hbm, 195, rfl⟩
abbrev main_v122 : Ref sig .tc := ⟨.hbm, 196, rfl⟩
abbrev main_c_21 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_c_22 : Ref sig .tc := ⟨.hbm, 206, rfl⟩
abbrev main_v131 : Ref sig .tc := ⟨.hbm, 207, rfl⟩
abbrev main_v132 : Ref sig .tc := ⟨.hbm, 208, rfl⟩
abbrev main_c_23 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_cst_24 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_cst_25 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_call3_cst : Ref sig .tc := ⟨.hbm, 240, rfl⟩
abbrev main_call3_v0 : Ref sig .tc := ⟨.hbm, 241, rfl⟩
abbrev main_v161 : Ref sig .tc := ⟨.hbm, 242, rfl⟩
abbrev main_cst_26 : Ref sig .tc := ⟨.hbm, 243, rfl⟩
abbrev main_v162 : Ref sig .tc := ⟨.hbm, 244, rfl⟩
abbrev main_v163 : Ref sig .tc := ⟨.hbm, 245, rfl⟩
abbrev main_cst_27 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_call4_cst : Ref sig .tc := ⟨.hbm, 255, rfl⟩
abbrev main_call4_v0 : Ref sig .tc := ⟨.hbm, 256, rfl⟩
abbrev main_v172 : Ref sig .tc := ⟨.hbm, 257, rfl⟩
abbrev main_v173 : Ref sig .tc := ⟨.hbm, 258, rfl⟩
abbrev main_cst_28 : Ref sig .tc := ⟨.hbm, 259, rfl⟩
abbrev main_v174 : Ref sig .tc := ⟨.hbm, 260, rfl⟩
abbrev main_v175 : Ref sig .tc := ⟨.hbm, 261, rfl⟩
abbrev main_cst_29 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_call5_cst : Ref sig .tc := ⟨.hbm, 276, rfl⟩
abbrev main_call5_v0 : Ref sig .tc := ⟨.hbm, 277, rfl⟩
abbrev main_v189 : Ref sig .tc := ⟨.hbm, 278, rfl⟩
abbrev main_c_30 : Ref sig .tc := ⟨.hbm, 279, rfl⟩
abbrev main_v190 : Ref sig .tc := ⟨.hbm, 280, rfl⟩
abbrev main_v191 : Ref sig .tc := ⟨.hbm, 281, rfl⟩
abbrev main_c_31 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_c_32 : Ref sig .tc := ⟨.hbm, 288, rfl⟩
abbrev main_v197 : Ref sig .tc := ⟨.hbm, 289, rfl⟩
abbrev main_v198 : Ref sig .tc := ⟨.hbm, 290, rfl⟩
abbrev main_c_33 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_cst_34 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_cst_35 : Ref sig .tc := ⟨.hbm, 302, rfl⟩
abbrev main_v208 : Ref sig .tc := ⟨.hbm, 303, rfl⟩
abbrev main_v209 : Ref sig .tc := ⟨.hbm, 304, rfl⟩
abbrev main_cst_36 : Ref sig .tc := ⟨.hbm, 305, rfl⟩
abbrev main_v210 : Ref sig .tc := ⟨.hbm, 306, rfl⟩
abbrev main_v211 : Ref sig .tc := ⟨.hbm, 307, rfl⟩
abbrev main_c_37 : Ref sig .tc := ⟨.hbm, 308, rfl⟩
abbrev main_v212 : Ref sig .tc := ⟨.hbm, 309, rfl⟩
abbrev main_v213 : Ref sig .tc := ⟨.hbm, 310, rfl⟩
abbrev main_c_38 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_c_39 : Ref sig .tc := ⟨.hbm, 317, rfl⟩
abbrev main_v219 : Ref sig .tc := ⟨.hbm, 318, rfl⟩
abbrev main_v220 : Ref sig .tc := ⟨.hbm, 319, rfl⟩
abbrev main_c_40 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_cst_41 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_cst_42 : Ref sig .tc := ⟨.hbm, 331, rfl⟩
abbrev main_v230 : Ref sig .tc := ⟨.hbm, 332, rfl⟩
abbrev main_v231 : Ref sig .tc := ⟨.hbm, 333, rfl⟩
abbrev main_cst_43 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_cst_44 : Ref sig .tc := ⟨.hbm, 339, rfl⟩
abbrev main_v236 : Ref sig .tc := ⟨.hbm, 340, rfl⟩
abbrev main_cst_45 : Ref sig .tc := ⟨.hbm, 341, rfl⟩
abbrev main_v237 : Ref sig .tc := ⟨.hbm, 342, rfl⟩
abbrev main_v238 : Ref sig .tc := ⟨.hbm, 343, rfl⟩
abbrev main_cst_46 : Ref sig .tc := ⟨.hbm, 344, rfl⟩
abbrev main_v239 : Ref sig .tc := ⟨.hbm, 345, rfl⟩
abbrev main_cst_47 : Ref sig .tc := ⟨.hbm, 346, rfl⟩
abbrev main_v240 : Ref sig .tc := ⟨.hbm, 347, rfl⟩
abbrev main_cst_48 : Ref sig .tc := ⟨.hbm, 348, rfl⟩
abbrev main_v241 : Ref sig .tc := ⟨.hbm, 349, rfl⟩
abbrev main_v242 : Ref sig .tc := ⟨.hbm, 350, rfl⟩
abbrev main_cst_49 : Ref sig .tc := ⟨.hbm, 351, rfl⟩
abbrev main_v243 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_cst_50 : Ref sig .tc := ⟨.hbm, 356, rfl⟩
abbrev main_v247 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_cst_51 : Ref sig .tc := ⟨.hbm, 361, rfl⟩
abbrev main_v251 : Ref sig .tc := ⟨.hbm, 362, rfl⟩
abbrev main_cst_52 : Ref sig .tc := ⟨.hbm, 363, rfl⟩
abbrev main_v252 : Ref sig .tc := ⟨.hbm, 364, rfl⟩
abbrev main_cst_53 : Ref sig .tc := ⟨.hbm, 365, rfl⟩
abbrev main_v253 : Ref sig .tc := ⟨.hbm, 366, rfl⟩
abbrev main_cst_54 : Ref sig .tc := ⟨.hbm, 367, rfl⟩
abbrev main_v254 : Ref sig .tc := ⟨.hbm, 368, rfl⟩
abbrev main_v255 : Ref sig .tc := ⟨.hbm, 369, rfl⟩
abbrev main_cst_55 : Ref sig .tc := ⟨.hbm, 370, rfl⟩
abbrev main_v256 : Ref sig .tc := ⟨.hbm, 371, rfl⟩
abbrev main_v257 : Ref sig .tc := ⟨.hbm, 372, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S100_S1x100_1 : S100.BroadcastsInDim S1x100 (![1] : Fin 1 → Fin S1x100.rank)
  bcast_S1x100_S10000x100_0_1 : S1x100.BroadcastsInDim S10000x100 (![0, 1] : Fin 2 → Fin S10000x100.rank)
  bcast_S_S10000x100 : S_.BroadcastsInDim S10000x100 (![] : Fin 0 → Fin S10000x100.rank)
  bcast_S20_S1x20_1 : S20.BroadcastsInDim S1x20 (![1] : Fin 1 → Fin S1x20.rank)
  bcast_S1x20_S10000x20_0_1 : S1x20.BroadcastsInDim S10000x20 (![0, 1] : Fin 2 → Fin S10000x20.rank)
  bcast_S_S10000x20 : S_.BroadcastsInDim S10000x20 (![] : Fin 0 → Fin S10000x20.rank)
  bcast_S_S10000 : S_.BroadcastsInDim S10000 (![] : Fin 0 → Fin S10000.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x32_0_1 : S320000x1.BroadcastsInDim S320000x32 (![0, 1] : Fin 2 → Fin S320000x32.rank)
  bcast_S_S10000x32 : S_.BroadcastsInDim S10000x32 (![] : Fin 0 → Fin S10000x32.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S320000x1_S320000x20_0_1 : S320000x1.BroadcastsInDim S320000x20 (![0, 1] : Fin 2 → Fin S320000x20.rank)
  bcast_S10000x1_S10000x20_0_1 : S10000x1.BroadcastsInDim S10000x20 (![0, 1] : Fin 2 → Fin S10000x20.rank)
  concatenates_S10000x20_S10000x20_S10000x40_d1 : Shape.Concatenates [S10000x20, S10000x20] S10000x40 1
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  bcast_S_S10000x10 : S_.BroadcastsInDim S10000x10 (![] : Fin 0 → Fin S10000x10.rank)
  reducesTo_S10000x10_S10000_d1 : S10000x10.ReducesTo [1] S10000
  h_S_ : 0 < S_.numel
  bcast_S_S10000x1 : S_.BroadcastsInDim S10000x1 (![] : Fin 0 → Fin S10000x1.rank)
  bcast_S10000x1_S10000x10_0_1 : S10000x1.BroadcastsInDim S10000x10 (![0, 1] : Fin 2 → Fin S10000x10.rank)
  bcast_S20000_S1x20000_1 : S20000.BroadcastsInDim S1x20000 (![1] : Fin 1 → Fin S1x20000.rank)
  bcast_S1x20000_S10000x20000_0_1 : S1x20000.BroadcastsInDim S10000x20000 (![0, 1] : Fin 2 → Fin S10000x20000.rank)
  bcast_S_S10000x20000 : S_.BroadcastsInDim S10000x20000 (![] : Fin 0 → Fin S10000x20000.rank)
  shapeCasts_S10000x20000_S20000000x10 : S10000x20000.ShapeCasts S20000000x10
  reducesTo_S20000000x10_S20000000_d1 : S20000000x10.ReducesTo [1] S20000000
  bcast_S20000000_S20000000x1_0 : S20000000.BroadcastsInDim S20000000x1 (![0] : Fin 1 → Fin S20000000x1.rank)
  bcast_S_S20000000x1 : S_.BroadcastsInDim S20000000x1 (![] : Fin 0 → Fin S20000000x1.rank)
  bcast_S20000000x1_S20000000x10_0_1 : S20000000x1.BroadcastsInDim S20000000x10 (![0, 1] : Fin 2 → Fin S20000000x10.rank)
  shapeCasts_S20000000x10_S10000x20000 : S20000000x10.ShapeCasts S10000x20000
  bcast_S2000_S1x2000_1 : S2000.BroadcastsInDim S1x2000 (![1] : Fin 1 → Fin S1x2000.rank)
  bcast_S1x2000_S10000x2000_0_1 : S1x2000.BroadcastsInDim S10000x2000 (![0, 1] : Fin 2 → Fin S10000x2000.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  reducesTo_S320000x64_S320000_d1 : S320000x64.ReducesTo [1] S320000
  reducesTo_S320000_S_d0 : S320000.ReducesTo [0] S_
  reducesTo_S10000x20_S10000_d1 : S10000x20.ReducesTo [1] S10000
  reducesTo_S10000_S_d0 : S10000.ReducesTo [0] S_
  dot_S10000x2000_S2000x100_S10000x100_1_0_0_1_n_n_wf : DotDims.WF S10000x2000 S2000x100 S10000x100 [1] [0] [0] [1] [] []
  dot_S10000x100_S100x20_S10000x20_1_0_0_1_n_n_wf : DotDims.WF S10000x100 S100x20 S10000x20 [1] [0] [0] [1] [] []
  scatter_S10000_S320000x1_S320000_n_0_0_1_wf : ScatterDims.WF S10000 S320000x1 S320000 [] [0] [0] 1
  dot_S10000x20_S20x32_S10000x32_1_0_0_1_n_n_wf : DotDims.WF S10000x20 S20x32 S10000x32 [1] [0] [0] [1] [] []
  gather_S10000_S320000x1_S320000_n_0_n_n_0_1_1_wf : GatherDims.WF S10000 S320000x1 S320000 [] [0] [] [0] [] 1 ![1]
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S10000x32_S32x20_S10000x20_1_0_0_1_n_n_wf : DotDims.WF S10000x32 S32x20 S10000x20 [1] [0] [0] [1] [] []
  gather_S10000x20_S320000x1_S320000x20_1_0_n_n_0_1_120_wf : GatherDims.WF S10000x20 S320000x1 S320000x20 [1] [0] [] [0] [] 1 ![1, 20]
  scatter_S10000x20_S320000x1_S320000x20_1_0_0_1_wf : ScatterDims.WF S10000x20 S320000x1 S320000x20 [1] [0] [0] 1
  dot_S10000x40_S40x10_S10000x10_1_0_0_1_n_n_wf : DotDims.WF S10000x40 S40x10 S10000x10 [1] [0] [0] [1] [] []
  dot_S10000x40_S40x20000_S10000x20000_1_0_0_1_n_n_wf : DotDims.WF S10000x40 S40x20000 S10000x20000 [1] [0] [0] [1] [] []
  dot_S10000x40_S40x2000_S10000x2000_1_0_0_1_n_n_wf : DotDims.WF S10000x40 S40x2000 S10000x2000 [1] [0] [0] [1] [] []
  dot_S10000x40_S40x64_S10000x64_1_0_0_1_n_n_wf : DotDims.WF S10000x40 S40x64 S10000x64 [1] [0] [0] [1] [] []
  gather_S10000x64_S320000x1_S320000x64_1_0_n_n_0_1_164_wf : GatherDims.WF S10000x64 S320000x1 S320000x64 [1] [0] [] [0] [] 1 ![1, 64]

variable [Facts₀]

def dot_S10000x2000_S2000x100_S10000x100_1_0_0_1_n_n : DotDims S10000x2000 S2000x100 S10000x100 where
  lhsContracting := [1]
  rhsContracting := [0]
  lhsNonContracting := [0]
  rhsNonContracting := [1]
  lhsBatch := []
  rhsBatch := []
  wf := dot_S10000x2000_S2000x100_S10000x100_1_0_0_1_n_n_wf
def dot_S10000x100_S100x20_S10000x20_1_0_0_1_n_n : DotDims S10000x100 S100x20 S10000x20 where
  lhsContracting := [1]
  rhsContracting := [0]
  lhsNonContracting := [0]
  rhsNonContracting := [1]
  lhsBatch := []
  rhsBatch := []
  wf := dot_S10000x100_S100x20_S10000x20_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x20_S20x32_S10000x32_1_0_0_1_n_n : DotDims S10000x20 S20x32 S10000x32 where
  lhsContracting := [1]
  rhsContracting := [0]
  lhsNonContracting := [0]
  rhsNonContracting := [1]
  lhsBatch := []
  rhsBatch := []
  wf := dot_S10000x20_S20x32_S10000x32_1_0_0_1_n_n_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S10000x32_S32x20_S10000x20_1_0_0_1_n_n : DotDims S10000x32 S32x20 S10000x20 where
  lhsContracting := [1]
  rhsContracting := [0]
  lhsNonContracting := [0]
  rhsNonContracting := [1]
  lhsBatch := []
  rhsBatch := []
  wf := dot_S10000x32_S32x20_S10000x20_1_0_0_1_n_n_wf
def gather_S10000x20_S320000x1_S320000x20_1_0_n_n_0_1_120 : GatherDims S10000x20 S320000x1 S320000x20 where
  offsetDims := [1]
  collapsedSliceDims := [0]
  operandBatchingDims := []
  startIndicesBatchingDims := []
  startIndexMap := [0]
  indexVectorDim := 1
  sliceSizes := ![1, 20]
  wf := gather_S10000x20_S320000x1_S320000x20_1_0_n_n_0_1_120_wf
def scatter_S10000x20_S320000x1_S320000x20_1_0_0_1 : ScatterDims S10000x20 S320000x1 S320000x20 where
  updateWindowDims := [1]
  insertedWindowDims := [0]
  scatterDimsToOperandDims := [0]
  indexVectorDim := 1
  wf := scatter_S10000x20_S320000x1_S320000x20_1_0_0_1_wf
def dot_S10000x40_S40x10_S10000x10_1_0_0_1_n_n : DotDims S10000x40 S40x10 S10000x10 where
  lhsContracting := [1]
  rhsContracting := [0]
  lhsNonContracting := [0]
  rhsNonContracting := [1]
  lhsBatch := []
  rhsBatch := []
  wf := dot_S10000x40_S40x10_S10000x10_1_0_0_1_n_n_wf
def dot_S10000x40_S40x20000_S10000x20000_1_0_0_1_n_n : DotDims S10000x40 S40x20000 S10000x20000 where
  lhsContracting := [1]
  rhsContracting := [0]
  lhsNonContracting := [0]
  rhsNonContracting := [1]
  lhsBatch := []
  rhsBatch := []
  wf := dot_S10000x40_S40x20000_S10000x20000_1_0_0_1_n_n_wf
def dot_S10000x40_S40x2000_S10000x2000_1_0_0_1_n_n : DotDims S10000x40 S40x2000 S10000x2000 where
  lhsContracting := [1]
  rhsContracting := [0]
  lhsNonContracting := [0]
  rhsNonContracting := [1]
  lhsBatch := []
  rhsBatch := []
  wf := dot_S10000x40_S40x2000_S10000x2000_1_0_0_1_n_n_wf
def dot_S10000x40_S40x64_S10000x64_1_0_0_1_n_n : DotDims S10000x40 S40x64 S10000x64 where
  lhsContracting := [1]
  rhsContracting := [0]
  lhsNonContracting := [0]
  rhsNonContracting := [1]
  lhsBatch := []
  rhsBatch := []
  wf := dot_S10000x40_S40x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf

class Facts : Prop extends Facts₀ where

variable [Facts]
-- ==== Proof.RKept.lean ====
/-
  Which buffers a stretch of the reference's host operations leaves alone.

  Every operation writes one buffer, its result.  So a buffer that is not among a stretch's results holds after the
  stretch what it held before; in particular no stretch writes an argument array.
-/
import proofs.«421300_j19232863552045_4_alg».proof.Proof.RefRun

set_option maxRecDepth 65536

noncomputable section

namespace Cert.ReferenceIdeal.Kept

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- When a line of operations writes, one by one, exactly the buffers of a list — the k-th operation the k-th buffer and
    nothing else — every operation of the line writes inside the list. -/
theorem writes_sub_of_forall₂ {T : Topo} {S : RefSig} {Val : EltTy → Type} {ops : List (HloOp T S Val)} {W : List (Ref S .tc)}
    (h : List.Forall₂ (fun op y => op.writes = {Proc.devRef (τ := T) .tc y}) ops W) :
    ops.Forall fun op => op.writes ⊆ (W.map (Proc.devRef (τ := T) .tc)).toFinset := by
  refine List.forall_iff_forall_mem.mpr ?_
  induction h with
  | nil => intro o ho; cases ho
  | @cons op y ops' W' hw _ ih =>
    intro o ho
    rcases List.mem_cons.mp ho with rfl | ho
    · rw [hw]
      exact Finset.singleton_subset_iff.mpr (List.mem_toFinset.mpr (List.mem_map_of_mem List.mem_cons_self))
    · intro x hx
      have hx' := List.mem_toFinset.mp (ih o ho hx)
      exact List.mem_toFinset.mpr (by rw [List.map_cons]; exact List.mem_cons_of_mem _ hx')

/-- The results of `ops0`, in order. -/
abbrev dests_ops0 : List (Ref sig .tc) :=
  [main_v0, main_v1, main_v2, main_v3, main_v4, main_v5, main_v6, main_v7]

/-- The k-th operation of `ops0` writes the k-th buffer of the list and nothing else. -/
theorem ops0_writes : List.Forall₂ (fun (op : HloOp τ sig (Elt F)) y => op.writes = {Proc.devRef (τ := τ) .tc y})
    (ops0 (F := F)) dests_ops0 := by
  repeat (first | exact List.Forall₂.nil | refine List.Forall₂.cons rfl ?_)

theorem ops0_keeps (V : Valuation τ sig (Elt F)) (b : Ref sig .tc) (hb : b ∉ dests_ops0) :
    after (ops0 (F := F)) V (Proc.devRef .tc b) = V (Proc.devRef .tc b) :=
  after_of_writes_sub _ V (writes_sub_of_forall₂ ops0_writes) hb

/-- The results of `ops1`, in order. -/
abbrev dests_ops1 : List (Ref sig .tc) :=
  [main_v8, main_v9, main_v10, main_v11, main_call0_cst, main_call0_v0, main_call0_v1, main_call0_cst_0, main_call0_v2, main_call0_v3, main_call0_cst_1, main_call0_v4, main_call0_v5, main_call0_v6, main_call0_cst_2, main_call0_v7, main_call0_v8, main_v12, main_v13, main_v14, main_v15, main_v16, main_call1_cst, main_call1_v0, main_call1_v1, main_call1_cst_0, main_call1_v2, main_call1_v3, main_call1_cst_1, main_call1_v4, main_call1_v5, main_call1_v6, main_call1_cst_2, main_call1_v7, main_call1_v8, main_v17]

/-- The k-th operation of `ops1` writes the k-th buffer of the list and nothing else. -/
theorem ops1_writes : List.Forall₂ (fun (op : HloOp τ sig (Elt F)) y => op.writes = {Proc.devRef (τ := τ) .tc y})
    (ops1 (F := F)) dests_ops1 := by
  repeat (first | exact List.Forall₂.nil | refine List.Forall₂.cons rfl ?_)

theorem ops1_keeps (V : Valuation τ sig (Elt F)) (b : Ref sig .tc) (hb : b ∉ dests_ops1) :
    after (ops1 (F := F)) V (Proc.devRef .tc b) = V (Proc.devRef .tc b) :=
  after_of_writes_sub _ V (writes_sub_of_forall₂ ops1_writes) hb

/-- The results of `ops2`, in order. -/
abbrev dests_ops2 : List (Ref sig .tc) :=
  [main_cst, main_v18, main_v19, main_v20, main_cst_0, main_v21, main_v22, main_v23, main_v24, main_c, main_v25, main_v26, main_c_1, main_v27, main_v28, main_v29, main_v30, main_v31, main_c_2, main_v32, main_v33, main_c_3, main_v34, main_v35, main_v36, main_v37, main_v38, main_v39, main_v40, main_v41, main_c_4, main_v42, main_v43, main_c_5, main_v44, main_v45, main_v46, main_v47, main_v48, main_v49, main_v50, main_cst_6, main_v51, main_v52, main_v53, main_v54, main_v55, main_v56, main_v57, main_v58, main_v59, main_v60, main_v61]

/-- The k-th operation of `ops2` writes the k-th buffer of the list and nothing else. -/
theorem ops2_writes : List.Forall₂ (fun (op : HloOp τ sig (Elt F)) y => op.writes = {Proc.devRef (τ := τ) .tc y})
    (ops2 (F := F)) dests_ops2 := by
  repeat (first | exact List.Forall₂.nil | refine List.Forall₂.cons rfl ?_)

theorem ops2_keeps (V : Valuation τ sig (Elt F)) (b : Ref sig .tc) (hb : b ∉ dests_ops2) :
    after (ops2 (F := F)) V (Proc.devRef .tc b) = V (Proc.devRef .tc b) :=
  after_of_writes_sub _ V (writes_sub_of_forall₂ ops2_writes) hb

/-- The results of `ops3`, in order. -/
abbrev dests_ops3 : List (Ref sig .tc) :=
  [main_call2_cst, main_call2_v0, main_v62]

/-- The k-th operation of `ops3` writes the k-th buffer of the list and nothing else. -/
theorem ops3_writes : List.Forall₂ (fun (op : HloOp τ sig (Elt F)) y => op.writes = {Proc.devRef (τ := τ) .tc y})
    (ops3 (F := F)) dests_ops3 := by
  repeat (first | exact List.Forall₂.nil | refine List.Forall₂.cons rfl ?_)

theorem ops3_keeps (V : Valuation τ sig (Elt F)) (b : Ref sig .tc) (hb : b ∉ dests_ops3) :
    after (ops3 (F := F)) V (Proc.devRef .tc b) = V (Proc.devRef .tc b) :=
  after_of_writes_sub _ V (writes_sub_of_forall₂ ops3_writes) hb

/-- The results of `ops4`, in order. -/
abbrev dests_ops4 : List (Ref sig .tc) :=
  [main_cst_7, main_v63, main_v64, main_v65, main_cst_8, main_v66, main_v67, main_v68, main_v69, main_c_9, main_v70, main_v71, main_c_10, main_v72, main_v73, main_v74, main_v75, main_v76, main_c_11, main_v77, main_v78, main_c_12, main_v79, main_v80, main_v81, main_v82, main_v83, main_v84, main_v85, main_v86, main_c_13, main_v87, main_v88, main_c_14, main_v89, main_v90, main_v91, main_v92, main_v93, main_v94, main_v95, main_cst_15, main_v96, main_v97, main_v98, main_v99, main_v100, main_v101, main_v102, main_v103, main_v104, main_v105, main_v106, main_cst_16, main_v107, main_v108, main_v109, main_cst_17, main_v110, main_v111, main_v112, main_v113, main_c_18, main_v114, main_v115, main_c_19, main_v116, main_v117, main_v118, main_v119, main_v120, main_c_20, main_v121, main_v122, main_c_21, main_v123, main_v124, main_v125, main_v126, main_v127, main_v128, main_v129, main_v130, main_c_22, main_v131, main_v132, main_c_23, main_v133, main_v134, main_v135, main_v136, main_v137, main_v138, main_v139, main_cst_24, main_v140, main_v141, main_v142, main_v143, main_v144, main_v145, main_v146, main_v147, main_v148, main_v149, main_v150, main_cst_25, main_v151, main_v152, main_v153, main_v154, main_v155]

/-- The k-th operation of `ops4` writes the k-th buffer of the list and nothing else. -/
theorem ops4_writes : List.Forall₂ (fun (op : HloOp τ sig (Elt F)) y => op.writes = {Proc.devRef (τ := τ) .tc y})
    (ops4 (F := F)) dests_ops4 := by
  repeat (first | exact List.Forall₂.nil | refine List.Forall₂.cons rfl ?_)

theorem ops4_keeps (V : Valuation τ sig (Elt F)) (b : Ref sig .tc) (hb : b ∉ dests_ops4) :
    after (ops4 (F := F)) V (Proc.devRef .tc b) = V (Proc.devRef .tc b) :=
  after_of_writes_sub _ V (writes_sub_of_forall₂ ops4_writes) hb

/-- The results of `ops4c`, in order. -/
abbrev dests_ops4c : List (Ref sig .tc) :=
  [main_v156]

/-- The k-th operation of `ops4c` writes the k-th buffer of the list and nothing else. -/
theorem ops4c_writes : List.Forall₂ (fun (op : HloOp τ sig (Elt F)) y => op.writes = {Proc.devRef (τ := τ) .tc y})
    (ops4c (F := F)) dests_ops4c := by
  repeat (first | exact List.Forall₂.nil | refine List.Forall₂.cons rfl ?_)

theorem ops4c_keeps (V : Valuation τ sig (Elt F)) (b : Ref sig .tc) (hb : b ∉ dests_ops4c) :
    after (ops4c (F := F)) V (Proc.devRef .tc b) = V (Proc.devRef .tc b) :=
  after_of_writes_sub _ V (writes_sub_of_forall₂ ops4c_writes) hb

/-- The results of `ops5`, in order. -/
abbrev dests_ops5 : List (Ref sig .tc) :=
  [main_v157, main_v158, main_v159, main_v160, main_call3_cst, main_call3_v0, main_v161, main_cst_26, main_v162, main_v163, main_cst_27, main_v164, main_v165, main_v166, main_v167, main_v168, main_v169, main_v170, main_v171, main_call4_cst, main_call4_v0, main_v172, main_v173, main_cst_28, main_v174, main_v175, main_cst_29, main_v176, main_v177, main_v178, main_v179, main_v180, main_v181, main_v182, main_v183, main_v184, main_v185, main_v186, main_v187, main_v188, main_call5_cst, main_call5_v0, main_v189]

/-- The k-th operation of `ops5` writes the k-th buffer of the list and nothing else. -/
theorem ops5_writes : List.Forall₂ (fun (op : HloOp τ sig (Elt F)) y => op.writes = {Proc.devRef (τ := τ) .tc y})
    (ops5 (F := F)) dests_ops5 := by
  repeat (first | exact List.Forall₂.nil | refine List.Forall₂.cons rfl ?_)

theorem ops5_keeps (V : Valuation τ sig (Elt F)) (b : Ref sig .tc) (hb : b ∉ dests_ops5) :
    after (ops5 (F := F)) V (Proc.devRef .tc b) = V (Proc.devRef .tc b) :=
  after_of_writes_sub _ V (writes_sub_of_forall₂ ops5_writes) hb

/-- The results of `ops6`, in order. -/
abbrev dests_ops6 : List (Ref sig .tc) :=
  [main_c_30, main_v190, main_v191, main_c_31, main_v192, main_v193, main_v194, main_v195, main_v196, main_c_32, main_v197, main_v198, main_c_33, main_v199, main_v200, main_v201, main_v202, main_v203, main_v204, main_cst_34, main_v205, main_v206, main_v207, main_cst_35, main_v208, main_v209, main_cst_36, main_v210, main_v211, main_c_37, main_v212, main_v213, main_c_38, main_v214, main_v215, main_v216, main_v217, main_v218, main_c_39, main_v219, main_v220, main_c_40, main_v221, main_v222, main_v223, main_v224, main_v225, main_v226, main_cst_41, main_v227, main_v228, main_v229, main_cst_42, main_v230, main_v231, main_cst_43, main_v232, main_v233, main_v234, main_v235, main_cst_44, main_v236, main_cst_45, main_v237, main_v238, main_cst_46, main_v239, main_cst_47, main_v240, main_cst_48, main_v241, main_v242, main_cst_49, main_v243, main_v244, main_v245, main_v246, main_cst_50, main_v247, main_v248, main_v249, main_v250, main_cst_51, main_v251, main_cst_52, main_v252, main_cst_53, main_v253, main_cst_54, main_v254, main_v255, main_cst_55, main_v256, main_v257]

/-- The k-th operation of `ops6` writes the k-th buffer of the list and nothing else. -/
theorem ops6_writes : List.Forall₂ (fun (op : HloOp τ sig (Elt F)) y => op.writes = {Proc.devRef (τ := τ) .tc y})
    (ops6 (F := F)) dests_ops6 := by
  repeat (first | exact List.Forall₂.nil | refine List.Forall₂.cons rfl ?_)

theorem ops6_keeps (V : Valuation τ sig (Elt F)) (b : Ref sig .tc) (hb : b ∉ dests_ops6) :
    after (ops6 (F := F)) V (Proc.devRef .tc b) = V (Proc.devRef .tc b) :=
  after_of_writes_sub _ V (writes_sub_of_forall₂ ops6_writes) hb

/-- A buffer no stretch writes holds at the end what the launch dealt. -/
theorem kept_all (m : (ℓ : Loc nD τ sig) → Buf (Elt F) ℓ) (c : Dev nD) (b : Ref sig .tc)
    (h0 : b ∉ dests_ops0) (h1 : b ∉ dests_ops1) (h2 : b ∉ dests_ops2) (h3 : b ∉ dests_ops3) (h4 : b ∉ dests_ops4)
    (h4c : b ∉ dests_ops4c) (h5 : b ∉ dests_ops5) (h6 : b ∉ dests_ops6) :
    U6 m c (Proc.devRef .tc b) = m ((c.tc : Thread nD τ).loc b) :=
  calc U6 m c (Proc.devRef .tc b)
    _ = U5 m c (Proc.devRef .tc b) := ops6_keeps _ b h6
    _ = U4c m c (Proc.devRef .tc b) := ops5_keeps _ b h5
    _ = U4 m c (Proc.devRef .tc b) := ops4c_keeps _ b h4c
    _ = U3 m c (Proc.devRef .tc b) := ops4_keeps _ b h4
    _ = U2 m c (Proc.devRef .tc b) := ops3_keeps _ b h3
    _ = U1 m c (Proc.devRef .tc b) := ops2_keeps _ b h2
    _ = U0 m c (Proc.devRef .tc b) := ops1_keeps _ b h1
    _ = launchContents m c (Proc.devRef .tc b) := ops0_keeps _ b h0
    _ = m ((c.tc : Thread nD τ).loc b) := rfl

end Cert.ReferenceIdeal.Kept

end
-- ==== Proof.Spec.lean ====
/-
  What the two programs compute, entry by entry, over the extended reals.

  Both programs run the same pipeline.  A dense autoencoder sends each row of `x` through two affine layers, each
  followed by celu (with unit scale: the identity on positive numbers, `exp y - 1` elsewhere).  The encoded rows, joined
  with the graph encoder's output into 40 features per row, feed four affine heads: a decoder (no nonlinearity), a
  64-wide projection (relu), a 10-way classifier (relu, then each row divided by its sum plus a small constant), and a
  20000-wide head (relu, then each consecutive group of 10 entries divided by the group's sum plus the same constant).
  Every function below gives one entry of one of these arrays from the entries of its operands.
-/
import Idealize.ShloMosaic.PureOps.Ideal
import Idealize.ShloMosaic.Lib.ValueIdx

noncomputable section

namespace Cert.Spec

open Idealize.ShloMosaic

/-- celu with unit scale: the identity on positive numbers, `exp y - 1` elsewhere. -/
def celu (y : EReal) : EReal := if 0 < y then y else Ideal.exp y - 1

/-- relu: the larger of its argument and zero. -/
def relu (y : EReal) : EReal := max y 0

/-- The small positive constant both programs add to a normalizing sum before dividing (the float nearest 1e-6). -/
def eps : EReal := Ideal.ofBits .f32 0x358637BD#32

/-- The first layer of the dense autoencoder at row r, unit k: celu of the row's inner product with column k, plus the bias. -/
def hidden (x : Fin 10000 → Fin 2000 → EReal) (W1 : Fin 2000 → Fin 100 → EReal) (b1 : Fin 100 → EReal)
    (r : Fin 10000) (k : Fin 100) : EReal :=
  celu (∑ i : Fin 2000, x r i * W1 i k + b1 k)

/-- The second layer of the dense autoencoder at row r, unit j. -/
def featx (x : Fin 10000 → Fin 2000 → EReal) (W1 : Fin 2000 → Fin 100 → EReal) (b1 : Fin 100 → EReal)
    (W2 : Fin 100 → Fin 20 → EReal) (b2 : Fin 20 → EReal) (r : Fin 10000) (j : Fin 20) : EReal :=
  celu (∑ k : Fin 100, hidden x W1 b1 r k * W2 k j + b2 j)

/-- An affine head at row r, column j: the row's inner product with column j of the weights, plus the bias. -/
def lin {n : ℕ} (feat : Fin 10000 → Fin 40 → EReal) (W : Fin 40 → Fin n → EReal) (b : Fin n → EReal)
    (r : Fin 10000) (j : Fin n) : EReal :=
  ∑ k : Fin 40, feat r k * W k j + b j

/-- The projection head: relu of the affine head. -/
def proj {n : ℕ} (feat : Fin 10000 → Fin 40 → EReal) (W : Fin 40 → Fin n → EReal) (b : Fin n → EReal)
    (r : Fin 10000) (j : Fin n) : EReal :=
  relu (lin feat W b r j)

/-- The classifier head: the projection divided by its row sum plus the small constant. -/
def rowNorm (feat : Fin 10000 → Fin 40 → EReal) (W : Fin 40 → Fin 10 → EReal) (b : Fin 10 → EReal)
    (r : Fin 10000) (j : Fin 10) : EReal :=
  Ideal.div (proj feat W b r j) (∑ q : Fin 10, proj feat W b r q + eps)

/-- Column q of the group of ten that holds column j. -/
def inGroup (j : Fin 20000) (q : Fin 10) : Fin 20000 :=
  ⟨10 * (j.val / 10) + q.val, by have := j.isLt; have := q.isLt; omega⟩

/-- The grouped head: the projection divided by the sum over its group of ten plus the small constant. -/
def groupNorm (feat : Fin 10000 → Fin 40 → EReal) (W : Fin 40 → Fin 20000 → EReal) (b : Fin 20000 → EReal)
    (r : Fin 10000) (j : Fin 20000) : EReal :=
  Ideal.div (proj feat W b r j) (∑ q : Fin 10, proj feat W b r (inGroup j q) + eps)

end Cert.Spec

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KReg0.lean ====
/-
  The first launch's output, entry by entry.

  Each of the ten grid points takes a block of 1000 rows of x and stores, for those rows, two dense layers: the block
  times W1 plus the bias row b1, through celu; that times W2 plus the bias row b2, through celu. The kernel spells celu
  as "where y > 0 take y, elsewhere 1 * (exp (y / 1) - 1)", with 1 written as the word 0x3F800000; over the extended
  reals that is the specification's celu at every y. A product into the zero accumulator read at (p, q) is the sum over
  k of left (p, k) * right (k, q); a one-row bias broadcast along the rows reads its entry at the column. So entry
  (p, q) of what a point stores is the specification's second layer at row 1000 t + p of x, and since the ten row
  blocks tile the output array, the array after the launch holds the specification's second layer at every entry.
-/
import proofs.«421300_j19232863552045_4_alg».proof.Proof.Gen.KernelIdeal.Frame
import proofs.«421300_j19232863552045_4_alg».proof.Proof.Spec
import proofs.«421300_j19232863552045_4_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg0

open Cert.KernelIdeal Cert.KernelIdeal.Gen Idealize.ShloMosaic Idealize.ShloMosaic.TcCoe Idealize.SL.Sem Idealize.ShloMosaic.ValueIdx
open Idealize.ShloMosaic.Pipeline (Dat)

/-- The word 0x3F800000 is the float 1: sign 0, exponent field 127 (the bias), fraction 0. -/
theorem ofBits_one_f32 : Ideal.ofBits .f32 0x3F800000#32 = 1 := by
  simp [Ideal.ofBits, Ideal.ieee]
  rw [← EReal.coe_mul, ← EReal.coe_one]
  exact congrArg _ (by norm_num)

/-- Division by 1 changes nothing, at the infinities too. -/
theorem div_one' (y : EReal) : Ideal.div y 1 = y := by
  unfold Ideal.div
  rw [if_neg one_ne_zero]
  simp

/-- celu as the kernel spells it: where y > 0 take y, elsewhere 1 * (exp (y / 1) - 1). -/
def celuK (y : EReal) : EReal :=
  Scalar.select (Ideal.cmp .ogt y (Ideal.ofBits .f32 0x00000000#32)) y
    (Ideal.ofBits .f32 0x3F800000#32 * (Ideal.exp (Ideal.div y (Ideal.ofBits .f32 0x3F800000#32)) - Ideal.ofBits .f32 0x3F800000#32))

theorem celuK_eq (y : EReal) : celuK y = Cert.Spec.celu y := by
  unfold celuK Cert.Spec.celu
  rw [Ideal.ofBits_zero_f32, ofBits_one_f32, div_one', one_mul]
  unfold Ideal.cmp Scalar.select
  by_cases h : (0 : EReal) < y
  · simp [h]
  · simp [h]

/-! ## One dense layer of the body, read at an entry -/

section Layer
variable {M K N : ℕ}

/-- One layer as the body spells it: the product into the zero accumulator, plus the one-row bias (recast to its own
    shape, then broadcast along the rows), then celu in the kernel's spelling. -/
def layer (D : DotDims ⟨2, ![M, K]⟩ ⟨2, ![K, N]⟩ ⟨2, ![M, N]⟩) (a : FVec Ideal ⟨2, ![M, K]⟩ .f32) (b : FVec Ideal ⟨2, ![K, N]⟩ .f32)
    (bias : FVec Ideal ⟨2, ![1, N]⟩ .f32) (hsc : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  have cst : FVec Ideal ⟨2, ![M, N]⟩ .f32 := constant ⟨2, ![M, N]⟩ .f32 0x00000000#32
  have v2 : FVec Ideal ⟨2, ![M, N]⟩ .f32 := matmul D none a b cst
  have v4 : FVec Ideal ⟨2, ![1, N]⟩ .f32 := shapeCast ⟨2, ![1, N]⟩ bias hsc
  have v5 : FVec Ideal ⟨2, ![M, N]⟩ .f32 := broadcastTo ⟨2, ![M, N]⟩ v4 hbc
  have v6 : FVec Ideal ⟨2, ![M, N]⟩ .f32 := addf v2 v5
  have cst_5 : Ideal .f32 := Scalar.ofBits .f32 0x00000000#32
  have v7 : FVec Ideal ⟨2, ![M, N]⟩ .f32 := broadcast ⟨2, ![M, N]⟩ cst_5
  have v8 : IVec ⟨2, ![M, N]⟩ 1 := cmpf .ogt v6 v7
  have cst_6 : Ideal .f32 := Scalar.ofBits .f32 0x3F800000#32
  have v9 : FVec Ideal ⟨2, ![M, N]⟩ .f32 := broadcast ⟨2, ![M, N]⟩ cst_6
  have v10 : FVec Ideal ⟨2, ![M, N]⟩ .f32 := divf v6 v9
  have v11 : FVec Ideal ⟨2, ![M, N]⟩ .f32 := exp v10
  have v13 : FVec Ideal ⟨2, ![M, N]⟩ .f32 := subf v11 v9
  have v15 : FVec Ideal ⟨2, ![M, N]⟩ .f32 := mulf v9 v13
  select v8 v6 v15

/-- Entry (p, q) of a layer: celu of row p of the left operand against column q of the right one, plus the bias at q. -/
theorem layer_apply (a : FVec Ideal ⟨2, ![M, K]⟩ .f32) (b : FVec Ideal ⟨2, ![K, N]⟩ .f32)
    (bias : FVec Ideal ⟨2, ![1, N]⟩ .f32) (hsc : (⟨2, ![1, N]⟩ : Shape).ShapeCasts ⟨2, ![1, N]⟩)
    (hbc : (⟨2, ![1, N]⟩ : Shape).Broadcasts ⟨2, ![M, N]⟩) (p : Fin M) (q : Fin N) :
    layer (DotDims.plain M K N) a b bias hsc hbc (ix2 p q)
      = Cert.Spec.celu (∑ k : Fin K, a (ix2 p k) * b (ix2 k q) + bias (ix2 (0 : Fin 1) q)) := by
  have hy : FloatOps.matmul (DotDims.plain M K N) none a b (constant ⟨2, ![M, N]⟩ .f32 0x00000000#32) (ix2 p q)
      + broadcastTo ⟨2, ![M, N]⟩ (shapeCast ⟨2, ![1, N]⟩ bias hsc) hbc (ix2 p q)
      = ∑ k : Fin K, a (ix2 p k) * b (ix2 k q) + bias (ix2 (0 : Fin 1) q) := by
    rw [shapeCast_self, broadcastTo_1b_ab_apply, Cert.PlainMatmul.apply]
  rw [← hy, ← celuK_eq]
  rfl

end Layer

/-! ## The body's payload at an entry -/

theorem dims1 : dot_S1000x2000_S2000x100_S1000x100_1_0_0_1_n_n = DotDims.plain 1000 2000 100 := rfl
theorem dims2 : dot_S1000x100_S100x20_S1000x20_1_0_0_1_n_n = DotDims.plain 1000 100 20 := rfl

/-- The payload is two layers, one fed to the other. -/
theorem pay_eq_layers (x0 : Vec Ideal S1000x2000 .f32) (x1 : Vec Ideal S2000x100 .f32) (x3 : Vec Ideal S1x100 .f32)
    (x17 : Vec Ideal S100x20 .f32) (x19 : Vec Ideal S1x20 .f32) :
    k0_pay1 x0 x1 x3 x17 x19
      = layer dot_S1000x100_S100x20_S1000x20_1_0_0_1_n_n
          (layer dot_S1000x2000_S2000x100_S1000x100_1_0_0_1_n_n x0 x1 x3 shapeCasts_S1x100_S1x100 broadcasts_S1x100_S1000x100)
          x17 x19 shapeCasts_S1x20_S1x20 broadcasts_S1x20_S1000x20 := rfl

/-- Entry (p, q) of the payload from the entries of the five loaded blocks. -/
theorem pay_apply (x0 : Vec Ideal S1000x2000 .f32) (x1 : Vec Ideal S2000x100 .f32) (x3 : Vec Ideal S1x100 .f32)
    (x17 : Vec Ideal S100x20 .f32) (x19 : Vec Ideal S1x20 .f32) (p : Fin 1000) (q : Fin 20) :
    k0_pay1 x0 x1 x3 x17 x19 (ix2 p q)
      = Cert.Spec.celu (∑ k2 : Fin 100,
          Cert.Spec.celu (∑ k1 : Fin 2000, x0 (ix2 p k1) * x1 (ix2 k1 k2) + x3 (ix2 (0 : Fin 1) k2)) * x17 (ix2 k2 q)
            + x19 (ix2 (0 : Fin 1) q)) := by
  rw [pay_eq_layers, dims1, dims2, layer_apply]
  refine congrArg Cert.Spec.celu (congrArg (· + _) (Finset.sum_congr rfl fun k2 _ => ?_))
  rw [layer_apply]

/-! ## From the blocks to the array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The encoded rows as one array: entry i is the specification's second layer at i's coordinates, of the arrays the
    launch finds. -/
def encoded (c : Dev nD) : S10000x20.Idx → Elt Ideal .f32 := fun i =>
  Cert.Spec.featx (fun r i => V c main_arg0 (ix2 r i)) (fun i k => V c main_arg3 (ix2 i k)) (fun k => V c main_v8 (ix2 (0 : Fin 1) k))
    (fun k j => V c main_arg5 (ix2 k j)) (fun j => V c main_v9 (ix2 (0 : Fin 1) j)) ⟨(i 0).val, idx2_lt0 i⟩ ⟨(i 1).val, idx2_lt1 i⟩

theorem encoded_ix2 (c : Dev nD) (r : Fin 10000) (j : Fin 20) :
    encoded V c (ix2 r j)
      = Cert.Spec.featx (fun r i => V c main_arg0 (ix2 r i)) (fun i k => V c main_arg3 (ix2 i k)) (fun k => V c main_v8 (ix2 (0 : Fin 1) k))
          (fun k j => V c main_arg5 (ix2 k j)) (fun j => V c main_v9 (ix2 (0 : Fin 1) j)) r j := rfl

/-- The printed index maps, decided over the ten grid points: the row blocks of x and of the output are at block index
    (t, 0) at point t; the weights and biases are whole, at block index (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the encoded rows. -/
theorem flushed_eq (c : Dev nD) (t : Fin cfg0.N) :
    (dat0 (F := Ideal) V c).flushed 5 t = ((cfg0.win 5).blk t).view.read (Elt Ideal) (encoded V c) := by
  show (cfg0.win 5).cut (grid0.coords t) ((dat0 V c).after 5 t) = _
  rw [after0_5]
  unfold out0_5
  rw [View.canon_unit_zero zero_offsets]
  simp only [View.ld_unit_zero (S := S1000x2000) zero_offsets, View.ld_unit_zero (S := S2000x100) zero_offsets,
    View.ld_unit_zero (S := S1x100) zero_offsets, View.ld_unit_zero (S := S100x20) zero_offsets,
    View.ld_unit_zero (S := S1x20) zero_offsets]
  obtain ⟨e00, e01, e10, e11, e20, e21, e30, e31, e40, e41, e50, e51⟩ := idx_facts t
  have ht : t.val < 10 := Nat.lt_of_lt_of_eq t.isLt N_0
  funext j
  show k0_pay1 (iblk0 V c 0 t) (iblk0 V c 1 t) (iblk0 V c 2 t) (iblk0 V c 3 t) (iblk0 V c 4 t) j
    = encoded V c (((cfg0.win 5).blk t).view.emb j)
  obtain ⟨p, q, rfl⟩ : ∃ (p : Fin 1000) (q : Fin 20), j = ix2 p q := ⟨j 0, j 1, eq_ix2 j⟩
  have he : ((cfg0.win 5).blk t).view.emb (ix2 p q) = ix2 (⟨t.val * 1000 + p.val, by have := p.isLt; omega⟩ : Fin 10000) q := by
    funext a; apply Fin.ext
    match a with
    | ⟨0, _⟩ => show win0_5.index t (0 : Fin 2) * 1000 + 1 * p.val = t.val * 1000 + p.val; omega
    | ⟨1, _⟩ => show win0_5.index t (1 : Fin 2) * 20 + 1 * q.val = q.val; omega
  have h0 : ∀ k1 : Fin 2000, iblk0 V c 0 t (ix2 p k1) = V c main_arg0 (ix2 (⟨t.val * 1000 + p.val, by have := p.isLt; omega⟩ : Fin 10000) k1) := fun k1 => by
    show V c main_arg0 (((cfg0.win 0).blk t).view.emb (ix2 p k1)) = _
    refine congrArg (V c main_arg0) (funext fun a => Fin.ext ?_)
    match a with
    | ⟨0, _⟩ => show win0_0.index t (0 : Fin 2) * 1000 + 1 * p.val = t.val * 1000 + p.val; omega
    | ⟨1, _⟩ => show win0_0.index t (1 : Fin 2) * 2000 + 1 * k1.val = k1.val; omega
  have h1 : ∀ (k1 : Fin 2000) (k2 : Fin 100), iblk0 V c 1 t (ix2 k1 k2) = V c main_arg3 (ix2 k1 k2) := fun k1 k2 => by
    show V c main_arg3 (((cfg0.win 1).blk t).view.emb (ix2 k1 k2)) = _
    refine congrArg (V c main_arg3) (funext fun a => Fin.ext ?_)
    match a with
    | ⟨0, _⟩ => show win0_1.index t (0 : Fin 2) * 2000 + 1 * k1.val = k1.val; omega
    | ⟨1, _⟩ => show win0_1.index t (1 : Fin 2) * 100 + 1 * k2.val = k2.val; omega
  have h2 : ∀ k2 : Fin 100, iblk0 V c 2 t (ix2 (0 : Fin 1) k2) = V c main_v8 (ix2 (0 : Fin 1) k2) := fun k2 => by
    show V c main_v8 (((cfg0.win 2).blk t).view.emb (ix2 (0 : Fin 1) k2)) = _
    refine congrArg (V c main_v8) (funext fun a => Fin.ext ?_)
    match a with
    | ⟨0, _⟩ => show win0_2.index t (0 : Fin 2) * 1 + 1 * 0 = 0; omega
    | ⟨1, _⟩ => show win0_2.index t (1 : Fin 2) * 100 + 1 * k2.val = k2.val; omega
  have h3 : ∀ (k2 : Fin 100) (q : Fin 20), iblk0 V c 3 t (ix2 k2 q) = V c main_arg5 (ix2 k2 q) := fun k2 q => by
    show V c main_arg5 (((cfg0.win 3).blk t).view.emb (ix2 k2 q)) = _
    refine congrArg (V c main_arg5) (funext fun a => Fin.ext ?_)
    match a with
    | ⟨0, _⟩ => show win0_3.index t (0 : Fin 2) * 100 + 1 * k2.val = k2.val; omega
    | ⟨1, _⟩ => show win0_3.index t (1 : Fin 2) * 20 + 1 * q.val = q.val; omega
  have h4 : ∀ q : Fin 20, iblk0 V c 4 t (ix2 (0 : Fin 1) q) = V c main_v9 (ix2 (0 : Fin 1) q) := fun q => by
    show V c main_v9 (((cfg0.win 4).blk t).view.emb (ix2 (0 : Fin 1) q)) = _
    refine congrArg (V c main_v9) (funext fun a => Fin.ext ?_)
    match a with
    | ⟨0, _⟩ => show win0_4.index t (0 : Fin 2) * 1 + 1 * 0 = 0; omega
    | ⟨1, _⟩ => show win0_4.index t (1 : Fin 2) * 20 + 1 * q.val = q.val; omega
  rw [he, encoded_ix2, pay_apply]
  simp only [h0, h1, h2, h3, h4]
  rfl

end Blocks

section Cover

variable (V : (c : Dev nD) → (b : Ref sig .tc) → Buf (Elt Ideal) ((c : Thread nD τ).loc b))

/-- An index of the array is in point t's block iff each coordinate is in the block's range on its axis. -/
theorem mem_blk (t : Fin cfg0.N) (i : S10000x20.Idx) :
    i ∈ ((cfg0.win 5).blk t).view.set ↔ ∀ a : Fin 2, win0_5.index t a * S1000x20.size a ≤ (i a).val ∧ (i a).val < win0_5.index t a * S1000x20.size a + S1000x20.size a := by
  show i ∈ ((View.whole main_v10).slice (win0_5.rect t)).set ↔ _
  rw [View.set_slice_whole, Rect.mem_set_unit]
  exact Iff.rfl

/-- Row r of the array is in the block of point r / 1000: the ten row blocks tile the array. -/
theorem cover (i : S10000x20.Idx) : ∃ t : Fin cfg0.N, (cfg0.win 5).flush t = true ∧ i ∈ ((cfg0.win 5).blk t).view.set := by
  have hi0 : (i 0).val < 10000 := idx2_lt0 i
  have hi1 : (i 1).val < 20 := idx2_lt1 i
  have hN : grid0.N = 10 := N_0
  have hlt : (i 0).val / 1000 < grid0.N := by omega
  obtain ⟨-, -, -, -, -, -, -, -, -, -, e50, e51⟩ := idx_facts ⟨(i 0).val / 1000, hlt⟩
  refine ⟨⟨(i 0).val / 1000, hlt⟩, flush0_5 _, ?_⟩
  rw [mem_blk]
  intro a
  match a with
  | ⟨0, _⟩ =>
    show win0_5.index ⟨(i 0).val / 1000, hlt⟩ (0 : Fin 2) * 1000 ≤ (i 0).val ∧ (i 0).val < win0_5.index ⟨(i 0).val / 1000, hlt⟩ (0 : Fin 2) * 1000 + 1000
    rw [e50]
    show (i 0).val / 1000 * 1000 ≤ (i 0).val ∧ (i 0).val < (i 0).val / 1000 * 1000 + 1000
    omega
  | ⟨1, _⟩ =>
    show win0_5.index ⟨(i 0).val / 1000, hlt⟩ (1 : Fin 2) * 20 ≤ (i 1).val ∧ (i 1).val < win0_5.index ⟨(i 0).val / 1000, hlt⟩ (1 : Fin 2) * 20 + 20
    rw [e51]
    omega

/-- Entry (r, j) of the encoded rows after the first launch, from the arrays the launch finds. -/
theorem featx_arr (c : Dev nD) (r : Fin 10000) (j : Fin 20) :
    (dat0 (F := Ideal) V c).arrAt 5 cfg0.N (ix2 r j)
      = Cert.Spec.featx (fun r i => V c main_arg0 (ix2 r i)) (fun i k => V c main_arg3 (ix2 i k)) (fun k => V c main_v8 (ix2 (0 : Fin 1) k))
          (fun k j => V c main_arg5 (ix2 k j)) (fun j => V c main_v9 (ix2 (0 : Fin 1) j)) r j :=
  (congrFun ((dat0 (F := Ideal) V c).arrAt_eq_of_cover 5 (encoded V c) (fun t _ => flushed_eq V c t) cover) (ix2 r j)).trans
    (encoded_ix2 V c r j)

end Cover

end Cert.KernelIdeal.Reg0
end
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.KReg1a.lean ====
/-
  The second launch's three plain heads, entry by entry.

  The launch runs over 50 points; point t works on rows 200 t … 200 t + 199 of the 40 features per row and reads each
  head's weights [40, n] and bias [1, n] whole.  Per point and head the body forms the block's product with the weights
  into a zero accumulator and adds the bias row to every row; the decoder stores that, the 64-wide projection stores its
  maximum with zero, and the classifier divides that maximum by its row's sum plus a small constant.  Each output array
  is cut into the same 50 row blocks, so after the launch it holds, at (r, j), the head's formula at row r of the
  features.

  First each stored value of one point is read at an entry (p, q) of its block, over arbitrary blocks; then the blocks
  of point t are read off the arrays (row p of the features block is row 200 t + p); then every row lies in the block of
  point r / 200, which gives the whole array.
-/
import proofs.«421300_j19232863552045_4_alg».proof.Proof.Gen.KernelIdeal.Frame
import proofs.«421300_j19232863552045_4_alg».proof.Proof.Spec
import proofs.«421300_j19232863552045_4_alg».proof.Proof.LibPlainMatmul
import proofs.«421300_j19232863552045_4_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Cert.KernelIdeal Cert.KernelIdeal.Gen Idealize.ShloMosaic Idealize.ShloMosaic.TcCoe Idealize.SL.Sem Idealize.ShloMosaic.ValueIdx
open Idealize.ShloMosaic.Pipeline (Dat)

namespace PlainHeads

/-! ## One point's stored values at an entry of the block -/

/-- An affine map of a [200, 40] block: the product with a [40, n] matrix into the zero accumulator, plus a [1, n] row
    broadcast along the rows, read at (p, q), is the inner product of row p with column q plus the row's entry q. -/
theorem affine_apply {n : ℕ} (a : FVec Ideal ⟨2, ![200, 40]⟩ .f32) (w : FVec Ideal ⟨2, ![40, n]⟩ .f32) (b : FVec Ideal ⟨2, ![1, n]⟩ .f32)
    (hb : (⟨2, ![1, n]⟩ : Shape).Broadcasts ⟨2, ![200, n]⟩) (p : Fin 200) (q : Fin n) :
    addf (matmul (DotDims.plain 200 40 n) none a w (constant ⟨2, ![200, n]⟩ .f32 0x00000000#32)) (broadcastTo ⟨2, ![200, n]⟩ b hb) (ix2 p q)
      = ∑ k : Fin 40, a (ix2 p k) * w (ix2 k q) + b (ix2 (0 : Fin 1) q) := by
  rw [addf_apply, broadcastTo_1b_ab_apply]
  exact congrArg (· + b (ix2 (0 : Fin 1) q)) (Cert.PlainMatmul.apply none a w p q)

/-- The same followed by the maximum with the zero splat: relu of the affine map (the zero word is the number 0). -/
theorem reluAffine_apply {n : ℕ} (a : FVec Ideal ⟨2, ![200, 40]⟩ .f32) (w : FVec Ideal ⟨2, ![40, n]⟩ .f32) (b : FVec Ideal ⟨2, ![1, n]⟩ .f32)
    (hb : (⟨2, ![1, n]⟩ : Shape).Broadcasts ⟨2, ![200, n]⟩) (p : Fin 200) (q : Fin n) :
    maximumf (addf (matmul (DotDims.plain 200 40 n) none a w (constant ⟨2, ![200, n]⟩ .f32 0x00000000#32)) (broadcastTo ⟨2, ![200, n]⟩ b hb))
        (broadcast ⟨2, ![200, n]⟩ (Scalar.ofBits (F := Ideal) .f32 0x00000000#32)) (ix2 p q)
      = Cert.Spec.relu (∑ k : Fin 40, a (ix2 p k) * w (ix2 k q) + b (ix2 (0 : Fin 1) q)) := by
  rw [maximumf_apply, broadcast_apply, affine_apply]
  exact congrArg (max _) Ideal.ofBits_zero_f32

/-- The three products contract the left operand's axis 1 with the right operand's axis 0, with no batch axes. -/
theorem dims2000 : dot_S200x40_S40x2000_S200x2000_1_0_0_1_n_n = DotDims.plain 200 40 2000 := rfl
theorem dims64 : dot_S200x40_S40x64_S200x64_1_0_0_1_n_n = DotDims.plain 200 40 64 := rfl
theorem dims10 : dot_S200x40_S40x10_S200x10_1_0_0_1_n_n = DotDims.plain 200 40 10 := rfl

/-- The decoder's stored value: the affine map of the features block (recasting a block to its own shape changes
    nothing). -/
theorem decoder_apply (x0 : Vec Ideal S200x40 .f32) (x1 : Vec Ideal S40x2000 .f32) (x2 : Vec Ideal S1x2000 .f32)
    (p : Fin 200) (q : Fin 2000) :
    k1_pay4 x0 x1 x2 (ix2 p q) = ∑ k : Fin 40, x0 (ix2 p k) * x1 (ix2 k q) + x2 (ix2 (0 : Fin 1) q) := by
  unfold k1_pay4 k1_pay3
  rw [shapeCast_self, shapeCast_self, dims2000]
  exact affine_apply x0 x1 x2 _ p q

/-- The 64-wide projection's stored value: relu of the affine map. -/
theorem projection_apply (x0 : Vec Ideal S200x40 .f32) (x7 : Vec Ideal S40x64 .f32) (x8 : Vec Ideal S1x64 .f32)
    (p : Fin 200) (q : Fin 64) :
    k1_pay2 (k1_pay3 x0) x7 x8 (ix2 p q) = Cert.Spec.relu (∑ k : Fin 40, x0 (ix2 p k) * x7 (ix2 k q) + x8 (ix2 (0 : Fin 1) q)) := by
  unfold k1_pay2 k1_pay3
  rw [shapeCast_self, shapeCast_self, dims64]
  exact reluAffine_apply x0 x7 x8 _ p q

/-- The classifier's numerator: relu of the affine map. -/
theorem classNum_apply (x0 : Vec Ideal S200x40 .f32) (x5 : Vec Ideal S40x10 .f32) (x6 : Vec Ideal S1x10 .f32)
    (p : Fin 200) (q : Fin 10) :
    k1_pay33 (k1_pay3 x0) x5 x6 (ix2 p q) = Cert.Spec.relu (∑ k : Fin 40, x0 (ix2 p k) * x5 (ix2 k q) + x6 (ix2 (0 : Fin 1) q)) := by
  unfold k1_pay33 k1_pay3
  rw [shapeCast_self, shapeCast_self, dims10]
  exact reluAffine_apply x0 x5 x6 _ p q

/-- The classifier's denominator column: the numerator summed along axis 1 (the sum's accumulator is the zero word),
    recast as a column, plus the small constant. -/
theorem classDen_apply (x0 : Vec Ideal S200x40 .f32) (x5 : Vec Ideal S40x10 .f32) (x6 : Vec Ideal S1x10 .f32)
    (p : Fin 200) (u : Fin 1) :
    k1_pay34 (k1_pay3 x0) x5 x6 (ix2 p u) = ∑ q : Fin 10, k1_pay33 (k1_pay3 x0) x5 x6 (ix2 p q) + Cert.Spec.eps := by
  unfold k1_pay34
  rw [addf_apply, broadcast_apply, Cert.RowOps.shapeCast_a_a1_apply]
  exact congrArg (· + Cert.Spec.eps) (Cert.RowOps.rowSum_apply (k1_pay33 (k1_pay3 x0) x5 x6) _ _ _ _ p)

/-- The classifier's stored value: the numerator divided by the denominator column broadcast back along the rows. -/
theorem classifier_apply (x0 : Vec Ideal S200x40 .f32) (x5 : Vec Ideal S40x10 .f32) (x6 : Vec Ideal S1x10 .f32)
    (p : Fin 200) (q : Fin 10) :
    k1_pay1 (k1_pay33 (k1_pay3 x0) x5 x6) (k1_pay34 (k1_pay3 x0) x5 x6) (ix2 p q)
      = Ideal.div (Cert.Spec.relu (∑ k : Fin 40, x0 (ix2 p k) * x5 (ix2 k q) + x6 (ix2 (0 : Fin 1) q)))
          (∑ q' : Fin 10, Cert.Spec.relu (∑ k : Fin 40, x0 (ix2 p k) * x5 (ix2 k q') + x6 (ix2 (0 : Fin 1) q')) + Cert.Spec.eps) := by
  unfold k1_pay1
  rw [divf_apply, Cert.RowOps.broadcastTo_a1_ab_apply (by decide), classDen_apply]
  simp only [classNum_apply]

/-! ## The blocks of point t, read off the arrays -/

variable (V : (c : Dev nD) → (b : Ref sig .tc) → Buf (Elt Ideal) ((c : Thread nD τ).loc b))

/-- Every access of the body is at offsets zero. -/
theorem zero_offsets : (![0, 0] : Fin 2 → Nat) = fun _ => 0 := funext fun a => by fin_cases a <;> rfl

/-- The index maps of the features and of the three outputs, decided over the 50 points: block t along the rows, block 0
    along the columns. -/
theorem index_rows : ∀ t : Fin cfg1.N,
    (win1_0.index t (0 : Fin 2) = t.val ∧ win1_0.index t (1 : Fin 2) = 0)
    ∧ (win1_9.index t (0 : Fin 2) = t.val ∧ win1_9.index t (1 : Fin 2) = 0)
    ∧ (win1_11.index t (0 : Fin 2) = t.val ∧ win1_11.index t (1 : Fin 2) = 0)
    ∧ (win1_12.index t (0 : Fin 2) = t.val ∧ win1_12.index t (1 : Fin 2) = 0) :=
  (by decide +kernel : ∀ t : Fin grid1.N, _)

/-- The index maps of the weights and biases, decided over the 50 points: constant zero. -/
theorem index_const : ∀ t : Fin cfg1.N,
    (win1_1.index t (0 : Fin 2) = 0 ∧ win1_1.index t (1 : Fin 2) = 0)
    ∧ (win1_2.index t (0 : Fin 2) = 0 ∧ win1_2.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Row p of the block of point t is row 200 t + p of the array. -/
def rowOf (t : Fin cfg1.N) (p : Fin 200) : Fin 10000 :=
  ⟨200 * t.val + p.val, by have ht : t.val < 50 := lt_of_lt_of_eq t.isLt N_1; have := p.isLt; omega⟩

/-- The point whose block holds row r. -/
def pointOf (r : Fin 10000) : Fin cfg1.N :=
  ⟨r.val / 200, lt_of_lt_of_eq (show r.val / 200 < 50 by have := r.isLt; omega) N_1.symm⟩

/-- The features block of point t at (p, k) is the features at (200 t + p, k). -/
theorem featBlock_apply (c : Dev nD) (t : Fin cfg1.N) (p : Fin 200) (k : Fin 40) :
    iblk1 V c 0 t (ix2 p k) = V c main_v149 (ix2 (rowOf t p) k) := by
  show V c main_v149 (((cfg1.win 0).blk t).view.emb (ix2 p k)) = _
  refine congrArg (V c main_v149) ?_
  funext a; apply Fin.ext
  have e := (index_rows t).1
  match a with
  | ⟨0, _⟩ => show win1_0.index t (0 : Fin 2) * 200 + 1 * p.val = 200 * t.val + p.val; have := e.1; omega
  | ⟨1, _⟩ => show win1_0.index t (1 : Fin 2) * 40 + 1 * k.val = k.val; have := e.2; omega

/-- The decoder's weights block at any point is the whole array. -/
theorem decWBlock_apply (c : Dev nD) (t : Fin cfg1.N) (k : Fin 40) (q : Fin 2000) :
    iblk1 V c 1 t (ix2 k q) = V c main_arg13 (ix2 k q) := by
  show V c main_arg13 (((cfg1.win 1).blk t).view.emb (ix2 k q)) = _
  refine congrArg (V c main_arg13) ?_
  funext a; apply Fin.ext
  have e := (index_const t).1
  match a with
  | ⟨0, _⟩ => show win1_1.index t (0 : Fin 2) * 40 + 1 * k.val = k.val; have := e.1; omega
  | ⟨1, _⟩ => show win1_1.index t (1 : Fin 2) * 2000 + 1 * q.val = q.val; have := e.2; omega

/-- The decoder's bias block at any point is the whole array. -/
theorem decBBlock_apply (c : Dev nD) (t : Fin cfg1.N) (u : Fin 1) (q : Fin 2000) :
    iblk1 V c 2 t (ix2 u q) = V c main_v150 (ix2 u q) := by
  show V c main_v150 (((cfg1.win 2).blk t).view.emb (ix2 u q)) = _
  refine congrArg (V c main_v150) ?_
  funext a; apply Fin.ext
  have e := (index_const t).2.1
  match a with
  | ⟨0, _⟩ => show win1_2.index t (0 : Fin 2) * 1 + 1 * u.val = u.val; have := e.1; omega
  | ⟨1, _⟩ => show win1_2.index t (1 : Fin 2) * 2000 + 1 * q.val = q.val; have := e.2; omega

/-- The classifier's weights block at any point is the whole array. -/
theorem clsWBlock_apply (c : Dev nD) (t : Fin cfg1.N) (k : Fin 40) (q : Fin 10) :
    iblk1 V c 5 t (ix2 k q) = V c main_arg17 (ix2 k q) := by
  show V c main_arg17 (((cfg1.win 5).blk t).view.emb (ix2 k q)) = _
  refine congrArg (V c main_arg17) ?_
  funext a; apply Fin.ext
  have e := (index_const t).2.2.1
  match a with
  | ⟨0, _⟩ => show win1_5.index t (0 : Fin 2) * 40 + 1 * k.val = k.val; have := e.1; omega
  | ⟨1, _⟩ => show win1_5.index t (1 : Fin 2) * 10 + 1 * q.val = q.val; have := e.2; omega

/-- The classifier's bias block at any point is the whole array. -/
theorem clsBBlock_apply (c : Dev nD) (t : Fin cfg1.N) (u : Fin 1) (q : Fin 10) :
    iblk1 V c 6 t (ix2 u q) = V c main_v152 (ix2 u q) := by
  show V c main_v152 (((cfg1.win 6).blk t).view.emb (ix2 u q)) = _
  refine congrArg (V c main_v152) ?_
  funext a; apply Fin.ext
  have e := (index_const t).2.2.2.1
  match a with
  | ⟨0, _⟩ => show win1_6.index t (0 : Fin 2) * 1 + 1 * u.val = u.val; have := e.1; omega
  | ⟨1, _⟩ => show win1_6.index t (1 : Fin 2) * 10 + 1 * q.val = q.val; have := e.2; omega

/-- The projection's weights block at any point is the whole array. -/
theorem prjWBlock_apply (c : Dev nD) (t : Fin cfg1.N) (k : Fin 40) (q : Fin 64) :
    iblk1 V c 7 t (ix2 k q) = V c main_arg15 (ix2 k q) := by
  show V c main_arg15 (((cfg1.win 7).blk t).view.emb (ix2 k q)) = _
  refine congrArg (V c main_arg15) ?_
  funext a; apply Fin.ext
  have e := (index_const t).2.2.2.2.1
  match a with
  | ⟨0, _⟩ => show win1_7.index t (0 : Fin 2) * 40 + 1 * k.val = k.val; have := e.1; omega
  | ⟨1, _⟩ => show win1_7.index t (1 : Fin 2) * 64 + 1 * q.val = q.val; have := e.2; omega

/-- The projection's bias block at any point is the whole array. -/
theorem prjBBlock_apply (c : Dev nD) (t : Fin cfg1.N) (u : Fin 1) (q : Fin 64) :
    iblk1 V c 8 t (ix2 u q) = V c main_v153 (ix2 u q) := by
  show V c main_v153 (((cfg1.win 8).blk t).view.emb (ix2 u q)) = _
  refine congrArg (V c main_v153) ?_
  funext a; apply Fin.ext
  have e := (index_const t).2.2.2.2.2
  match a with
  | ⟨0, _⟩ => show win1_8.index t (0 : Fin 2) * 1 + 1 * u.val = u.val; have := e.1; omega
  | ⟨1, _⟩ => show win1_8.index t (1 : Fin 2) * 64 + 1 * q.val = q.val; have := e.2; omega

/-! ## The decoder's output (window 9) -/

/-- The decoder's output as one function of the whole arrays. -/
def decoderArr (c : Dev nD) : S10000x2000.Idx → Elt Ideal .f32 := fun i =>
  Cert.Spec.lin (fun r k => V c main_v149 (ix2 r k)) (fun k j => V c main_arg13 (ix2 k j)) (fun j => V c main_v150 (ix2 (0 : Fin 1) j)) (i 0) (i 1)

/-- What point t writes back is block t of that function: entry (p, q) of the block is entry (200 t + p, q) of the
    array, and there the stored value is the head's formula at row 200 t + p. -/
theorem decoder_flushed (c : Dev nD) (t : Fin cfg1.N) :
    (dat1 (F := Ideal) V c).flushed 9 t = ((cfg1.win 9).blk t).view.read (Elt Ideal) (decoderArr V c) := by
  show (cfg1.win 9).cut (grid1.coords t) ((dat1 V c).after 9 t) = _
  rw [after1_9]
  unfold out1_9
  rw [View.canon_unit_zero zero_offsets]
  simp only [View.ld_unit_zero (S := S200x40) zero_offsets, View.ld_unit_zero (S := S40x2000) zero_offsets, View.ld_unit_zero (S := S1x2000) zero_offsets]
  funext j
  obtain ⟨p, q, rfl⟩ : ∃ (p : Fin 200) (q : Fin 2000), j = ix2 p q := ⟨j 0, j 1, eq_ix2 j⟩
  show k1_pay4 (iblk1 V c 0 t) (iblk1 V c 1 t) (iblk1 V c 2 t) (ix2 p q) = decoderArr V c (((cfg1.win 9).blk t).view.emb (ix2 p q))
  have he : ((cfg1.win 9).blk t).view.emb (ix2 p q) = ix2 (rowOf t p) q := by
    funext a; apply Fin.ext
    have e := (index_rows t).2.1
    match a with
    | ⟨0, _⟩ => show win1_9.index t (0 : Fin 2) * 200 + 1 * p.val = 200 * t.val + p.val; have := e.1; omega
    | ⟨1, _⟩ => show win1_9.index t (1 : Fin 2) * 2000 + 1 * q.val = q.val; have := e.2; omega
  rw [he]
  refine (decoder_apply _ _ _ p q).trans ?_
  simp only [featBlock_apply, decWBlock_apply, decBBlock_apply]
  rfl

/-- An index of the array is in point t's block iff each coordinate is in the block's range on its axis. -/
theorem decoder_mem_blk (t : Fin cfg1.N) (i : S10000x2000.Idx) :
    i ∈ ((cfg1.win 9).blk t).view.set ↔ ∀ a : Fin 2, win1_9.index t a * S200x2000.size a ≤ (i a).val ∧ (i a).val < win1_9.index t a * S200x2000.size a + S200x2000.size a := by
  show i ∈ ((View.whole main_v154_0).slice (win1_9.rect t)).set ↔ _
  rw [View.set_slice_whole, Rect.mem_set_unit]
  exact Iff.rfl

/-- Every index of the array is in the block of the point that holds its row, and every point writes back. -/
theorem decoder_cover (i : S10000x2000.Idx) : ∃ t : Fin cfg1.N, (cfg1.win 9).flush t = true ∧ i ∈ ((cfg1.win 9).blk t).view.set := by
  have hi0 : (i 0).val < 10000 := (i 0).isLt
  have hi1 : (i 1).val < 2000 := (i 1).isLt
  refine ⟨pointOf ⟨(i 0).val, hi0⟩, flush1_9 _, ?_⟩
  rw [decoder_mem_blk]
  have e := (index_rows (pointOf ⟨(i 0).val, hi0⟩)).2.1
  have ev : (pointOf ⟨(i 0).val, hi0⟩).val = (i 0).val / 200 := rfl
  intro a
  match a with
  | ⟨0, _⟩ => show win1_9.index _ (0 : Fin 2) * 200 ≤ (i 0).val ∧ (i 0).val < win1_9.index _ (0 : Fin 2) * 200 + 200; have := e.1; omega
  | ⟨1, _⟩ => show win1_9.index _ (1 : Fin 2) * 2000 ≤ (i 1).val ∧ (i 1).val < win1_9.index _ (1 : Fin 2) * 2000 + 2000; have := e.2; omega

/-! ## The classifier's output (window 11) -/

/-- The classifier's output as one function of the whole arrays. -/
def classifierArr (c : Dev nD) : S10000x10.Idx → Elt Ideal .f32 := fun i =>
  Cert.Spec.rowNorm (fun r k => V c main_v149 (ix2 r k)) (fun k j => V c main_arg17 (ix2 k j)) (fun j => V c main_v152 (ix2 (0 : Fin 1) j)) (i 0) (i 1)

/-- What point t writes back is block t of that function; a row's normalizing sum runs over that row's ten entries, all
    in the same block. -/
theorem classifier_flushed (c : Dev nD) (t : Fin cfg1.N) :
    (dat1 (F := Ideal) V c).flushed 11 t = ((cfg1.win 11).blk t).view.read (Elt Ideal) (classifierArr V c) := by
  show (cfg1.win 11).cut (grid1.coords t) ((dat1 V c).after 11 t) = _
  rw [after1_11]
  unfold out1_11
  rw [View.canon_unit_zero zero_offsets]
  simp only [View.ld_unit_zero (S := S200x40) zero_offsets, View.ld_unit_zero (S := S40x10) zero_offsets, View.ld_unit_zero (S := S1x10) zero_offsets]
  funext j
  obtain ⟨p, q, rfl⟩ : ∃ (p : Fin 200) (q : Fin 10), j = ix2 p q := ⟨j 0, j 1, eq_ix2 j⟩
  show k1_pay1 (k1_pay33 (k1_pay3 (iblk1 V c 0 t)) (iblk1 V c 5 t) (iblk1 V c 6 t)) (k1_pay34 (k1_pay3 (iblk1 V c 0 t)) (iblk1 V c 5 t) (iblk1 V c 6 t)) (ix2 p q)
    = classifierArr V c (((cfg1.win 11).blk t).view.emb (ix2 p q))
  have he : ((cfg1.win 11).blk t).view.emb (ix2 p q) = ix2 (rowOf t p) q := by
    funext a; apply Fin.ext
    have e := (index_rows t).2.2.1
    match a with
    | ⟨0, _⟩ => show win1_11.index t (0 : Fin 2) * 200 + 1 * p.val = 200 * t.val + p.val; have := e.1; omega
    | ⟨1, _⟩ => show win1_11.index t (1 : Fin 2) * 10 + 1 * q.val = q.val; have := e.2; omega
  rw [he]
  refine (classifier_apply _ _ _ p q).trans ?_
  simp only [featBlock_apply, clsWBlock_apply, clsBBlock_apply]
  rfl

/-- An index of the array is in point t's block iff each coordinate is in the block's range on its axis. -/
theorem classifier_mem_blk (t : Fin cfg1.N) (i : S10000x10.Idx) :
    i ∈ ((cfg1.win 11).blk t).view.set ↔ ∀ a : Fin 2, win1_11.index t a * S200x10.size a ≤ (i a).val ∧ (i a).val < win1_11.index t a * S200x10.size a + S200x10.size a := by
  show i ∈ ((View.whole main_v154_2).slice (win1_11.rect t)).set ↔ _
  rw [View.set_slice_whole, Rect.mem_set_unit]
  exact Iff.rfl

/-- Every index of the array is in the block of the point that holds its row, and every point writes back. -/
theorem classifier_cover (i : S10000x10.Idx) : ∃ t : Fin cfg1.N, (cfg1.win 11).flush t = true ∧ i ∈ ((cfg1.win 11).blk t).view.set := by
  have hi0 : (i 0).val < 10000 := (i 0).isLt
  have hi1 : (i 1).val < 10 := (i 1).isLt
  refine ⟨pointOf ⟨(i 0).val, hi0⟩, flush1_11 _, ?_⟩
  rw [classifier_mem_blk]
  have e := (index_rows (pointOf ⟨(i 0).val, hi0⟩)).2.2.1
  have ev : (pointOf ⟨(i 0).val, hi0⟩).val = (i 0).val / 200 := rfl
  intro a
  match a with
  | ⟨0, _⟩ => show win1_11.index _ (0 : Fin 2) * 200 ≤ (i 0).val ∧ (i 0).val < win1_11.index _ (0 : Fin 2) * 200 + 200; have := e.1; omega
  | ⟨1, _⟩ => show win1_11.index _ (1 : Fin 2) * 10 ≤ (i 1).val ∧ (i 1).val < win1_11.index _ (1 : Fin 2) * 10 + 10; have := e.2; omega

/-! ## The 64-wide projection's output (window 12) -/

/-- The projection's output as one function of the whole arrays. -/
def projectionArr (c : Dev nD) : S10000x64.Idx → Elt Ideal .f32 := fun i =>
  Cert.Spec.proj (fun r k => V c main_v149 (ix2 r k)) (fun k j => V c main_arg15 (ix2 k j)) (fun j => V c main_v153 (ix2 (0 : Fin 1) j)) (i 0) (i 1)

/-- What point t writes back is block t of that function. -/
theorem projection_flushed (c : Dev nD) (t : Fin cfg1.N) :
    (dat1 (F := Ideal) V c).flushed 12 t = ((cfg1.win 12).blk t).view.read (Elt Ideal) (projectionArr V c) := by
  show (cfg1.win 12).cut (grid1.coords t) ((dat1 V c).after 12 t) = _
  rw [after1_12]
  unfold out1_12
  rw [View.canon_unit_zero zero_offsets]
  simp only [View.ld_unit_zero (S := S200x40) zero_offsets, View.ld_unit_zero (S := S40x64) zero_offsets, View.ld_unit_zero (S := S1x64) zero_offsets]
  funext j
  obtain ⟨p, q, rfl⟩ : ∃ (p : Fin 200) (q : Fin 64), j = ix2 p q := ⟨j 0, j 1, eq_ix2 j⟩
  show k1_pay2 (k1_pay3 (iblk1 V c 0 t)) (iblk1 V c 7 t) (iblk1 V c 8 t) (ix2 p q) = projectionArr V c (((cfg1.win 12).blk t).view.emb (ix2 p q))
  have he : ((cfg1.win 12).blk t).view.emb (ix2 p q) = ix2 (rowOf t p) q := by
    funext a; apply Fin.ext
    have e := (index_rows t).2.2.2
    match a with
    | ⟨0, _⟩ => show win1_12.index t (0 : Fin 2) * 200 + 1 * p.val = 200 * t.val + p.val; have := e.1; omega
    | ⟨1, _⟩ => show win1_12.index t (1 : Fin 2) * 64 + 1 * q.val = q.val; have := e.2; omega
  rw [he]
  refine (projection_apply _ _ _ p q).trans ?_
  simp only [featBlock_apply, prjWBlock_apply, prjBBlock_apply]
  rfl

/-- An index of the array is in point t's block iff each coordinate is in the block's range on its axis. -/
theorem projection_mem_blk (t : Fin cfg1.N) (i : S10000x64.Idx) :
    i ∈ ((cfg1.win 12).blk t).view.set ↔ ∀ a : Fin 2, win1_12.index t a * S200x64.size a ≤ (i a).val ∧ (i a).val < win1_12.index t a * S200x64.size a + S200x64.size a := by
  show i ∈ ((View.whole main_v154_3).slice (win1_12.rect t)).set ↔ _
  rw [View.set_slice_whole, Rect.mem_set_unit]
  exact Iff.rfl

/-- Every index of the array is in the block of the point that holds its row, and every point writes back. -/
theorem projection_cover (i : S10000x64.Idx) : ∃ t : Fin cfg1.N, (cfg1.win 12).flush t = true ∧ i ∈ ((cfg1.win 12).blk t).view.set := by
  have hi0 : (i 0).val < 10000 := (i 0).isLt
  have hi1 : (i 1).val < 64 := (i 1).isLt
  refine ⟨pointOf ⟨(i 0).val, hi0⟩, flush1_12 _, ?_⟩
  rw [projection_mem_blk]
  have e := (index_rows (pointOf ⟨(i 0).val, hi0⟩)).2.2.2
  have ev : (pointOf ⟨(i 0).val, hi0⟩).val = (i 0).val / 200 := rfl
  intro a
  match a with
  | ⟨0, _⟩ => show win1_12.index _ (0 : Fin 2) * 200 ≤ (i 0).val ∧ (i 0).val < win1_12.index _ (0 : Fin 2) * 200 + 200; have := e.1; omega
  | ⟨1, _⟩ => show win1_12.index _ (1 : Fin 2) * 64 ≤ (i 1).val ∧ (i 1).val < win1_12.index _ (1 : Fin 2) * 64 + 64; have := e.2; omega

end PlainHeads

/-! ## The three arrays after the launch -/

open PlainHeads

variable (V : (c : Dev nD) → (b : Ref sig .tc) → Buf (Elt Ideal) ((c : Thread nD τ).loc b))

/-- Entry (r, j) of the decoder's output after the second launch. -/
theorem xdec_arr (c : Dev nD) (r : Fin 10000) (j : Fin 2000) :
    (dat1 (F := Ideal) V c).arrAt 9 cfg1.N (ix2 r j)
      = Cert.Spec.lin (fun r k => V c main_v149 (ix2 r k)) (fun k j => V c main_arg13 (ix2 k j)) (fun j => V c main_v150 (ix2 (0 : Fin 1) j)) r j := by
  rw [(dat1 (F := Ideal) V c).arrAt_eq_of_cover 9 (decoderArr V c) (fun t _ => decoder_flushed V c t) decoder_cover]
  rfl

/-- Entry (r, j) of the classifier's output after the second launch. -/
theorem ct_arr (c : Dev nD) (r : Fin 10000) (j : Fin 10) :
    (dat1 (F := Ideal) V c).arrAt 11 cfg1.N (ix2 r j)
      = Cert.Spec.rowNorm (fun r k => V c main_v149 (ix2 r k)) (fun k j => V c main_arg17 (ix2 k j)) (fun j => V c main_v152 (ix2 (0 : Fin 1) j)) r j := by
  rw [(dat1 (F := Ideal) V c).arrAt_eq_of_cover 11 (classifierArr V c) (fun t _ => classifier_flushed V c t) classifier_cover]
  rfl

/-- Entry (r, j) of the 64-wide projection after the second launch. -/
theorem zg_arr (c : Dev nD) (r : Fin 10000) (j : Fin 64) :
    (dat1 (F := Ideal) V c).arrAt 12 cfg1.N (ix2 r j)
      = Cert.Spec.proj (fun r k => V c main_v149 (ix2 r k)) (fun k j => V c main_arg15 (ix2 k j)) (fun j => V c main_v153 (ix2 (0 : Fin 1) j)) r j := by
  rw [(dat1 (F := Ideal) V c).arrAt_eq_of_cover 12 (projectionArr V c) (fun t _ => projection_flushed V c t) projection_cover]
  rfl

end Cert.KernelIdeal.Reg1

end
-- ==== Proof.KReg1b.lean ====
import proofs.«421300_j19232863552045_4_alg».proof.Proof.Gen.KernelIdeal.Frame
import proofs.«421300_j19232863552045_4_alg».proof.Proof.Spec
import proofs.«421300_j19232863552045_4_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

/-!
  The grouped head's output array after the second launch, entry by entry.

  The second launch walks the 10000 rows in 50 blocks of 200. At each point the body fills its [200, 20000] block of
  the grouped head in twenty column chunks of 1000: relu of the features block times a slab of the weights plus a slab
  of the bias, each consecutive group of ten entries divided by the group's sum plus a small constant. Ten divides
  1000, so a column's group inside its chunk is its group in the whole row, and the twenty chunks together are one
  function of the features block and the whole weights and bias. Row p of the block at point t is row 200 t + p of the
  array, and the blocks cover the array, so the array ends holding the specification's grouped head of the arrays the
  launch reads.
-/

noncomputable section

namespace Cert.KernelIdeal.Reg1

open Cert.KernelIdeal Cert.KernelIdeal.Gen Idealize.ShloMosaic Idealize.ShloMosaic.TcCoe Idealize.SL.Sem Idealize.ShloMosaic.ValueIdx
open Idealize.ShloMosaic.Pipeline (Dat)

namespace Grouped

/-! ## One column chunk of the grouped head

The body fills its [200, 20000] block in twenty column chunks of 1000. Every chunk is the same function of the
features block [200, 40], a [40, 1000] slab of the weights and a [1, 1000] slab of the bias: the affine map, relu, the
recast to groups of ten [200, 100, 10], each group divided by its sum plus the small constant, and the recast back. -/

/-- The affine map of a chunk: the features times the weight slab, plus the bias slab along the rows. -/
def linC (feat : FVec Ideal S200x40 .f32) (wv : FVec Ideal S40x1000 .f32) (bv : FVec Ideal S1x1000 .f32) : FVec Ideal S200x1000 .f32 :=
  addf (matmul dot_S200x40_S40x1000_S200x1000_1_0_0_1_n_n none feat wv (constant S200x1000 .f32 0x00000000#32))
    (broadcastTo S200x1000 (shapeCast S1x1000 bv shapeCasts_S1x1000_S1x1000) broadcasts_S1x1000_S200x1000)

/-- relu of a chunk, recast to groups of ten. -/
def actC (x : FVec Ideal S200x1000 .f32) : FVec Ideal S200x100x10 .f32 :=
  shapeCast S200x100x10 (maximumf x (broadcast S200x1000 (Scalar.ofBits .f32 0x00000000#32))) shapeCasts_S200x1000_S200x100x10

/-- Each group of ten divided by its sum plus the small constant, recast back to a chunk. -/
def normC (act : FVec Ideal S200x100x10 .f32) : FVec Ideal S200x1000 .f32 :=
  shapeCast S200x1000
    (divf act (broadcastTo S200x100x10
      (addf (shapeCast S200x100x1 (multiReduction .add [2] S200x100 act 0x00000000#32 reduces_S200x100x10_S200x100 (.inl rfl) rfl) shapeCasts_S200x100_S200x100x1)
        (broadcast S200x100x1 (Scalar.ofBits .f32 0x358637BD#32)))
      broadcasts_S200x100x1_S200x100x10))
    shapeCasts_S200x100x10_S200x1000

/-- The whole chunk. -/
def chunkFn (feat : FVec Ideal S200x40 .f32) (wv : FVec Ideal S40x1000 .f32) (bv : FVec Ideal S1x1000 .f32) : FVec Ideal S200x1000 .f32 :=
  normC (actC (linC feat wv bv))

/-! ### The twenty stored payloads are that chunk

The printed payloads cut the same sequence of operations at different places; each store's payload, put back
together, is the chunk function of the values it loads. -/

section Payloads
variable (v0 : Vec Ideal S200x40 .f32) (v1 : FVec Ideal S200x40 .f32) (w : Vec Ideal S40x1000 .f32) (b : Vec Ideal S1x1000 .f32)

theorem pay_c0 : k1_pay5 v0 w b = chunkFn (k1_pay3 v0) w b := rfl
theorem pay_c1 : k1_pay7 (k1_pay6 v0 w b) (Scalar.ofBits .f32 0x00000000#32) = chunkFn (k1_pay3 v0) w b := rfl
theorem pay_c2 : k1_pay8 v1 w b = chunkFn v1 w b := rfl
theorem pay_c3 : k1_pay10 (k1_pay9 v1 w b) = chunkFn v1 w b := rfl
theorem pay_c4 : k1_pay11 v1 w b = chunkFn v1 w b := rfl
theorem pay_c5 : k1_pay15 (k1_pay12 v1 w b) (k1_pay13 v1 w b) (k1_pay14 (F := Ideal)) = chunkFn v1 w b := rfl
theorem pay_c6 : k1_pay16 v1 w b = chunkFn v1 w b := rfl
theorem pay_c7 : k1_pay17 v1 w b = chunkFn v1 w b := rfl
theorem pay_c8 : k1_pay18 v1 w b = chunkFn v1 w b := rfl
theorem pay_c9 : k1_pay19 v1 w b = chunkFn v1 w b := rfl
theorem pay_c10 : k1_pay20 v1 w b = chunkFn v1 w b := rfl
theorem pay_c11 : k1_pay21 v1 w b = chunkFn v1 w b := rfl
theorem pay_c12 : k1_pay22 v1 w b = chunkFn v1 w b := rfl
theorem pay_c13 : k1_pay23 v1 w b = chunkFn v1 w b := rfl
theorem pay_c14 : k1_pay25 v1 w (k1_pay24 b) (constant S200x1000 .f32 0x00000000#32) = chunkFn v1 w b := rfl
theorem pay_c15 : k1_pay26 v1 w b = chunkFn v1 w b := rfl
theorem pay_c16 : k1_pay28 (k1_pay27 v1 w b) (Scalar.ofBits .f32 0x00000000#32) = chunkFn v1 w b := rfl
theorem pay_c17 : k1_pay29 v1 w b = chunkFn v1 w b := rfl
theorem pay_c18 : k1_pay31 (k1_pay30 v1 w b) = chunkFn v1 w b := rfl
theorem pay_c19 : k1_pay32 v1 w b = chunkFn v1 w b := rfl

end Payloads

/-! ### The chunk read at an entry -/

/-- The printed dimension numbers are the plain ones: contract the left operand's axis 1 with the right operand's axis 0. -/
theorem dims_plain : dot_S200x40_S40x1000_S200x1000_1_0_0_1_n_n = DotDims.plain 200 40 1000 := rfl

/-- The affine map at (p, q): row p of the features against column q of the weight slab, plus the bias slab at q. -/
theorem linC_apply (feat : FVec Ideal S200x40 .f32) (wv : FVec Ideal S40x1000 .f32) (bv : FVec Ideal S1x1000 .f32) (p : Fin 200) (q : Fin 1000) :
    linC feat wv bv (ix2 p q) = ∑ k : Fin 40, feat (ix2 p k) * wv (ix2 k q) + bv (ix2 (0 : Fin 1) q) := by
  unfold linC
  rw [addf_apply, shapeCast_self]
  have hm : matmul dot_S200x40_S40x1000_S200x1000_1_0_0_1_n_n none feat wv (constant (F := Ideal) S200x1000 .f32 0x00000000#32) (ix2 p q)
      = ∑ k : Fin 40, feat (ix2 p k) * wv (ix2 k q) :=
    Cert.PlainMatmul.apply (M := 200) (K := 40) (N := 1000) none feat wv p q
  have hb : broadcastTo S200x1000 bv broadcasts_S1x1000_S200x1000 (ix2 p q) = bv (ix2 (0 : Fin 1) q) :=
    broadcastTo_apply bv broadcasts_S1x1000_S200x1000 (ix2 p q) (ix2 (0 : Fin 1) q) (fun a => by
      match a with
      | ⟨0, _⟩ => rfl
      | ⟨1, _⟩ => rfl)
  rw [hm, hb]

/-- Column 10 a + u of a chunk, a below 100 and u below 10. -/
abbrev colOf (a : Fin 100) (u : Fin 10) : Fin 1000 := ⟨10 * a.val + u.val, by have := a.isLt; have := u.isLt; omega⟩

/-- relu recast to groups: entry (p, a, u) is the larger of the chunk's entry (p, 10 a + u) and zero. -/
theorem actC_apply (x : FVec Ideal S200x1000 .f32) (p : Fin 200) (a : Fin 100) (u : Fin 10) :
    actC x (ix3 p a u) = max (x (ix2 p (colOf a u))) 0 := by
  unfold actC
  rw [shapeCast_apply _ shapeCasts_S200x1000_S200x100x10 (ix3 p a u) (ix2 p (colOf a u)) (by
    rw [Shape.rowMajor_val_two, Shape.rowMajor_val_three]
    show p.val * 1000 + (10 * a.val + u.val) = (p.val * 100 + a.val) * 10 + u.val
    omega)]
  rw [maximumf_apply, broadcast_apply]
  show max (x (ix2 p (colOf a u))) (Ideal.ofBits .f32 0x00000000#32) = _
  rw [Ideal.ofBits_zero_f32]

/-- Over (p, a), the source index whose coordinate on the dropped axis 2 is k is (p, a, k). -/
theorem lift_group (p : Fin 200) (a : Fin 100) (k : Fin (S200x100x10.size 2)) :
    reduces_S200x100x10_S200x100.lift (ix2 p a) k = ix3 p a (⟨k.val, k.isLt⟩ : Fin 10) := by
  funext c; apply Fin.ext
  fin_cases c <;> rfl

/-- The sum over the last axis at (p, a) is the sum of the group's ten entries. -/
theorem groupSum_apply (act : FVec Ideal S200x100x10 .f32) (p : Fin 200) (a : Fin 100) :
    multiReduction .add [2] S200x100 act 0x00000000#32 reduces_S200x100x10_S200x100 (.inl rfl) rfl (ix2 p a)
      = ∑ u : Fin 10, act (ix3 p a u) := by
  refine (Ideal.multiReduction_add_single act 0x00000000#32 reduces_S200x100x10_S200x100 (.inl rfl) rfl (ix2 p a)).trans ?_
  exact Finset.sum_congr rfl fun k _ => congrArg act (lift_group p a k)

/-- The normalized chunk at (p, 10 a + u): the group's entry divided by the group's sum plus the small constant. -/
theorem normC_apply (act : FVec Ideal S200x100x10 .f32) (p : Fin 200) (a : Fin 100) (u : Fin 10) :
    normC act (ix2 p (colOf a u)) = Ideal.div (act (ix3 p a u)) (∑ u' : Fin 10, act (ix3 p a u') + Cert.Spec.eps) := by
  unfold normC
  rw [shapeCast_apply _ shapeCasts_S200x100x10_S200x1000 (ix2 p (colOf a u)) (ix3 p a u) (by
    rw [Shape.rowMajor_val_two, Shape.rowMajor_val_three]
    show (p.val * 100 + a.val) * 10 + u.val = p.val * 1000 + (10 * a.val + u.val)
    omega)]
  rw [divf_apply]
  congr 1
  rw [broadcastTo_apply _ broadcasts_S200x100x1_S200x100x10 (ix3 p a u) (ix3 p a (0 : Fin 1)) (fun c => by
    match c with
    | ⟨0, _⟩ => rfl
    | ⟨1, _⟩ => rfl
    | ⟨2, _⟩ => rfl)]
  rw [addf_apply, broadcast_apply]
  rw [shapeCast_apply _ shapeCasts_S200x100_S200x100x1 (ix3 p a (0 : Fin 1)) (ix2 p a) (by
    rw [Shape.rowMajor_val_two, Shape.rowMajor_val_three]
    show p.val * 100 + a.val = (p.val * 100 + a.val) * 1 + 0
    omega)]
  rw [groupSum_apply]
  rfl

/-! ## The block the body leaves, as one function of the blocks it reads -/

/-- One row's grouped head at column j: relu of the affine map, divided by the sum of that over j's group of ten plus
    the small constant. -/
def gnRow (fr : Fin 40 → EReal) (W : Fin 40 → Fin 20000 → EReal) (b : Fin 20000 → EReal) (j : Fin 20000) : EReal :=
  Ideal.div (Cert.Spec.relu (∑ k : Fin 40, fr k * W k j + b j))
    (∑ q : Fin 10, Cert.Spec.relu (∑ k : Fin 40, fr k * W k (Cert.Spec.inGroup j q) + b (Cert.Spec.inGroup j q)) + Cert.Spec.eps)

/-- The specification's grouped head is that, of the row of features. -/
theorem groupNorm_eq (feat : Fin 10000 → Fin 40 → EReal) (W : Fin 40 → Fin 20000 → EReal) (b : Fin 20000 → EReal)
    (r : Fin 10000) (j : Fin 20000) : Cert.Spec.groupNorm feat W b r j = gnRow (feat r) W b j := rfl

/-- Entry (p, j) of the block: the grouped head of row p of the features block against the whole weights and bias. -/
def blockAt (feat : FVec Ideal S200x40 .f32) (W : FVec Ideal S40x20000 .f32) (B : FVec Ideal S1x20000 .f32) (p : Fin 200) (j : Fin 20000) : EReal :=
  gnRow (fun k => feat (ix2 p k)) (fun k j => W (ix2 k j)) (fun j => B (ix2 (0 : Fin 1) j)) j

theorem blockAt_congr (feat : FVec Ideal S200x40 .f32) (W : FVec Ideal S40x20000 .f32) (B : FVec Ideal S1x20000 .f32)
    {p p' : Fin 200} {j j' : Fin 20000} (hp : p.val = p'.val) (hj : j.val = j'.val) :
    blockAt feat W B p j = blockAt feat W B p' j' := by
  obtain rfl := Fin.ext hp
  obtain rfl := Fin.ext hj
  rfl

/-- The block as a function of its index. -/
def blockFn (feat : FVec Ideal S200x40 .f32) (W : FVec Ideal S40x20000 .f32) (B : FVec Ideal S1x20000 .f32) : S200x20000.Idx → Elt Ideal .f32 :=
  fun y => blockAt feat W B ⟨(y 0).val, idx2_lt0 y⟩ ⟨(y 1).val, idx2_lt1 y⟩

/-- A chunk whose weight and bias slabs are the columns o … o + 999 of the whole weights and bias, o a multiple of ten,
    is the block at those columns: column o + q has the same group of ten inside the chunk as in the block, since ten
    divides o. -/
theorem chunk_eq (feat : FVec Ideal S200x40 .f32) (W : FVec Ideal S40x20000 .f32) (B : FVec Ideal S1x20000 .f32)
    (wv : FVec Ideal S40x1000 .f32) (bv : FVec Ideal S1x1000 .f32) (o : ℕ) (ho : o % 10 = 0) (hO : o + 1000 ≤ 20000)
    (hw : ∀ (k : Fin 40) (q : Fin 1000), wv (ix2 k q) = W (ix2 k (⟨o + q.val, by have := q.isLt; omega⟩ : Fin 20000)))
    (hb : ∀ q : Fin 1000, bv (ix2 (0 : Fin 1) q) = B (ix2 (0 : Fin 1) (⟨o + q.val, by have := q.isLt; omega⟩ : Fin 20000)))
    (p : Fin 200) (q : Fin 1000) :
    chunkFn feat wv bv (ix2 p q) = blockAt feat W B p ⟨o + q.val, by have := q.isLt; omega⟩ := by
  obtain ⟨a, u, rfl⟩ : ∃ (a : Fin 100) (u : Fin 10), q = colOf a u :=
    ⟨⟨q.val / 10, by have := q.isLt; omega⟩, ⟨q.val % 10, Nat.mod_lt _ (by decide)⟩,
      Fin.ext (by show q.val = 10 * (q.val / 10) + q.val % 10; omega)⟩
  have hJ : ∀ u' : Fin 10, Cert.Spec.inGroup (⟨o + (colOf a u).val, by have := (colOf a u).isLt; omega⟩ : Fin 20000) u'
      = (⟨o + (colOf a u').val, by have := (colOf a u').isLt; omega⟩ : Fin 20000) := fun u' => Fin.ext (by
    show 10 * ((o + (10 * a.val + u.val)) / 10) + u'.val = o + (10 * a.val + u'.val)
    have := u.isLt
    omega)
  unfold chunkFn
  rw [normC_apply]
  simp only [actC_apply, linC_apply, hw, hb, blockAt, gnRow, Cert.Spec.relu, hJ]

/-! ### The twenty stores, read back as one function -/

/-- A chunk computed from the weight and bias columns o … o + 999, loaded through the rectangles at column offset o,
    is the block read through the store's rectangle at the same offset. -/
theorem piece_eq (feat : FVec Ideal S200x40 .f32) (W : Vec Ideal S40x20000 .f32) (B : Vec Ideal S1x20000 .f32)
    (feat' : FVec Ideal S200x40 .f32) (hf : feat' = feat) (o : ℕ) (ho : o % 10 = 0) (hO : o + 1000 ≤ 20000)
    (inbW : ∀ a, (![0, o] : Fin S40x20000.rank → ℕ) a + S40x1000.size a ≤ S40x20000.size a)
    (inbB : ∀ a, (![0, o] : Fin S1x20000.rank → ℕ) a + S1x1000.size a ≤ S1x20000.size a)
    (inbO : ∀ a, (![0, o] : Fin S200x20000.rank → ℕ) a + S200x1000.size a ≤ S200x20000.size a)
    (x : S200x1000.Idx) :
    chunkFn feat' (View.ld (Val := Elt Ideal) (e' := .f32) W (Rect.unit (s := S40x20000) ![0, o] S40x1000.size inbW))
        (View.ld (Val := Elt Ideal) (e' := .f32) B (Rect.unit (s := S1x20000) ![0, o] S1x1000.size inbB)) x
      = blockFn feat W B ((Rect.unit (s := S200x20000) ![0, o] S200x1000.size inbO).emb x) := by
  subst hf
  obtain ⟨p, q, rfl⟩ : ∃ (p : Fin 200) (q : Fin 1000), x = ix2 p q := ⟨x 0, x 1, eq_ix2 x⟩
  refine (chunk_eq feat' W B _ _ o ho hO (fun k q => congrArg W (funext fun a => Fin.ext ?_))
    (fun q => congrArg B (funext fun a => Fin.ext ?_)) p q).trans (blockAt_congr feat' W B ?_ ?_)
  · match a with
    | ⟨0, _⟩ => show 0 + 1 * k.val = k.val; omega
    | ⟨1, _⟩ => show o + 1 * q.val = o + q.val; omega
  · match a with
    | ⟨0, _⟩ => show 0 + 1 * 0 = 0; omega
    | ⟨1, _⟩ => show o + 1 * q.val = o + q.val; omega
  · show p.val = 0 + 1 * p.val; omega
  · show o + q.val = o + 1 * q.val; omega

theorem zero_off : (![0, 0] : Fin 2 → Nat) = fun _ => 0 := funext fun a => by fin_cases a <;> rfl

/-- The features block, loaded whole and recast to its own shape, is the features block. -/
theorem feat_eq (x0 : Vec Ideal S200x40 .f32) : k1_pay3 (View.ld x0 r1_0) = x0 := by
  unfold k1_pay3
  rw [shapeCast_self]
  exact View.ld_unit_zero (S := S200x40) zero_off _ x0

/-- WHAT THE BODY LEAVES in window 10's buffer is the block function of the features, weights and bias blocks. -/
theorem out_block (x0 : Vec Ideal S200x40 .f32) (x1 : Vec Ideal S40x2000 .f32) (x2 : Vec Ideal S1x2000 .f32) (x3 : Vec Ideal S40x20000 .f32)
    (x4 : Vec Ideal S1x20000 .f32) (x5 : Vec Ideal S40x10 .f32) (x6 : Vec Ideal S1x10 .f32) (x7 : Vec Ideal S40x64 .f32) (x8 : Vec Ideal S1x64 .f32) :
    out1_10 x0 x1 x2 x3 x4 x5 x6 x7 x8 = blockFn x0 x3 x4 := by
  funext y
  unfold out1_10
  refine View.canon_apply_of_pieces (blockFn x0 x3 x4) _ ?_ y (cover1_10 _ _ _ _ _ _ _ _ _ _ _ _ _ _ _ _ _ _ _ _ y)
  refine List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_, List.forall_mem_cons.2 ⟨fun x => ?_,
    fun _ h => absurd h List.not_mem_nil⟩⟩⟩⟩⟩⟩⟩⟩⟩⟩⟩⟩⟩⟩⟩⟩⟩⟩⟩⟩
  · exact (congrFun (pay_c19 _ _ _) x).trans (piece_eq x0 x3 x4 _ (feat_eq x0) 19000 (by decide) (by decide) inb_S40x20000_S40x1000_0_19000 inb_S1x20000_S1x1000_0_19000 inb_S200x20000_S200x1000_0_19000 x)
  · exact (congrFun (pay_c18 _ _ _) x).trans (piece_eq x0 x3 x4 _ (feat_eq x0) 18000 (by decide) (by decide) inb_S40x20000_S40x1000_0_18000 inb_S1x20000_S1x1000_0_18000 inb_S200x20000_S200x1000_0_18000 x)
  · exact (congrFun (pay_c17 _ _ _) x).trans (piece_eq x0 x3 x4 _ (feat_eq x0) 17000 (by decide) (by decide) inb_S40x20000_S40x1000_0_17000 inb_S1x20000_S1x1000_0_17000 inb_S200x20000_S200x1000_0_17000 x)
  · exact (congrFun (pay_c16 _ _ _) x).trans (piece_eq x0 x3 x4 _ (feat_eq x0) 16000 (by decide) (by decide) inb_S40x20000_S40x1000_0_16000 inb_S1x20000_S1x1000_0_16000 inb_S200x20000_S200x1000_0_16000 x)
  · exact (congrFun (pay_c15 _ _ _) x).trans (piece_eq x0 x3 x4 _ (feat_eq x0) 15000 (by decide) (by decide) inb_S40x20000_S40x1000_0_15000 inb_S1x20000_S1x1000_0_15000 inb_S200x20000_S200x1000_0_15000 x)
  · exact (congrFun (pay_c14 _ _ _) x).trans (piece_eq x0 x3 x4 _ (feat_eq x0) 14000 (by decide) (by decide) inb_S40x20000_S40x1000_0_14000 inb_S1x20000_S1x1000_0_14000 inb_S200x20000_S200x1000_0_14000 x)
  · exact (congrFun (pay_c13 _ _ _) x).trans (piece_eq x0 x3 x4 _ (feat_eq x0) 13000 (by decide) (by decide) inb_S40x20000_S40x1000_0_13000 inb_S1x20000_S1x1000_0_13000 inb_S200x20000_S200x1000_0_13000 x)
  · exact (congrFun (pay_c12 _ _ _) x).trans (piece_eq x0 x3 x4 _ (feat_eq x0) 12000 (by decide) (by decide) inb_S40x20000_S40x1000_0_12000 inb_S1x20000_S1x1000_0_12000 inb_S200x20000_S200x1000_0_12000 x)
  · exact (congrFun (pay_c11 _ _ _) x).trans (piece_eq x0 x3 x4 _ (feat_eq x0) 11000 (by decide) (by decide) inb_S40x20000_S40x1000_0_11000 inb_S1x20000_S1x1000_0_11000 inb_S200x20000_S200x1000_0_11000 x)
  · exact (congrFun (pay_c10 _ _ _) x).trans (piece_eq x0 x3 x4 _ (feat_eq x0) 10000 (by decide) (by decide) inb_S40x20000_S40x1000_0_10000 inb_S1x20000_S1x1000_0_10000 inb_S200x20000_S200x1000_0_10000 x)
  · exact (congrFun (pay_c9 _ _ _) x).trans (piece_eq x0 x3 x4 _ (feat_eq x0) 9000 (by decide) (by decide) inb_S40x20000_S40x1000_0_9000 inb_S1x20000_S1x1000_0_9000 inb_S200x20000_S200x1000_0_9000 x)
  · exact (congrFun (pay_c8 _ _ _) x).trans (piece_eq x0 x3 x4 _ (feat_eq x0) 8000 (by decide) (by decide) inb_S40x20000_S40x1000_0_8000 inb_S1x20000_S1x1000_0_8000 inb_S200x20000_S200x1000_0_8000 x)
  · exact (congrFun (pay_c7 _ _ _) x).trans (piece_eq x0 x3 x4 _ (feat_eq x0) 7000 (by decide) (by decide) inb_S40x20000_S40x1000_0_7000 inb_S1x20000_S1x1000_0_7000 inb_S200x20000_S200x1000_0_7000 x)
  · exact (congrFun (pay_c6 _ _ _) x).trans (piece_eq x0 x3 x4 _ (feat_eq x0) 6000 (by decide) (by decide) inb_S40x20000_S40x1000_0_6000 inb_S1x20000_S1x1000_0_6000 inb_S200x20000_S200x1000_0_6000 x)
  · exact (congrFun (pay_c5 _ _ _) x).trans (piece_eq x0 x3 x4 _ (feat_eq x0) 5000 (by decide) (by decide) inb_S40x20000_S40x1000_0_5000 inb_S1x20000_S1x1000_0_5000 inb_S200x20000_S200x1000_0_5000 x)
  · exact (congrFun (pay_c4 _ _ _) x).trans (piece_eq x0 x3 x4 _ (feat_eq x0) 4000 (by decide) (by decide) inb_S40x20000_S40x1000_0_4000 inb_S1x20000_S1x1000_0_4000 inb_S200x20000_S200x1000_0_4000 x)
  · exact (congrFun (pay_c3 _ _ _) x).trans (piece_eq x0 x3 x4 _ (feat_eq x0) 3000 (by decide) (by decide) inb_S40x20000_S40x1000_0_3000 inb_S1x20000_S1x1000_0_3000 inb_S200x20000_S200x1000_0_3000 x)
  · exact (congrFun (pay_c2 _ _ _) x).trans (piece_eq x0 x3 x4 _ (feat_eq x0) 2000 (by decide) (by decide) inb_S40x20000_S40x1000_0_2000 inb_S1x20000_S1x1000_0_2000 inb_S200x20000_S200x1000_0_2000 x)
  · exact (congrFun (pay_c1 _ _ _) x).trans (piece_eq x0 x3 x4 _ (feat_eq x0) 1000 (by decide) (by decide) inb_S40x20000_S40x1000_0_1000 inb_S1x20000_S1x1000_0_1000 inb_S200x20000_S200x1000_0_1000 x)
  · exact (congrFun (pay_c0 _ _ _) x).trans (piece_eq x0 x3 x4 _ (feat_eq x0) 0 (by decide) (by decide) inb_S40x20000_S40x1000_0_0 inb_S1x20000_S1x1000_0_0 inb_S200x20000_S200x1000_0_0 x)

/-! ## From blocks to the array -/

theorem gnRow_congr {fr fr' : Fin 40 → EReal} {W W' : Fin 40 → Fin 20000 → EReal} {b b' : Fin 20000 → EReal} {j j' : Fin 20000}
    (hf : fr = fr') (hW : W = W') (hb : b = b') (hj : j = j') : gnRow fr W b j = gnRow fr' W' b' j' := by
  subst hf hW hb hj
  rfl

variable (V : (c : Dev nD) → (b : Ref sig .tc) → Buf (Elt Ideal) ((c : Thread nD τ).loc b))

/-- What window 10's array ends holding: at (r, j) the grouped head of row r of the features array against the
    weights and bias arrays, as the region finds them. -/
def arrFn (c : Dev nD) : S10000x20000.Idx → Elt Ideal .f32 := fun i =>
  gnRow (fun k => V c main_v149 (ix2 (⟨(i 0).val, idx2_lt0 i⟩ : Fin 10000) k)) (fun k j => V c main_arg19 (ix2 k j))
    (fun j => V c main_v151 (ix2 (0 : Fin 1) j)) ⟨(i 1).val, idx2_lt1 i⟩

/-- The printed index maps, decided over the grid: the features' and the output's blocks move down the rows with the
    point, the weights' and the bias's block is always the whole array. -/
theorem idx_facts : ∀ t : Fin cfg1.N, win1_0.index t (0 : Fin 2) = t.val ∧ win1_0.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_10.index t (0 : Fin 2) = t.val ∧ win1_10.index t (1 : Fin 2) = 0 :=
  (by decide +kernel : ∀ t : Fin grid1.N, _)

/-- WHAT POINT t WRITES BACK is block t of the array function: row p of the features block at t is row 200 t + p of
    the features array, and the weights and bias blocks are the arrays. -/
theorem flushed_eq (c : Dev nD) (t : Fin cfg1.N) :
    (dat1 (F := Ideal) V c).flushed 10 t = ((cfg1.win 10).blk t).view.read (Elt Ideal) (arrFn V c) := by
  show (cfg1.win 10).cut (grid1.coords t) ((dat1 (F := Ideal) V c).after 10 t) = _
  rw [after1_10]
  obtain ⟨e00, e01, e30, e31, e40, e41, eo0, eo1⟩ := idx_facts t
  funext y
  refine (congrFun (out_block (iblk1 V c 0 t) (iblk1 V c 1 t) (iblk1 V c 2 t) (iblk1 V c 3 t) (iblk1 V c 4 t) (iblk1 V c 5 t)
    (iblk1 V c 6 t) (iblk1 V c 7 t) (iblk1 V c 8 t)) ((cfg1.win 10).xinj (grid1.coords t) y)).trans ?_
  show gnRow (fun k => iblk1 V c 0 t (ix2 (⟨(y 0).val, _⟩ : Fin 200) k)) (fun k j => iblk1 V c 3 t (ix2 k j))
      (fun j => iblk1 V c 4 t (ix2 (0 : Fin 1) j)) (⟨(y 1).val, _⟩ : Fin 20000)
    = arrFn V c (((cfg1.win 10).blk t).view.emb y)
  unfold arrFn
  refine gnRow_congr (funext fun k => ?_) (funext fun k => funext fun j => ?_) (funext fun j => ?_) (Fin.ext ?_)
  · show V c main_v149 (((cfg1.win 0).blk t).view.emb (ix2 (⟨(y 0).val, _⟩ : Fin 200) k)) = _
    refine congrArg (V c main_v149) (funext fun a => Fin.ext ?_)
    match a with
    | ⟨0, _⟩ =>
      show win1_0.index t (0 : Fin 2) * 200 + 1 * (y 0).val = win1_10.index t (0 : Fin 2) * 200 + 1 * (y 0).val
      omega
    | ⟨1, _⟩ =>
      show win1_0.index t (1 : Fin 2) * 40 + 1 * k.val = k.val
      omega
  · show V c main_arg19 (((cfg1.win 3).blk t).view.emb (ix2 k j)) = _
    refine congrArg (V c main_arg19) (funext fun a => Fin.ext ?_)
    match a with
    | ⟨0, _⟩ =>
      show win1_3.index t (0 : Fin 2) * 40 + 1 * k.val = k.val
      omega
    | ⟨1, _⟩ =>
      show win1_3.index t (1 : Fin 2) * 20000 + 1 * j.val = j.val
      omega
  · show V c main_v151 (((cfg1.win 4).blk t).view.emb (ix2 (0 : Fin 1) j)) = _
    refine congrArg (V c main_v151) (funext fun a => Fin.ext ?_)
    match a with
    | ⟨0, _⟩ =>
      show win1_4.index t (0 : Fin 2) * 1 + 1 * 0 = 0
      omega
    | ⟨1, _⟩ =>
      show win1_4.index t (1 : Fin 2) * 20000 + 1 * j.val = j.val
      omega
  · show (y 1).val = win1_10.index t (1 : Fin 2) * 20000 + 1 * (y 1).val
    omega

/-- An index of the array is in point t's block iff each coordinate is in the block's range on its axis. -/
theorem mem_blk (t : Fin cfg1.N) (i : S10000x20000.Idx) :
    i ∈ ((cfg1.win 10).blk t).view.set ↔ ∀ a : Fin 2, win1_10.index t a * S200x20000.size a ≤ (i a).val ∧ (i a).val < win1_10.index t a * S200x20000.size a + S200x20000.size a := by
  show i ∈ ((View.whole main_v154_1).slice (win1_10.rect t)).set ↔ _
  rw [View.set_slice_whole, Rect.mem_set_unit]
  exact Iff.rfl

/-- Every index of the array is in some point's block: row r is in the block of point r / 200. -/
theorem covered (i : S10000x20000.Idx) :
    ∃ t : Fin cfg1.N, (cfg1.win 10).flush t = true ∧ i ∈ ((cfg1.win 10).blk t).view.set := by
  have hi0 : (i 0).val < 10000 := idx2_lt0 i
  have hi1 : (i 1).val < 20000 := idx2_lt1 i
  have hN : cfg1.N = 50 := N_1
  have ht : (i 0).val / 200 < cfg1.N := by rw [hN]; omega
  obtain ⟨-, -, -, -, -, -, eo0, eo1⟩ := idx_facts ⟨(i 0).val / 200, ht⟩
  refine ⟨⟨(i 0).val / 200, ht⟩, flush1_10 _, ?_⟩
  rw [mem_blk]
  intro a
  match a with
  | ⟨0, _⟩ =>
    show win1_10.index ⟨(i 0).val / 200, ht⟩ (0 : Fin 2) * 200 ≤ (i 0).val ∧ (i 0).val < win1_10.index ⟨(i 0).val / 200, ht⟩ (0 : Fin 2) * 200 + 200
    rw [eo0]
    show (i 0).val / 200 * 200 ≤ (i 0).val ∧ (i 0).val < (i 0).val / 200 * 200 + 200
    omega
  | ⟨1, _⟩ =>
    show win1_10.index ⟨(i 0).val / 200, ht⟩ (1 : Fin 2) * 20000 ≤ (i 1).val ∧ (i 1).val < win1_10.index ⟨(i 0).val / 200, ht⟩ (1 : Fin 2) * 20000 + 20000
    omega

/-- THE ARRAY after the launch is the array function. -/
theorem final (c : Dev nD) : (dat1 (F := Ideal) V c).arrAt 10 cfg1.N = arrFn V c :=
  (dat1 (F := Ideal) V c).arrAt_eq_of_cover 10 (arrFn V c) (fun t _ => flushed_eq V c t) (covered)

end Grouped

open Grouped

variable (V : (c : Dev nD) → (b : Ref sig .tc) → Buf (Elt Ideal) ((c : Thread nD τ).loc b))

/-- Entry (r, j) of the grouped head's output after the second launch. -/
theorem pw_arr (c : Dev nD) (r : Fin 10000) (j : Fin 20000) :
    (dat1 (F := Ideal) V c).arrAt 10 cfg1.N (ix2 r j)
      = Cert.Spec.groupNorm (fun r k => V c main_v149 (ix2 r k)) (fun k j => V c main_arg19 (ix2 k j)) (fun j => V c main_v151 (ix2 (0 : Fin 1) j)) r j := by
  rw [groupNorm_eq]
  exact congrFun (final V c) (ix2 r j)

end Cert.KernelIdeal.Reg1

end
-- ==== Proof.KKept.lean ====
/-
  Which buffers a stretch of the kernel program's host operations leaves alone.

  Every operation writes one buffer, its result.  So a buffer that is not among a stretch's results holds after the
  stretch what it held before.
-/
import proofs.«421300_j19232863552045_4_alg».proof.Proof.Gen.KernelIdeal.Launch
import Idealize.ShloMosaic.Lib.StableHlo.Run

set_option maxRecDepth 65536

noncomputable section

namespace Cert.KernelIdeal.Kept

open Cert.KernelIdeal Cert.KernelIdeal.Gen Idealize.ShloMosaic Idealize.ShloMosaic.TcCoe Idealize.SL.Sem Idealize.ShloMosaic.StableHlo

variable {F : FTy → Type} [FloatOps F]

/-- When a line of operations writes, one by one, exactly the buffers of a list — the k-th operation the k-th buffer and
    nothing else — every operation of the line writes inside the list. -/
theorem writes_sub_of_forall₂ {T : Topo} {S : RefSig} {Val : EltTy → Type} {ops : List (HloOp T S Val)} {W : List (Ref S .tc)}
    (h : List.Forall₂ (fun op y => op.writes = {Proc.devRef (τ := T) .tc y}) ops W) :
    ops.Forall fun op => op.writes ⊆ (W.map (Proc.devRef (τ := T) .tc)).toFinset := by
  refine List.forall_iff_forall_mem.mpr ?_
  induction h with
  | nil => intro o ho; cases ho
  | @cons op y ops' W' hw _ ih =>
    intro o ho
    rcases List.mem_cons.mp ho with rfl | ho
    · rw [hw]
      exact Finset.singleton_subset_iff.mpr (List.mem_toFinset.mpr (List.mem_map_of_mem List.mem_cons_self))
    · intro x hx
      have hx' := List.mem_toFinset.mp (ih o ho hx)
      exact List.mem_toFinset.mpr (by rw [List.map_cons]; exact List.mem_cons_of_mem _ hx')

/-- The results of `hostOps0`, in order. -/
abbrev dests_hostOps0 : List (Ref sig .tc) :=
  [main_v0, main_v1, main_v2, main_v3, main_v4, main_v5, main_v6, main_v7, main_v8, main_v9]

/-- The k-th operation of `hostOps0` writes the k-th buffer of the list and nothing else. -/
theorem hostOps0_writes : List.Forall₂ (fun (op : HloOp τ sig (Elt F)) y => op.writes = {Proc.devRef (τ := τ) .tc y})
    (hostOps0 (F := F)) dests_hostOps0 := by
  repeat (first | exact List.Forall₂.nil | refine List.Forall₂.cons rfl ?_)

theorem hostOps0_keeps (V : Valuation τ sig (Elt F)) (b : Ref sig .tc) (hb : b ∉ dests_hostOps0) :
    after (hostOps0 (F := F)) V (Proc.devRef .tc b) = V (Proc.devRef .tc b) :=
  after_of_writes_sub _ V (writes_sub_of_forall₂ hostOps0_writes) hb

/-- The results of `hostOps1`, in order. -/
abbrev dests_hostOps1 : List (Ref sig .tc) :=
  [main_cst, main_v11, main_v12, main_v13, main_cst_0, main_v14, main_v15, main_v16, main_v17, main_c, main_v18, main_v19, main_c_1, main_v20, main_v21, main_v22, main_v23, main_v24, main_c_2, main_v25, main_v26, main_c_3, main_v27, main_v28, main_v29, main_v30, main_v31, main_v32, main_v33, main_v34, main_c_4, main_v35, main_v36, main_c_5, main_v37, main_v38, main_v39, main_v40, main_v41, main_v42, main_v43, main_cst_6, main_v44, main_v45, main_v46, main_v47, main_v48, main_v49, main_v50, main_v51, main_v52, main_v53, main_v54]

/-- The k-th operation of `hostOps1` writes the k-th buffer of the list and nothing else. -/
theorem hostOps1_writes : List.Forall₂ (fun (op : HloOp τ sig (Elt F)) y => op.writes = {Proc.devRef (τ := τ) .tc y})
    (hostOps1 (F := F)) dests_hostOps1 := by
  repeat (first | exact List.Forall₂.nil | refine List.Forall₂.cons rfl ?_)

theorem hostOps1_keeps (V : Valuation τ sig (Elt F)) (b : Ref sig .tc) (hb : b ∉ dests_hostOps1) :
    after (hostOps1 (F := F)) V (Proc.devRef .tc b) = V (Proc.devRef .tc b) :=
  after_of_writes_sub _ V (writes_sub_of_forall₂ hostOps1_writes) hb

/-- The results of `hostOps1_1`, in order. -/
abbrev dests_hostOps1_1 : List (Ref sig .tc) :=
  [main_call0_cst, main_call0_v0, main_v55]

/-- The k-th operation of `hostOps1_1` writes the k-th buffer of the list and nothing else. -/
theorem hostOps1_1_writes : List.Forall₂ (fun (op : HloOp τ sig (Elt F)) y => op.writes = {Proc.devRef (τ := τ) .tc y})
    (hostOps1_1 (F := F)) dests_hostOps1_1 := by
  repeat (first | exact List.Forall₂.nil | refine List.Forall₂.cons rfl ?_)

theorem hostOps1_1_keeps (V : Valuation τ sig (Elt F)) (b : Ref sig .tc) (hb : b ∉ dests_hostOps1_1) :
    after (hostOps1_1 (F := F)) V (Proc.devRef .tc b) = V (Proc.devRef .tc b) :=
  after_of_writes_sub _ V (writes_sub_of_forall₂ hostOps1_1_writes) hb

/-- The results of `hostOps1_2`, in order. -/
abbrev dests_hostOps1_2 : List (Ref sig .tc) :=
  [main_cst_7, main_v56, main_v57, main_v58, main_cst_8, main_v59, main_v60, main_v61, main_v62, main_c_9, main_v63, main_v64, main_c_10, main_v65, main_v66, main_v67, main_v68, main_v69, main_c_11, main_v70, main_v71, main_c_12, main_v72, main_v73, main_v74, main_v75, main_v76, main_v77, main_v78, main_v79, main_c_13, main_v80, main_v81, main_c_14, main_v82, main_v83, main_v84, main_v85, main_v86, main_v87, main_v88, main_cst_15, main_v89, main_v90, main_v91, main_v92, main_v93, main_v94, main_v95, main_v96, main_v97, main_v98, main_v99, main_cst_16, main_v100, main_v101, main_v102, main_cst_17, main_v103, main_v104, main_v105, main_v106, main_c_18, main_v107, main_v108, main_c_19, main_v109, main_v110, main_v111, main_v112, main_v113, main_c_20, main_v114, main_v115, main_c_21, main_v116, main_v117, main_v118, main_v119, main_v120, main_v121, main_v122, main_v123, main_c_22, main_v124, main_v125, main_c_23, main_v126, main_v127, main_v128, main_v129, main_v130, main_v131, main_v132, main_cst_24, main_v133, main_v134, main_v135, main_v136, main_v137, main_v138, main_v139, main_v140, main_v141, main_v142, main_v143, main_cst_25, main_v144, main_v145, main_v146, main_v147, main_v148, main_v149, main_v150, main_v151, main_v152, main_v153]

/-- The k-th operation of `hostOps1_2` writes the k-th buffer of the list and nothing else. -/
theorem hostOps1_2_writes : List.Forall₂ (fun (op : HloOp τ sig (Elt F)) y => op.writes = {Proc.devRef (τ := τ) .tc y})
    (hostOps1_2 (F := F)) dests_hostOps1_2 := by
  repeat (first | exact List.Forall₂.nil | refine List.Forall₂.cons rfl ?_)

theorem hostOps1_2_keeps (V : Valuation τ sig (Elt F)) (b : Ref sig .tc) (hb : b ∉ dests_hostOps1_2) :
    after (hostOps1_2 (F := F)) V (Proc.devRef .tc b) = V (Proc.devRef .tc b) :=
  after_of_writes_sub _ V (writes_sub_of_forall₂ hostOps1_2_writes) hb

/-- The results of `hostOps2`, in order. -/
abbrev dests_hostOps2 : List (Ref sig .tc) :=
  [main_c_26, main_v155, main_v156, main_c_27, main_v157, main_v158, main_v159, main_v160, main_v161, main_c_28, main_v162, main_v163, main_c_29, main_v164, main_v165, main_v166, main_v167, main_v168, main_v169, main_cst_30, main_v170, main_c_31, main_v171, main_v172, main_c_32, main_v173, main_v174, main_v175, main_v176, main_v177, main_c_33, main_v178, main_v179, main_c_34, main_v180, main_v181, main_v182, main_v183, main_v184, main_v185, main_cst_35, main_v186, main_v187, main_v188, main_cst_36, main_v189, main_v190, main_cst_37, main_v191, main_v192, main_v193, main_v194, main_cst_38, main_v195, main_v196, main_cst_39, main_v197, main_v198, main_v199, main_v200, main_cst_40, main_v201, main_cst_41, main_v202, main_v203, main_cst_42, main_v204, main_cst_43, main_v205, main_cst_44, main_v206, main_v207, main_cst_45, main_v208, main_v209, main_v210, main_v211, main_cst_46, main_v212, main_v213, main_v214, main_v215, main_cst_47, main_v216, main_cst_48, main_v217, main_cst_49, main_v218, main_cst_50, main_v219, main_v220, main_cst_51, main_v221, main_v222]

/-- The k-th operation of `hostOps2` writes the k-th buffer of the list and nothing else. -/
theorem hostOps2_writes : List.Forall₂ (fun (op : HloOp τ sig (Elt F)) y => op.writes = {Proc.devRef (τ := τ) .tc y})
    (hostOps2 (F := F)) dests_hostOps2 := by
  repeat (first | exact List.Forall₂.nil | refine List.Forall₂.cons rfl ?_)

theorem hostOps2_keeps (V : Valuation τ sig (Elt F)) (b : Ref sig .tc) (hb : b ∉ dests_hostOps2) :
    after (hostOps2 (F := F)) V (Proc.devRef .tc b) = V (Proc.devRef .tc b) :=
  after_of_writes_sub _ V (writes_sub_of_forall₂ hostOps2_writes) hb

end Cert.KernelIdeal.Kept

end
-- ==== Proof.KVals.lean ====
/-
  The buffers of the kernel program at each boundary of its run, read back to the launch memory.

  The run is a fold: a stretch of host operations, the first launch, three more stretches, the second launch, a last
  stretch. A buffer that is no result of the stretches run so far and no window array of the launches passed still holds
  what the launch dealt; each boundary's statement is the previous one composed with one step. The first launch's output
  window then holds the specification's second layer of the argument arrays: its input windows are argument arrays nothing
  has written, and its two bias rows are the bias vectors recast as one row, so row (0, k) of each reads entry k of the
  vector. The second launch's four output windows hold the four heads of the joined features the same way: the weights
  are argument arrays nothing has written, and the four bias rows are the last stretch's recasts of the bias vectors.
-/
import proofs.«421300_j19232863552045_4_alg».proof.Proof.Gen.KernelIdeal.Frame
import proofs.«421300_j19232863552045_4_alg».proof.Proof.KReg0
import proofs.«421300_j19232863552045_4_alg».proof.Proof.KReg1a
import proofs.«421300_j19232863552045_4_alg».proof.Proof.KReg1b
import proofs.«421300_j19232863552045_4_alg».proof.Proof.KKept

set_option maxRecDepth 65536

noncomputable section

namespace Cert.KernelIdeal.Vals

open Cert.KernelIdeal Cert.KernelIdeal.Gen Cert.KernelIdeal.Kept Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-! ## Buffers that nothing has written yet hold what the launch dealt -/

theorem W1_of_not (b : Ref sig .tc) (h0 : b ∉ dests_hostOps0) :
    W1 m ρ c (Proc.devRef .tc b) = m ((c.tc : Thread nD τ).loc b) :=
  (hostOps0_keeps (W0 m ρ c) b h0).trans rfl

theorem W2_of_not (b : Ref sig .tc) (h0 : b ∉ dests_hostOps0) (hw : ∀ w, Pipeline.arrRef spec0 w ≠ b) :
    W2 m ρ c (Proc.devRef .tc b) = m ((c.tc : Thread nD τ).loc b) :=
  (W2_of_ne m ρ c b hw).trans (W1_of_not m ρ c b h0)

theorem W3_of_not (b : Ref sig .tc) (h0 : b ∉ dests_hostOps0) (hw : ∀ w, Pipeline.arrRef spec0 w ≠ b) (h1 : b ∉ dests_hostOps1) :
    W3 m ρ c (Proc.devRef .tc b) = m ((c.tc : Thread nD τ).loc b) :=
  (hostOps1_keeps (W2 m ρ c) b h1).trans (W2_of_not m ρ c b h0 hw)

theorem W4_of_not (b : Ref sig .tc) (h0 : b ∉ dests_hostOps0) (hw : ∀ w, Pipeline.arrRef spec0 w ≠ b) (h1 : b ∉ dests_hostOps1)
    (h11 : b ∉ dests_hostOps1_1) :
    W4 m ρ c (Proc.devRef .tc b) = m ((c.tc : Thread nD τ).loc b) :=
  (hostOps1_1_keeps (W3 m ρ c) b h11).trans (W3_of_not m ρ c b h0 hw h1)

theorem W5_of_not (b : Ref sig .tc) (h0 : b ∉ dests_hostOps0) (hw : ∀ w, Pipeline.arrRef spec0 w ≠ b) (h1 : b ∉ dests_hostOps1)
    (h11 : b ∉ dests_hostOps1_1) (h12 : b ∉ dests_hostOps1_2) :
    W5 m ρ c (Proc.devRef .tc b) = m ((c.tc : Thread nD τ).loc b) :=
  (hostOps1_2_keeps (W4 m ρ c) b h12).trans (W4_of_not m ρ c b h0 hw h1 h11)

theorem W6_of_not (b : Ref sig .tc) (h0 : b ∉ dests_hostOps0) (hw : ∀ w, Pipeline.arrRef spec0 w ≠ b) (h1 : b ∉ dests_hostOps1)
    (h11 : b ∉ dests_hostOps1_1) (h12 : b ∉ dests_hostOps1_2) (hw1 : ∀ w, Pipeline.arrRef spec1 w ≠ b) :
    W6 m ρ c (Proc.devRef .tc b) = m ((c.tc : Thread nD τ).loc b) :=
  (W6_of_ne m ρ c b hw1).trans (W5_of_not m ρ c b h0 hw h1 h11 h12)

/-! ## The bias rows: a vector recast as one row -/

/-- After the first stretch the first layer's bias row is the bias vector recast as [1, 100]. -/
theorem biasRow1 (V : Valuation τ sig (Elt Ideal)) :
    after hostOps0 V (Proc.devRef .tc main_v8) = shapeCast S1x100 (V (Proc.devRef .tc main_arg4)) shapeCasts_S100_S1x100 := by
  after_results_simp
  rfl

/-- After the first stretch the second layer's bias row is the bias vector recast as [1, 20]. -/
theorem biasRow2 (V : Valuation τ sig (Elt Ideal)) :
    after hostOps0 V (Proc.devRef .tc main_v9) = shapeCast S1x20 (V (Proc.devRef .tc main_arg6)) shapeCasts_S20_S1x20 := by
  after_results_simp
  rfl

/-! ## What the two launches leave -/

/-- Entry (r, j) of the encoded rows after the first launch, from the argument arrays. -/
theorem W2_featx (r : Fin 10000) (j : Fin 20) :
    W2 m ρ c (Proc.devRef .tc main_v10) (ix2 r j)
      = Cert.Spec.featx (fun r i => m ((c.tc : Thread nD τ).loc main_arg0) (ix2 r i)) (fun i k => m ((c.tc : Thread nD τ).loc main_arg3) (ix2 i k)) (fun k => m ((c.tc : Thread nD τ).loc main_arg4) (ix1 k))
          (fun k j => m ((c.tc : Thread nD τ).loc main_arg5) (ix2 k j)) (fun j => m ((c.tc : Thread nD τ).loc main_arg6) (ix1 j)) r j := by
  have e0 : V1 m ρ c main_arg0 = m ((c.tc : Thread nD τ).loc main_arg0) := W1_of_not m ρ c main_arg0 (by decide)
  have e3 : V1 m ρ c main_arg3 = m ((c.tc : Thread nD τ).loc main_arg3) := W1_of_not m ρ c main_arg3 (by decide)
  have e5 : V1 m ρ c main_arg5 = m ((c.tc : Thread nD τ).loc main_arg5) := W1_of_not m ρ c main_arg5 (by decide)
  have e8 : ∀ k : Fin 100, V1 m ρ c main_v8 (ix2 (0 : Fin 1) k) = m ((c.tc : Thread nD τ).loc main_arg4) (ix1 k) := fun k => by
    show after hostOps0 (W0 m ρ c) (Proc.devRef .tc main_v8) (ix2 (0 : Fin 1) k) = _
    rw [biasRow1]
    exact shapeCast_a_1a_apply _ _ _ k
  have e9 : ∀ k : Fin 20, V1 m ρ c main_v9 (ix2 (0 : Fin 1) k) = m ((c.tc : Thread nD τ).loc main_arg6) (ix1 k) := fun k => by
    show after hostOps0 (W0 m ρ c) (Proc.devRef .tc main_v9) (ix2 (0 : Fin 1) k) = _
    rw [biasRow2]
    exact shapeCast_a_1a_apply _ _ _ k
  refine (congrFun (W2_arr m ρ c 5) (ix2 r j) : W2 m ρ c (Proc.devRef .tc main_v10) (ix2 r j) = _).trans ?_
  rw [Cert.KernelIdeal.Reg0.featx_arr (V1 m ρ) c r j]
  simp only [e0, e3, e5, e8, e9]

/-- After the third stretch the decoder's bias row is its bias vector recast as [1, 2000]. -/
theorem biasRowDec (V : Valuation τ sig (Elt Ideal)) :
    after hostOps1_2 V (Proc.devRef .tc main_v150) = shapeCast S1x2000 (V (Proc.devRef .tc main_arg14)) shapeCasts_S2000_S1x2000 := by
  after_results_simp
  rfl

/-- After the third stretch the grouped head's bias row is its bias vector recast as [1, 20000]. -/
theorem biasRowGrp (V : Valuation τ sig (Elt Ideal)) :
    after hostOps1_2 V (Proc.devRef .tc main_v151) = shapeCast S1x20000 (V (Proc.devRef .tc main_arg20)) shapeCasts_S20000_S1x20000 := by
  after_results_simp
  rfl

/-- After the third stretch the classifier's bias row is its bias vector recast as [1, 10]. -/
theorem biasRowCls (V : Valuation τ sig (Elt Ideal)) :
    after hostOps1_2 V (Proc.devRef .tc main_v152) = shapeCast S1x10 (V (Proc.devRef .tc main_arg18)) shapeCasts_S10_S1x10 := by
  after_results_simp
  rfl

/-- After the third stretch the projection's bias row is its bias vector recast as [1, 64]. -/
theorem biasRowPrj (V : Valuation τ sig (Elt Ideal)) :
    after hostOps1_2 V (Proc.devRef .tc main_v153) = shapeCast S1x64 (V (Proc.devRef .tc main_arg16)) shapeCasts_S64_S1x64 := by
  after_results_simp
  rfl

/-- Entry (r, j) of the decoder's output after the second launch, from the joined features as the launch finds them. -/
theorem W6_xdec (r : Fin 10000) (j : Fin 2000) :
    W6 m ρ c (Proc.devRef .tc main_v154_0) (ix2 r j)
      = Cert.Spec.lin (fun r k => W5 m ρ c (Proc.devRef .tc main_v149) (ix2 r k)) (fun k j => m ((c.tc : Thread nD τ).loc main_arg13) (ix2 k j)) (fun j => m ((c.tc : Thread nD τ).loc main_arg14) (ix1 j)) r j := by
  have eW : V5 m ρ c main_arg13 = m ((c.tc : Thread nD τ).loc main_arg13) :=
    W5_of_not m ρ c main_arg13 (by decide) (by decide) (by decide) (by decide) (by decide)
  have eb : ∀ k : Fin 2000, V5 m ρ c main_v150 (ix2 (0 : Fin 1) k) = m ((c.tc : Thread nD τ).loc main_arg14) (ix1 k) := fun k => by
    show after hostOps1_2 (W4 m ρ c) (Proc.devRef .tc main_v150) (ix2 (0 : Fin 1) k) = _
    rw [biasRowDec, W4_of_not m ρ c main_arg14 (by decide) (by decide) (by decide) (by decide)]
    exact shapeCast_a_1a_apply _ _ _ k
  refine (congrFun (W6_arr m ρ c 9) (ix2 r j) : W6 m ρ c (Proc.devRef .tc main_v154_0) (ix2 r j) = _).trans ?_
  rw [Cert.KernelIdeal.Reg1.xdec_arr (V5 m ρ) c r j]
  simp only [eW, eb]

theorem W6_pw (r : Fin 10000) (j : Fin 20000) :
    W6 m ρ c (Proc.devRef .tc main_v154_1) (ix2 r j)
      = Cert.Spec.groupNorm (fun r k => W5 m ρ c (Proc.devRef .tc main_v149) (ix2 r k)) (fun k j => m ((c.tc : Thread nD τ).loc main_arg19) (ix2 k j)) (fun j => m ((c.tc : Thread nD τ).loc main_arg20) (ix1 j)) r j := by
  have eW : V5 m ρ c main_arg19 = m ((c.tc : Thread nD τ).loc main_arg19) :=
    W5_of_not m ρ c main_arg19 (by decide) (by decide) (by decide) (by decide) (by decide)
  have eb : ∀ k : Fin 20000, V5 m ρ c main_v151 (ix2 (0 : Fin 1) k) = m ((c.tc : Thread nD τ).loc main_arg20) (ix1 k) := fun k => by
    show after hostOps1_2 (W4 m ρ c) (Proc.devRef .tc main_v151) (ix2 (0 : Fin 1) k) = _
    rw [biasRowGrp, W4_of_not m ρ c main_arg20 (by decide) (by decide) (by decide) (by decide)]
    exact shapeCast_a_1a_apply _ _ _ k
  refine (congrFun (W6_arr m ρ c 10) (ix2 r j) : W6 m ρ c (Proc.devRef .tc main_v154_1) (ix2 r j) = _).trans ?_
  rw [Cert.KernelIdeal.Reg1.pw_arr (V5 m ρ) c r j]
  simp only [eW, eb]

theorem W6_ct (r : Fin 10000) (j : Fin 10) :
    W6 m ρ c (Proc.devRef .tc main_v154_2) (ix2 r j)
      = Cert.Spec.rowNorm (fun r k => W5 m ρ c (Proc.devRef .tc main_v149) (ix2 r k)) (fun k j => m ((c.tc : Thread nD τ).loc main_arg17) (ix2 k j)) (fun j => m ((c.tc : Thread nD τ).loc main_arg18) (ix1 j)) r j := by
  have eW : V5 m ρ c main_arg17 = m ((c.tc : Thread nD τ).loc main_arg17) :=
    W5_of_not m ρ c main_arg17 (by decide) (by decide) (by decide) (by decide) (by decide)
  have eb : ∀ k : Fin 10, V5 m ρ c main_v152 (ix2 (0 : Fin 1) k) = m ((c.tc : Thread nD τ).loc main_arg18) (ix1 k) := fun k => by
    show after hostOps1_2 (W4 m ρ c) (Proc.devRef .tc main_v152) (ix2 (0 : Fin 1) k) = _
    rw [biasRowCls, W4_of_not m ρ c main_arg18 (by decide) (by decide) (by decide) (by decide)]
    exact shapeCast_a_1a_apply _ _ _ k
  refine (congrFun (W6_arr m ρ c 11) (ix2 r j) : W6 m ρ c (Proc.devRef .tc main_v154_2) (ix2 r j) = _).trans ?_
  rw [Cert.KernelIdeal.Reg1.ct_arr (V5 m ρ) c r j]
  simp only [eW, eb]

theorem W6_zg (r : Fin 10000) (j : Fin 64) :
    W6 m ρ c (Proc.devRef .tc main_v154_3) (ix2 r j)
      = Cert.Spec.proj (fun r k => W5 m ρ c (Proc.devRef .tc main_v149) (ix2 r k)) (fun k j => m ((c.tc : Thread nD τ).loc main_arg15) (ix2 k j)) (fun j => m ((c.tc : Thread nD τ).loc main_arg16) (ix1 j)) r j := by
  have eW : V5 m ρ c main_arg15 = m ((c.tc : Thread nD τ).loc main_arg15) :=
    W5_of_not m ρ c main_arg15 (by decide) (by decide) (by decide) (by decide) (by decide)
  have eb : ∀ k : Fin 64, V5 m ρ c main_v153 (ix2 (0 : Fin 1) k) = m ((c.tc : Thread nD τ).loc main_arg16) (ix1 k) := fun k => by
    show after hostOps1_2 (W4 m ρ c) (Proc.devRef .tc main_v153) (ix2 (0 : Fin 1) k) = _
    rw [biasRowPrj, W4_of_not m ρ c main_arg16 (by decide) (by decide) (by decide) (by decide)]
    exact shapeCast_a_1a_apply _ _ _ k
  refine (congrFun (W6_arr m ρ c 12) (ix2 r j) : W6 m ρ c (Proc.devRef .tc main_v154_3) (ix2 r j) = _).trans ?_
  rw [Cert.KernelIdeal.Reg1.zg_arr (V5 m ρ) c r j]
  simp only [eW, eb]

end Cert.KernelIdeal.Vals

end
-- ==== Proof.RHeadsDefs.lean ====
/-
  The reference's four output heads as functions of the 40 joined features per row, in the host's own operations:
  an affine map (a plain matrix product plus a bias broadcast along the rows), then for three of them the maximum with
  zero, and for two of those a division by a sum plus a small constant — over each row of ten for the classifier, over
  each consecutive group of ten columns (the array recast as rows of ten) for the grouped head.
-/
import proofs.«421300_j19232863552045_4_alg».proof.Proof.Gen.ReferenceIdeal

noncomputable section

namespace Cert.ReferenceIdeal.Heads

open Cert.ReferenceIdeal Cert.ReferenceIdeal.Gen Idealize.ShloMosaic

variable {F : FTy → Type} [FloatOps F]

/-- The decoder: the features times the decoder's weights, plus its bias along the rows. -/
def xdec (feat : (⟨S10000x40, .f32⟩ : BufTy).Contents (Elt F)) (w : (⟨S40x2000, .f32⟩ : BufTy).Contents (Elt F)) (b : (⟨S2000, .f32⟩ : BufTy).Contents (Elt F)) : (⟨S10000x2000, .f32⟩ : BufTy).Contents (Elt F) :=
  addf (Host.dotGeneral dot_S10000x40_S40x2000_S10000x2000_1_0_0_1_n_n none feat w)
    (broadcastInDim S10000x2000 ![0, 1] bcast_S1x2000_S10000x2000_0_1 (broadcastInDim S1x2000 ![1] bcast_S2000_S1x2000_1 b))

/-- The 64-wide projection: the affine map, then the maximum with zero. -/
def zg (feat : (⟨S10000x40, .f32⟩ : BufTy).Contents (Elt F)) (w : (⟨S40x64, .f32⟩ : BufTy).Contents (Elt F)) (b : (⟨S64, .f32⟩ : BufTy).Contents (Elt F)) : (⟨S10000x64, .f32⟩ : BufTy).Contents (Elt F) :=
  maximumf (addf (Host.dotGeneral dot_S10000x40_S40x64_S10000x64_1_0_0_1_n_n none feat w)
      (broadcastInDim S10000x64 ![0, 1] bcast_S1x64_S10000x64_0_1 (broadcastInDim S1x64 ![1] bcast_S64_S1x64_1 b)))
    (broadcastInDim S10000x64 ![] bcast_S_S10000x64 (constant S_ .f32 0x00000000#32))

/-- The classifier before it is normalized: the affine map, then the maximum with zero. -/
def ctAct (feat : (⟨S10000x40, .f32⟩ : BufTy).Contents (Elt F)) (w : (⟨S40x10, .f32⟩ : BufTy).Contents (Elt F)) (b : (⟨S10, .f32⟩ : BufTy).Contents (Elt F)) : (⟨S10000x10, .f32⟩ : BufTy).Contents (Elt F) :=
  maximumf (addf (Host.dotGeneral dot_S10000x40_S40x10_S10000x10_1_0_0_1_n_n none feat w)
      (broadcastInDim S10000x10 ![0, 1] bcast_S1x10_S10000x10_0_1 (broadcastInDim S1x10 ![1] bcast_S10_S1x10_1 b)))
    (broadcastInDim S10000x10 ![] bcast_S_S10000x10 (constant S_ .f32 0x00000000#32))

/-- The classifier: each row divided by its sum plus the small constant. -/
def ct (feat : (⟨S10000x40, .f32⟩ : BufTy).Contents (Elt F)) (w : (⟨S40x10, .f32⟩ : BufTy).Contents (Elt F)) (b : (⟨S10, .f32⟩ : BufTy).Contents (Elt F)) : (⟨S10000x10, .f32⟩ : BufTy).Contents (Elt F) :=
  Host.divf (ctAct feat w b)
    (broadcastInDim S10000x10 ![0, 1] bcast_S10000x1_S10000x10_0_1
      (addf (broadcastInDim S10000x1 ![0] bcast_S10000_S10000x1_0
          (Host.reduceAdd (ctAct feat w b) (constant S_ .f32 0x00000000#32) reducesTo_S10000x10_S10000_d1 h_S_))
        (broadcastInDim S10000x1 ![] bcast_S_S10000x1 (constant S_ .f32 0x358637BD#32))))

/-- The grouped head before it is normalized, recast as rows of ten: the affine map, the maximum with zero, the recast. -/
def pwAct (feat : (⟨S10000x40, .f32⟩ : BufTy).Contents (Elt F)) (w : (⟨S40x20000, .f32⟩ : BufTy).Contents (Elt F)) (b : (⟨S20000, .f32⟩ : BufTy).Contents (Elt F)) : (⟨S20000000x10, .f32⟩ : BufTy).Contents (Elt F) :=
  shapeCast _ (maximumf (addf (Host.dotGeneral dot_S10000x40_S40x20000_S10000x20000_1_0_0_1_n_n none feat w)
        (broadcastInDim S10000x20000 ![0, 1] bcast_S1x20000_S10000x20000_0_1 (broadcastInDim S1x20000 ![1] bcast_S20000_S1x20000_1 b)))
      (broadcastInDim S10000x20000 ![] bcast_S_S10000x20000 (constant S_ .f32 0x00000000#32)))
    shapeCasts_S10000x20000_S20000000x10

/-- The grouped head: each row of ten divided by its sum plus the small constant, recast back to 20000 columns. -/
def pw (feat : (⟨S10000x40, .f32⟩ : BufTy).Contents (Elt F)) (w : (⟨S40x20000, .f32⟩ : BufTy).Contents (Elt F)) (b : (⟨S20000, .f32⟩ : BufTy).Contents (Elt F)) : (⟨S10000x20000, .f32⟩ : BufTy).Contents (Elt F) :=
  shapeCast _ (Host.divf (pwAct feat w b)
      (broadcastInDim S20000000x10 ![0, 1] bcast_S20000000x1_S20000000x10_0_1
        (addf (broadcastInDim S20000000x1 ![0] bcast_S20000000_S20000000x1_0
            (Host.reduceAdd (pwAct feat w b) (constant S_ .f32 0x00000000#32) reducesTo_S20000000x10_S20000000_d1 h_S_))
          (broadcastInDim S20000000x1 ![] bcast_S_S20000000x1 (constant S_ .f32 0x358637BD#32)))))
    shapeCasts_S20000000x10_S10000x20000

end Cert.ReferenceIdeal.Heads

end
-- ==== Proof.RConnect.lean ====
import proofs.«421300_j19232863552045_4_alg».proof.Proof.RefRun
import proofs.«421300_j19232863552045_4_alg».proof.Proof.RefRead
import proofs.«421300_j19232863552045_4_alg».proof.Proof.RHeadsDefs

set_option maxRecDepth 65536

noncomputable section

namespace Cert.ReferenceIdeal.Connect

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]
variable (W : Valuation τ sig (Elt F))

/-- After the autoencoder's operations the encoded rows hold the stage function of the five arrays they depend on. -/
theorem featx_after :
    after ops1 W (Proc.devRef .tc main_v17)
      = ReadP.val_main_v17 (F := F) (W (Proc.devRef .tc main_arg0)) (W (Proc.devRef .tc main_arg3)) (W (Proc.devRef .tc main_arg4))
          (W (Proc.devRef .tc main_arg5)) (W (Proc.devRef .tc main_arg6)) := by
  -- Fold the chunk from W: each operation's result at its own buffer is its function of its operands' contents, and at
  -- any other buffer what was there. Composed in program order this is the stage function's own term (the two celu
  -- bodies included, their values carried at the buffers' own types).
  after_results_simp
  rfl

/-- After the heads' operations the decoder's output is the decoder head of the joined features. -/
theorem xdec_after :
    after ops5 W (Proc.devRef .tc main_v184)
      = Heads.xdec (F := F) (W (Proc.devRef .tc main_v156)) (W (Proc.devRef .tc main_arg13)) (W (Proc.devRef .tc main_arg14)) := by
  -- The decoder's four operations (product, two broadcasts of the bias, sum), composed in program order.
  unfold Heads.xdec
  after_results_simp

theorem zg_after :
    after ops5 W (Proc.devRef .tc main_v189)
      = Heads.zg (F := F) (W (Proc.devRef .tc main_v156)) (W (Proc.devRef .tc main_arg15)) (W (Proc.devRef .tc main_arg16)) := by
  -- The projection's operations (product, bias, maximum with the zero splat), composed in program order.
  unfold Heads.zg
  after_results_simp
  rfl

theorem ct_after :
    after ops5 W (Proc.devRef .tc main_v167)
      = Heads.ct (F := F) (W (Proc.devRef .tc main_v156)) (W (Proc.devRef .tc main_arg17)) (W (Proc.devRef .tc main_arg18)) := by
  -- The classifier's operations: the activation, its row sums from the zero initial value, the small constant added,
  -- the result broadcast back along the rows, and the division; the activation is read twice, as in the program.
  simp only [Heads.ct, Heads.ctAct]
  after_results_simp
  rfl

theorem pw_after :
    after ops5 W (Proc.devRef .tc main_v180)
      = Heads.pw (F := F) (W (Proc.devRef .tc main_v156)) (W (Proc.devRef .tc main_arg19)) (W (Proc.devRef .tc main_arg20)) := by
  -- The grouped head's operations: the activation recast as rows of ten, their sums, the small constant added, the
  -- broadcast back, the division, and the recast to 20000 columns; the recast activation is read twice, as in the program.
  simp only [Heads.pw, Heads.pwAct]
  after_results_simp
  rfl

end Cert.ReferenceIdeal.Connect

end
-- ==== Proof.RFeatx.lean ====
import proofs.«421300_j19232863552045_4_alg».proof.Proof.RefRead
import proofs.«421300_j19232863552045_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Idealize.ShloMosaic Idealize.ShloMosaic.TcCoe Idealize.SL.Sem Idealize.ShloMosaic.ValueIdx

open Cert.ReferenceIdeal.ReadP

/-! ## The scalar identity: the printed celu is the specification's celu -/

/-- The pattern 0x3F800000 denotes the number one: sign 0, exponent field 127 (the bias), significand field 0. -/
theorem ofBits_one_f32 : Ideal.ofBits .f32 0x3F800000#32 = 1 := by
  simp [Ideal.ofBits, Ideal.ieee]
  rw [← EReal.coe_mul, ← EReal.coe_one]
  congr 1
  norm_num

/-- Division by one changes nothing, at the infinities too. -/
theorem div_one_eq (y : EReal) : Ideal.div y 1 = y := by
  have h := Ideal.div_coe (y := (1 : ℝ)) one_ne_zero y
  simpa using h

/-- The exponential of zero is one. -/
theorem exp_zero_eq : Ideal.exp 0 = 1 := by
  rw [← EReal.coe_zero, Ideal.exp_coe, Real.exp_zero, EReal.coe_one]

/-- One minus one is zero in the extended reals (both are finite). -/
theorem one_sub_one_eq : (1 : EReal) - 1 = 0 := by
  rw [← EReal.coe_one, ← EReal.coe_sub, sub_self, EReal.coe_zero]

/-- max(y, 0) + 1 * (exp(min(y, 0) / 1) - 1) is celu y: for positive y the second summand is 1 * (exp 0 - 1) = 0 and
    the first is y; otherwise the first summand is 0 and the second is exp y - 1. -/
theorem celu_eq (y : EReal) :
    max y 0 + 1 * (Ideal.exp (Ideal.div (min y 0) 1) - 1) = Cert.Spec.celu y := by
  rw [div_one_eq, one_mul]
  unfold Cert.Spec.celu
  by_cases h : 0 < y
  · rw [if_pos h, max_eq_left h.le, min_eq_right h.le, exp_zero_eq, one_sub_one_eq, add_zero]
  · rw [if_neg h]
    have h' : y ≤ 0 := not_lt.mp h
    rw [max_eq_right h', min_eq_left h', zero_add]

/-! ## The composed index functions at an index written by its coordinates -/

/-- The first product's left operand at output (r, k) and contraction index i is read at (r, i). -/
theorem lidx8_ix2 (r : Fin 10000) (k : Fin 100) (i : Fin 2000) : lidx_main_v8 (ix2 r k) i = ix2 r i :=
  funext fun a => Fin.ext (by match a with | ⟨0, _⟩ => rfl | ⟨1, _⟩ => rfl)

/-- The first product's right operand at output (r, k) and contraction index i is read at (i, k). -/
theorem ridx8_ix2 (r : Fin 10000) (k : Fin 100) (i : Fin 2000) : ridx_main_v8 (ix2 r k) i = ix2 i k :=
  funext fun a => Fin.ext (by match a with | ⟨0, _⟩ => rfl | ⟨1, _⟩ => rfl)

/-- The first bias, broadcast to [1, 100] and then along the rows, is read at (r, k) at its entry k. -/
theorem idx9_10_ix2 (r : Fin 10000) (k : Fin 100) : idx_main_v9 (idx_main_v10 (ix2 r k)) = ix1 k :=
  funext fun a => Fin.ext (by match a with | ⟨0, _⟩ => rfl)

/-- The second product's left operand at output (r, j) and contraction index k is read at (r, k). -/
theorem lidx13_ix2 (r : Fin 10000) (j : Fin 20) (k : Fin 100) : lidx_main_v13 (ix2 r j) k = ix2 r k :=
  funext fun a => Fin.ext (by match a with | ⟨0, _⟩ => rfl | ⟨1, _⟩ => rfl)

/-- The second product's right operand at output (r, j) and contraction index k is read at (k, j). -/
theorem ridx13_ix2 (r : Fin 10000) (j : Fin 20) (k : Fin 100) : ridx_main_v13 (ix2 r j) k = ix2 k j :=
  funext fun a => Fin.ext (by match a with | ⟨0, _⟩ => rfl | ⟨1, _⟩ => rfl)

/-- The second bias, broadcast to [1, 20] and then along the rows, is read at (r, j) at its entry j. -/
theorem idx14_15_ix2 (r : Fin 10000) (j : Fin 20) : idx_main_v14 (idx_main_v15 (ix2 r j)) = ix1 j :=
  funext fun a => Fin.ext (by match a with | ⟨0, _⟩ => rfl)

/-! ## The first layer -/

/-- Entry (r, k) of the reference's first layer: celu of row r of x against column k of W1, plus b1 at k. -/
theorem hidden_ref (x0 : (⟨S10000x2000, .f32⟩ : BufTy).Contents (Elt Ideal)) (x3 : (⟨S2000x100, .f32⟩ : BufTy).Contents (Elt Ideal)) (x4 : (⟨S100, .f32⟩ : BufTy).Contents (Elt Ideal))
    (r : Fin 10000) (k : Fin 100) :
    val_main_v12 (F := Ideal) x0 x3 x4 (ix2 r k)
      = Cert.Spec.hidden (fun r i => x0 (ix2 r i)) (fun i k => x3 (ix2 i k)) (fun k => x4 (ix1 k)) r k := by
  rw [val_main_v12_apply, val_main_call0_v1_apply, val_main_call0_v8_apply, val_main_call0_v7_apply,
    val_main_call0_cst_2_apply, val_main_call0_v6_apply, val_main_call0_v5_apply, val_main_call0_v4_apply,
    val_main_call0_cst_1_apply, val_main_call0_v3_apply, val_main_call0_v2_apply, val_main_call0_cst_0_apply,
    val_main_call0_v0_apply, val_main_call0_cst_apply, val_main_v11_apply, val_main_v10_apply, val_main_v9_apply,
    val_main_v8_apply, idx9_10_ix2]
  simp only [lidx8_ix2, ridx8_ix2, Ideal.addf_def, Ideal.mulf_def, Ideal.maximumf_def, Ideal.minimumf_def,
    Ideal.hostDivf_def, Ideal.hostUnary_expm1_def, Ideal.ofBits_def, Ideal.ofBits_zero_f32, ofBits_one_f32]
  exact celu_eq _

/-- Entry (r, j) of the reference's encoded rows (the value of its second celu), from the argument arrays. -/
theorem featx_ref (x0 : (⟨S10000x2000, .f32⟩ : BufTy).Contents (Elt Ideal)) (x3 : (⟨S2000x100, .f32⟩ : BufTy).Contents (Elt Ideal)) (x4 : (⟨S100, .f32⟩ : BufTy).Contents (Elt Ideal)) (x5 : (⟨S100x20, .f32⟩ : BufTy).Contents (Elt Ideal)) (x6 : (⟨S20, .f32⟩ : BufTy).Contents (Elt Ideal))
    (r : Fin 10000) (j : Fin 20) :
    val_main_v17 (F := Ideal) x0 x3 x4 x5 x6 (ix2 r j)
      = Cert.Spec.featx (fun r i => x0 (ix2 r i)) (fun i k => x3 (ix2 i k)) (fun k => x4 (ix1 k)) (fun k j => x5 (ix2 k j)) (fun j => x6 (ix1 j)) r j := by
  rw [val_main_v17_apply, val_main_call1_v1_apply, val_main_call1_v8_apply, val_main_call1_v7_apply,
    val_main_call1_cst_2_apply, val_main_call1_v6_apply, val_main_call1_v5_apply, val_main_call1_v4_apply,
    val_main_call1_cst_1_apply, val_main_call1_v3_apply, val_main_call1_v2_apply, val_main_call1_cst_0_apply,
    val_main_call1_v0_apply, val_main_call1_cst_apply, val_main_v16_apply, val_main_v15_apply, val_main_v14_apply,
    val_main_v13_apply, idx14_15_ix2]
  simp only [lidx13_ix2, ridx13_ix2, hidden_ref, Ideal.addf_def, Ideal.mulf_def, Ideal.maximumf_def, Ideal.minimumf_def,
    Ideal.hostDivf_def, Ideal.hostUnary_expm1_def, Ideal.ofBits_def, Ideal.ofBits_zero_f32, ofBits_one_f32]
  exact celu_eq _

end Cert.ReferenceIdeal.RefVal

end
-- ==== Proof.LibHostDot.lean ====
/-
  Products and sums read at an entry.

  The host's `dot_general` with the plain dimension numbers (contract the left operand's axis 1 with the right operand's
  axis 0, no batch axes) has, at entry (r, c), the sum over k of a (r, k) * b (k, c) — the same sum as the kernel's matrix
  product into the zero accumulator.  A finite sum of reals, read in the extended reals, is the sum of the terms read
  there; so a sum of products of real entries is the real sum of products.
-/
import proofs.«421300_j19232863552045_4_alg».proof.Proof.LibPlainMatmul
import Mathlib.Data.EReal.Basic
import Mathlib.Algebra.BigOperators.Group.Finset.Basic

noncomputable section

namespace Cert.Dots

open Idealize.ShloMosaic Idealize.ShloMosaic.ValueIdx

/-- The real sum, read in the extended reals, is the sum of the terms read there. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of products of real entries is the real sum of products. -/
theorem sum_coe_mul {ι : Type} [Fintype ι] (f g : ι → ℝ) :
    ∑ k, ((f k : ℝ) : EReal) * ((g k : ℝ) : EReal) = ((∑ k, f k * g k : ℝ) : EReal) := by
  rw [coe_sum]
  exact Finset.sum_congr rfl fun k _ => (EReal.coe_mul _ _).symm

variable {M K N : ℕ}

/-- Entry (r, c) of the host's plain product is the sum over k of a (r, k) * b (k, c). -/
theorem hostDot_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  show FloatOps.dotGeneral (DotDims.plain M K N) prec .single a b (ix2 r c) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

end Cert.Dots

end
-- ==== Proof.RHeads.lean ====
/-
  The reference's four output heads read at an entry.

  Each head is an affine map of a row's 40 joined features: entry (r, j) is the inner product of row r of the features
  with column j of the weights, plus entry j of the bias (the bias is laid out as a row and repeated along the rows, so
  every row reads the same entry). The decoder is that map itself; the other three take the maximum with zero. The
  classifier then divides each entry by its row's sum plus a small constant; the sum starts from the zero constant, so
  it is the sum of the row's ten entries. The grouped head does the same after the [10000, 20000] array is recast as
  20000000 rows of ten: row-major position is kept, so entry (r, j) sits in row 2000 r + j / 10 at place j mod 10, and
  that row holds the ten columns 10 (j / 10) + q of row r — the group of ten that holds j.

  The operations are first read at an entry at any extents, then instantiated at the four heads' shapes.
-/
import proofs.«421300_j19232863552045_4_alg».proof.Proof.RHeadsDefs
import proofs.«421300_j19232863552045_4_alg».proof.Proof.Spec
import proofs.«421300_j19232863552045_4_alg».proof.Proof.LibHostDot
import proofs.«421300_j19232863552045_4_alg».proof.Proof.LibRowOps
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.Heads

open Cert.ReferenceIdeal Cert.ReferenceIdeal.Gen Idealize.ShloMosaic Idealize.ShloMosaic.TcCoe Idealize.SL.Sem Idealize.ShloMosaic.ValueIdx

/-! ## The heads' operations at an entry, at any extents -/

section AnyExtents

variable {α : Type}

/-- A vector [n] laid out as a row [1, n] and repeated along m rows reads, at (r, j), entry j of the vector. -/
theorem biasRows_apply {m n : ℕ} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (j : Fin n) :
    broadcastInDim ⟨2, ![m, n]⟩ ![0, 1] h2 (broadcastInDim ⟨2, ![1, n]⟩ ![1] h1 b) (ix2 r j) = b (ix1 j) := by
  have hj : j.val = if n = 1 then 0 else j.val := by
    by_cases hn : n = 1
    · rw [if_pos hn]; have := j.isLt; omega
    · rw [if_neg hn]
  refine (broadcastInDim_apply _ h2 _ (ix2 r j) (ix2 (0 : Fin 1) j) fun a => ?_).trans
    (broadcastInDim_apply _ h1 b (ix2 (0 : Fin 1) j) (ix1 j) fun a => ?_)
  · match a with
    | ⟨0, _⟩ => show 0 = if (1 : ℕ) = 1 then 0 else r.val; rw [if_pos rfl]
    | ⟨1, _⟩ => exact hj
  · match a with
    | ⟨0, _⟩ => exact hj

/-- The affine map at entry (r, j): the inner product of row r of the features with column j of the weights, plus
    entry j of the bias. -/
theorem affine_apply {m K n : ℕ} (feat : FVec Ideal ⟨2, ![m, K]⟩ .f32) (w : FVec Ideal ⟨2, ![K, n]⟩ .f32)
    (b : FVec Ideal ⟨1, ![n]⟩ .f32) (h1 : (⟨1, ![n]⟩ : Shape).BroadcastsInDim ⟨2, ![1, n]⟩ ![1])
    (h2 : (⟨2, ![1, n]⟩ : Shape).BroadcastsInDim ⟨2, ![m, n]⟩ ![0, 1]) (r : Fin m) (j : Fin n) :
    addf (Host.dotGeneral (DotDims.plain m K n) none feat w)
        (broadcastInDim ⟨2, ![m, n]⟩ ![0, 1] h2 (broadcastInDim ⟨2, ![1, n]⟩ ![1] h1 b)) (ix2 r j)
      = ∑ k : Fin K, feat (ix2 r k) * w (ix2 k j) + b (ix1 j) := by
  rw [addf_apply, Cert.Dots.hostDot_apply, biasRows_apply]

/-- The affine map followed by the maximum with the zero constant, at entry (r, j). -/
theorem reluAffine_apply {m K n : ℕ} (feat : FVec Ideal ⟨2, ![m, K]⟩ .f32) (w : FVec Ideal ⟨2, ![K, n]⟩ .f32)
    (b : FVec Ideal ⟨1, ![n]⟩ .f32) (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![]) (r : Fin m) (j : Fin n) :
    maximumf (addf (Host.dotGeneral (DotDims.plain m K n) none feat w)
          (broadcastInDim ⟨2, ![m, n]⟩ ![0, 1] h2 (broadcastInDim ⟨2, ![1, n]⟩ ![1] h1 b)))
        (broadcastInDim ⟨2, ![m, n]⟩ ![] h0 (constant (F := Ideal) ⟨0, ![]⟩ .f32 0x00000000#32)) (ix2 r j)
      = max (∑ k : Fin K, feat (ix2 r k) * w (ix2 k j) + b (ix1 j)) 0 := by
  rw [maximumf_apply, affine_apply, broadcastInDim_scalar_apply, constant_apply, Ideal.ofBits_zero_f32]

/-- A vector [n] laid out as a column [n, 1] reads, at (r, u), entry r of the vector. -/
theorem colOf_apply {n : ℕ} (v : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h v (ix2 r u) = v (ix1 r) :=
  broadcastInDim_apply _ h v (ix2 r u) (ix1 r) fun a => by
    match a with
    | ⟨0, _⟩ =>
      show r.val = if n = 1 then 0 else r.val
      by_cases hn : n = 1
      · rw [if_pos hn]; have := r.isLt; omega
      · rw [if_neg hn]

/-- A column [n, 1] repeated along m columns reads, at (r, k), entry r of the column. -/
theorem colRows_apply {n m : ℕ} (c : (⟨2, ![n, 1]⟩ : Shape).Idx → α)
    (h : (⟨2, ![n, 1]⟩ : Shape).BroadcastsInDim ⟨2, ![n, m]⟩ ![0, 1]) (r : Fin n) (k : Fin m) :
    broadcastInDim ⟨2, ![n, m]⟩ ![0, 1] h c (ix2 r k) = c (ix2 r (0 : Fin 1)) :=
  broadcastInDim_apply _ h c (ix2 r k) (ix2 r (0 : Fin 1)) fun a => by
    match a with
    | ⟨0, _⟩ =>
      show r.val = if n = 1 then 0 else r.val
      by_cases hn : n = 1
      · rw [if_pos hn]; have := r.isLt; omega
      · rw [if_neg hn]
    | ⟨1, _⟩ => show 0 = if (1 : ℕ) = 1 then 0 else k.val; rw [if_pos rfl]

/-- The host's sum along axis 1, at row r, is the initial value plus the sum of the row's entries. -/
theorem hostRowSum_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩)
    (hu : 0 < u.numel) (r : Fin n) :
    Host.reduceAdd x init h' hu (ix1 r) = init (Shape.Idx.first hu) + ∑ k : Fin m, x (ix2 r k) := by
  refine (Ideal.hostReduceAdd_single h' h x (init (Shape.Idx.first hu)) (ix1 r)).trans ?_
  exact congrArg (_ + ·) (Finset.sum_congr rfl fun k _ => congrArg x (Cert.RowOps.lift_row h r k))

/-- Each row divided by its sum (taken from the zero constant) plus the small constant, at entry (r, k). -/
theorem rowNormalize_apply {n m : ℕ} (act : FVec Ideal ⟨2, ![n, m]⟩ .f32)
    (hR' : (⟨2, ![n, m]⟩ : Shape).ReducesTo [1] ⟨1, ![n]⟩) (hR : (⟨2, ![n, m]⟩ : Shape).Reduces [1] ⟨1, ![n]⟩)
    (hu : 0 < (⟨0, ![]⟩ : Shape).numel) (hC : (⟨1, ![n]⟩ : Shape).BroadcastsInDim ⟨2, ![n, 1]⟩ ![0])
    (hE : (⟨0, ![]⟩ : Shape).BroadcastsInDim ⟨2, ![n, 1]⟩ ![])
    (hB : (⟨2, ![n, 1]⟩ : Shape).BroadcastsInDim ⟨2, ![n, m]⟩ ![0, 1]) (r : Fin n) (k : Fin m) :
    Host.divf act
        (broadcastInDim ⟨2, ![n, m]⟩ ![0, 1] hB
          (addf (broadcastInDim ⟨2, ![n, 1]⟩ ![0] hC
              (Host.reduceAdd act (constant (F := Ideal) ⟨0, ![]⟩ .f32 0x00000000#32) hR' hu))
            (broadcastInDim ⟨2, ![n, 1]⟩ ![] hE (constant (F := Ideal) ⟨0, ![]⟩ .f32 0x358637BD#32)))) (ix2 r k)
      = Ideal.div (act (ix2 r k)) (∑ q : Fin m, act (ix2 r q) + Cert.Spec.eps) := by
  rw [hostDivf_apply, colRows_apply, addf_apply, colOf_apply, hostRowSum_apply act _ hR' hR hu r,
    broadcastInDim_scalar_apply, constant_apply, constant_apply, Ideal.ofBits_zero_f32, zero_add]
  rfl

/-- An [n, c] array recast as [p, m] reads, at (R, q), the entry (r, j) at the same row-major position. -/
theorem recast_apply {n c p m : ℕ} (x : (⟨2, ![n, c]⟩ : Shape).Idx → α)
    (h : (⟨2, ![n, c]⟩ : Shape).ShapeCasts ⟨2, ![p, m]⟩) (R : Fin p) (q : Fin m) (r : Fin n) (j : Fin c)
    (hk : r.val * c + j.val = R.val * m + q.val) : shapeCast ⟨2, ![p, m]⟩ x h (ix2 R q) = x (ix2 r j) :=
  shapeCast_apply x h (ix2 R q) (ix2 r j) (by rw [Shape.rowMajor_val_two, Shape.rowMajor_val_two]; exact hk)

end AnyExtents

/-! ## The four heads -/

/-- Entry (r, j) of the reference's decoder output. -/
theorem xdec_apply (feat : (⟨S10000x40, .f32⟩ : BufTy).Contents (Elt Ideal)) (w : (⟨S40x2000, .f32⟩ : BufTy).Contents (Elt Ideal)) (b : (⟨S2000, .f32⟩ : BufTy).Contents (Elt Ideal)) (r : Fin 10000) (j : Fin 2000) :
    xdec (F := Ideal) feat w b (ix2 r j) = Cert.Spec.lin (fun r k => feat (ix2 r k)) (fun k j => w (ix2 k j)) (fun j => b (ix1 j)) r j :=
  affine_apply (m := 10000) (K := 40) (n := 2000) feat w b bcast_S2000_S1x2000_1 bcast_S1x2000_S10000x2000_0_1 r j

/-- Entry (r, j) of the reference's 64-wide projection. -/
theorem zg_apply (feat : (⟨S10000x40, .f32⟩ : BufTy).Contents (Elt Ideal)) (w : (⟨S40x64, .f32⟩ : BufTy).Contents (Elt Ideal)) (b : (⟨S64, .f32⟩ : BufTy).Contents (Elt Ideal)) (r : Fin 10000) (j : Fin 64) :
    zg (F := Ideal) feat w b (ix2 r j) = Cert.Spec.proj (fun r k => feat (ix2 r k)) (fun k j => w (ix2 k j)) (fun j => b (ix1 j)) r j :=
  reluAffine_apply (m := 10000) (K := 40) (n := 64) feat w b bcast_S64_S1x64_1 bcast_S1x64_S10000x64_0_1 bcast_S_S10000x64 r j

/-- Entry (r, j) of the classifier before it is normalized. -/
theorem ctAct_apply (feat : (⟨S10000x40, .f32⟩ : BufTy).Contents (Elt Ideal)) (w : (⟨S40x10, .f32⟩ : BufTy).Contents (Elt Ideal)) (b : (⟨S10, .f32⟩ : BufTy).Contents (Elt Ideal)) (r : Fin 10000) (j : Fin 10) :
    ctAct (F := Ideal) feat w b (ix2 r j) = Cert.Spec.proj (fun r k => feat (ix2 r k)) (fun k j => w (ix2 k j)) (fun j => b (ix1 j)) r j :=
  reluAffine_apply (m := 10000) (K := 40) (n := 10) feat w b bcast_S10_S1x10_1 bcast_S1x10_S10000x10_0_1 bcast_S_S10000x10 r j

/-- Entry (r, j) of the reference's classifier output. -/
theorem ct_apply (feat : (⟨S10000x40, .f32⟩ : BufTy).Contents (Elt Ideal)) (w : (⟨S40x10, .f32⟩ : BufTy).Contents (Elt Ideal)) (b : (⟨S10, .f32⟩ : BufTy).Contents (Elt Ideal)) (r : Fin 10000) (j : Fin 10) :
    ct (F := Ideal) feat w b (ix2 r j) = Cert.Spec.rowNorm (fun r k => feat (ix2 r k)) (fun k j => w (ix2 k j)) (fun j => b (ix1 j)) r j := by
  unfold ct
  refine (rowNormalize_apply (n := 10000) (m := 10) (ctAct (F := Ideal) feat w b) reducesTo_S10000x10_S10000_d1 (by decide) h_S_
    bcast_S10000_S10000x1_0 bcast_S_S10000x1 bcast_S10000x1_S10000x10_0_1 r j).trans ?_
  unfold Cert.Spec.rowNorm
  rw [ctAct_apply feat w b r j, Finset.sum_congr rfl fun q _ => ctAct_apply feat w b r q]

/-- Entry (R, q) of the grouped head before it is normalized, recast as rows of ten: when row R of the recast array is
    the group of ten that holds column j of row r, it is the projection at row r, column q of that group. -/
theorem pwAct_apply (feat : (⟨S10000x40, .f32⟩ : BufTy).Contents (Elt Ideal)) (w : (⟨S40x20000, .f32⟩ : BufTy).Contents (Elt Ideal)) (b : (⟨S20000, .f32⟩ : BufTy).Contents (Elt Ideal)) (r : Fin 10000) (j : Fin 20000)
    (R : Fin 20000000) (hR : R.val = 2000 * r.val + j.val / 10) (q : Fin 10) :
    pwAct (F := Ideal) feat w b (ix2 R q) = Cert.Spec.proj (fun r k => feat (ix2 r k)) (fun k j => w (ix2 k j)) (fun j => b (ix1 j)) r (Cert.Spec.inGroup j q) := by
  have hg : (Cert.Spec.inGroup j q).val = 10 * (j.val / 10) + q.val := rfl
  unfold pwAct
  refine (recast_apply _ shapeCasts_S10000x20000_S20000000x10 R q r (Cert.Spec.inGroup j q) (by omega)).trans ?_
  exact reluAffine_apply (m := 10000) (K := 40) (n := 20000) feat w b bcast_S20000_S1x20000_1 bcast_S1x20000_S10000x20000_0_1
    bcast_S_S10000x20000 r (Cert.Spec.inGroup j q)

/-- Entry (r, j) of the reference's grouped head. -/
theorem pw_apply (feat : (⟨S10000x40, .f32⟩ : BufTy).Contents (Elt Ideal)) (w : (⟨S40x20000, .f32⟩ : BufTy).Contents (Elt Ideal)) (b : (⟨S20000, .f32⟩ : BufTy).Contents (Elt Ideal)) (r : Fin 10000) (j : Fin 20000) :
    pw (F := Ideal) feat w b (ix2 r j) = Cert.Spec.groupNorm (fun r k => feat (ix2 r k)) (fun k j => w (ix2 k j)) (fun j => b (ix1 j)) r j := by
  have hr := r.isLt
  have hj := j.isLt
  -- row R of the recast array is the group of ten that holds column j of row r; c is the place of j in its group
  obtain ⟨R, hR⟩ : ∃ R : Fin 20000000, R.val = 2000 * r.val + j.val / 10 := ⟨⟨2000 * r.val + j.val / 10, by omega⟩, rfl⟩
  obtain ⟨c, hc⟩ : ∃ c : Fin 10, c.val = j.val % 10 := ⟨⟨j.val % 10, by omega⟩, rfl⟩
  have hjc : Cert.Spec.inGroup j c = j := Fin.ext (by show 10 * (j.val / 10) + c.val = j.val; omega)
  unfold pw
  refine (recast_apply _ shapeCasts_S20000000x10_S10000x20000 r j R c (by omega)).trans ?_
  refine (rowNormalize_apply (n := 20000000) (m := 10) (pwAct (F := Ideal) feat w b) reducesTo_S20000000x10_S20000000_d1 (by decide) h_S_
    bcast_S20000000_S20000000x1_0 bcast_S_S20000000x1 bcast_S20000000x1_S20000000x10_0_1 R c).trans ?_
  unfold Cert.Spec.groupNorm
  rw [pwAct_apply feat w b r j R hR c, hjc, Finset.sum_congr rfl fun q _ => pwAct_apply feat w b r j R hR q]

end Cert.ReferenceIdeal.Heads

end
-- ==== Proof.RVals.lean ====
/-
  The reference's buffers after each stretch of its host operations, at the entries the comparison needs.

  Every operation writes one buffer, so a buffer outside the results of the stretches run so far still holds what the
  launch dealt: the argument arrays in particular.  The encoded rows after the autoencoder's stretch are the stage
  function of five argument arrays; each head's output after the heads' stretch is that head's function of the joined
  features and of its own weights and bias, which are argument arrays.  Read at an entry (r, j) these are the
  specification's formulas.
-/
import proofs.«421300_j19232863552045_4_alg».proof.Proof.RefRun
import proofs.«421300_j19232863552045_4_alg».proof.Proof.RKept
import proofs.«421300_j19232863552045_4_alg».proof.Proof.RConnect
import proofs.«421300_j19232863552045_4_alg».proof.Proof.RFeatx
import proofs.«421300_j19232863552045_4_alg».proof.Proof.RHeads

set_option maxRecDepth 65536

noncomputable section

namespace Cert.ReferenceIdeal.Vals

open Cert.ReferenceIdeal Cert.ReferenceIdeal.Gen Cert.ReferenceIdeal.RefRun Cert.ReferenceIdeal.Kept Idealize.ShloMosaic Idealize.ShloMosaic.TcCoe Idealize.SL.Sem Idealize.ShloMosaic.ValueIdx Idealize.ShloMosaic.StableHlo

variable (m : (ℓ : Loc nD τ sig) → Buf (Elt Ideal) ℓ) (c : Dev nD)

/-! ## Buffers that nothing has written yet hold what the launch dealt -/

theorem U0_of_not (b : Ref sig .tc) (h0 : b ∉ dests_ops0) : U0 m c (Proc.devRef .tc b) = m ((c.tc : Thread nD τ).loc b) :=
  calc U0 m c (Proc.devRef .tc b)
    _ = launchContents m c (Proc.devRef .tc b) := ops0_keeps _ b h0
    _ = m ((c.tc : Thread nD τ).loc b) := rfl

theorem U1_of_not (b : Ref sig .tc) (h0 : b ∉ dests_ops0) (h1 : b ∉ dests_ops1) : U1 m c (Proc.devRef .tc b) = m ((c.tc : Thread nD τ).loc b) :=
  calc U1 m c (Proc.devRef .tc b)
    _ = U0 m c (Proc.devRef .tc b) := ops1_keeps _ b h1
    _ = m ((c.tc : Thread nD τ).loc b) := U0_of_not m c b h0

theorem U2_of_not (b : Ref sig .tc) (h0 : b ∉ dests_ops0) (h1 : b ∉ dests_ops1) (h2 : b ∉ dests_ops2) :
    U2 m c (Proc.devRef .tc b) = m ((c.tc : Thread nD τ).loc b) :=
  calc U2 m c (Proc.devRef .tc b)
    _ = U1 m c (Proc.devRef .tc b) := ops2_keeps _ b h2
    _ = m ((c.tc : Thread nD τ).loc b) := U1_of_not m c b h0 h1

theorem U3_of_not (b : Ref sig .tc) (h0 : b ∉ dests_ops0) (h1 : b ∉ dests_ops1) (h2 : b ∉ dests_ops2) (h3 : b ∉ dests_ops3) :
    U3 m c (Proc.devRef .tc b) = m ((c.tc : Thread nD τ).loc b) :=
  calc U3 m c (Proc.devRef .tc b)
    _ = U2 m c (Proc.devRef .tc b) := ops3_keeps _ b h3
    _ = m ((c.tc : Thread nD τ).loc b) := U2_of_not m c b h0 h1 h2

theorem U4c_of_not (b : Ref sig .tc) (h0 : b ∉ dests_ops0) (h1 : b ∉ dests_ops1) (h2 : b ∉ dests_ops2) (h3 : b ∉ dests_ops3)
    (h4 : b ∉ dests_ops4) (h4c : b ∉ dests_ops4c) :
    U4c m c (Proc.devRef .tc b) = m ((c.tc : Thread nD τ).loc b) :=
  calc U4c m c (Proc.devRef .tc b)
    _ = U4 m c (Proc.devRef .tc b) := ops4c_keeps _ b h4c
    _ = U3 m c (Proc.devRef .tc b) := ops4_keeps _ b h4
    _ = m ((c.tc : Thread nD τ).loc b) := U3_of_not m c b h0 h1 h2 h3

theorem U5_of_not (b : Ref sig .tc) (h0 : b ∉ dests_ops0) (h1 : b ∉ dests_ops1) (h2 : b ∉ dests_ops2) (h3 : b ∉ dests_ops3)
    (h4 : b ∉ dests_ops4) (h4c : b ∉ dests_ops4c) (h5 : b ∉ dests_ops5) :
    U5 m c (Proc.devRef .tc b) = m ((c.tc : Thread nD τ).loc b) :=
  calc U5 m c (Proc.devRef .tc b)
    _ = U4c m c (Proc.devRef .tc b) := ops5_keeps _ b h5
    _ = m ((c.tc : Thread nD τ).loc b) := U4c_of_not m c b h0 h1 h2 h3 h4 h4c

/-! ## The autoencoder's output and the four heads, entry by entry -/

/-- Entry (r, j) of the encoded rows, from the argument arrays. -/
theorem U1_featx (r : Fin 10000) (j : Fin 20) :
    U1 m c (Proc.devRef .tc main_v17) (ix2 r j)
      = Cert.Spec.featx (fun r i => m ((c.tc : Thread nD τ).loc main_arg0) (ix2 r i)) (fun i k => m ((c.tc : Thread nD τ).loc main_arg3) (ix2 i k)) (fun k => m ((c.tc : Thread nD τ).loc main_arg4) (ix1 k))
          (fun k j => m ((c.tc : Thread nD τ).loc main_arg5) (ix2 k j)) (fun j => m ((c.tc : Thread nD τ).loc main_arg6) (ix1 j)) r j := by
  -- the stage function of the five arrays as they stand before the autoencoder's operations, which are the launch's
  have h := Connect.featx_after (F := Ideal) (U0 m c)
  rw [U0_of_not m c main_arg0 (by decide), U0_of_not m c main_arg3 (by decide), U0_of_not m c main_arg4 (by decide),
    U0_of_not m c main_arg5 (by decide), U0_of_not m c main_arg6 (by decide)] at h
  exact (congrFun h (ix2 r j)).trans (RefVal.featx_ref _ _ _ _ _ r j)

theorem U5_xdec (r : Fin 10000) (j : Fin 2000) :
    U5 m c (Proc.devRef .tc main_v184) (ix2 r j)
      = Cert.Spec.lin (fun r k => U4c m c (Proc.devRef .tc main_v156) (ix2 r k)) (fun k j => m ((c.tc : Thread nD τ).loc main_arg13) (ix2 k j)) (fun j => m ((c.tc : Thread nD τ).loc main_arg14) (ix1 j)) r j := by
  -- the decoder head of the joined features and of the weights and bias, which no earlier operation has written
  have h := Connect.xdec_after (F := Ideal) (U4c m c)
  rw [U4c_of_not m c main_arg13 (by decide) (by decide) (by decide) (by decide) (by decide) (by decide),
    U4c_of_not m c main_arg14 (by decide) (by decide) (by decide) (by decide) (by decide) (by decide)] at h
  exact (congrFun h (ix2 r j)).trans (Heads.xdec_apply _ _ _ r j)

theorem U5_pw (r : Fin 10000) (j : Fin 20000) :
    U5 m c (Proc.devRef .tc main_v180) (ix2 r j)
      = Cert.Spec.groupNorm (fun r k => U4c m c (Proc.devRef .tc main_v156) (ix2 r k)) (fun k j => m ((c.tc : Thread nD τ).loc main_arg19) (ix2 k j)) (fun j => m ((c.tc : Thread nD τ).loc main_arg20) (ix1 j)) r j := by
  have h := Connect.pw_after (F := Ideal) (U4c m c)
  rw [U4c_of_not m c main_arg19 (by decide) (by decide) (by decide) (by decide) (by decide) (by decide),
    U4c_of_not m c main_arg20 (by decide) (by decide) (by decide) (by decide) (by decide) (by decide)] at h
  exact (congrFun h (ix2 r j)).trans (Heads.pw_apply _ _ _ r j)

theorem U5_ct (r : Fin 10000) (j : Fin 10) :
    U5 m c (Proc.devRef .tc main_v167) (ix2 r j)
      = Cert.Spec.rowNorm (fun r k => U4c m c (Proc.devRef .tc main_v156) (ix2 r k)) (fun k j => m ((c.tc : Thread nD τ).loc main_arg17) (ix2 k j)) (fun j => m ((c.tc : Thread nD τ).loc main_arg18) (ix1 j)) r j := by
  have h := Connect.ct_after (F := Ideal) (U4c m c)
  rw [U4c_of_not m c main_arg17 (by decide) (by decide) (by decide) (by decide) (by decide) (by decide),
    U4c_of_not m c main_arg18 (by decide) (by decide) (by decide) (by decide) (by decide) (by decide)] at h
  exact (congrFun h (ix2 r j)).trans (Heads.ct_apply _ _ _ r j)

theorem U5_zg (r : Fin 10000) (j : Fin 64) :
    U5 m c (Proc.devRef .tc main_v189) (ix2 r j)
      = Cert.Spec.proj (fun r k => U4c m c (Proc.devRef .tc main_v156) (ix2 r k)) (fun k j => m ((c.tc : Thread nD τ).loc main_arg15) (ix2 k j)) (fun j => m ((c.tc : Thread nD τ).loc main_arg16) (ix1 j)) r j := by
  have h := Connect.zg_after (F := Ideal) (U4c m c)
  rw [U4c_of_not m c main_arg15 (by decide) (by decide) (by decide) (by decide) (by decide) (by decide),
    U4c_of_not m c main_arg16 (by decide) (by decide) (by decide) (by decide) (by decide) (by decide)] at h
  exact (congrFun h (ix2 r j)).trans (Heads.zg_apply _ _ _ r j)

end Cert.ReferenceIdeal.Vals

end
-- ==== Proof.Sim.lean ====
/-
  The two programs' host stretches, side by side.

  Between and around the two launches the kernel's program applies to its buffers the same host operations, in the same
  order, that the reference applies to its own: the index rows cut from the edge arrays, the three graph convolutions
  (degree by scatter-add, inverse square root, gathers along the edges, scatter-add of the weighted rows), the clamp and the
  exponential, the join of the two halves of the features, and at the end the gathers, logistic values and means of the loss.
  Each lemma takes one stretch of each program from contents that agree on the buffers the stretch reads, and concludes
  that the contents after it agree on a buffer it writes: both sides are the same composition of the same operations.
  Stated for any float instance; no arithmetic is opened.
-/
import proofs.«421300_j19232863552045_4_alg».proof.Proof.Gen.KernelIdeal.Launch
import proofs.«421300_j19232863552045_4_alg».proof.Proof.RefRun

set_option maxRecDepth 65536

noncomputable section

namespace Cert.Sim

open Idealize.ShloMosaic Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 4000000 in
theorem s0_main_v1 (h0 : WK (Proc.devRef .tc Cert.KernelIdeal.main_arg21) = WR (Proc.devRef .tc Cert.ReferenceIdeal.main_arg21))
    (h1 : WK (Proc.devRef .tc Cert.KernelIdeal.main_arg22) = WR (Proc.devRef .tc Cert.ReferenceIdeal.main_arg22)) :
    after Cert.KernelIdeal.Gen.hostOps0 WK (Proc.devRef .tc Cert.KernelIdeal.main_v1) = after Cert.ReferenceIdeal.RefRun.ops0 WR (Proc.devRef .tc Cert.ReferenceIdeal.main_v1) := by
  after_results_simp <;> (try simp only [h0, h1]) <;> (try rfl)

set_option maxHeartbeats 4000000 in
theorem s0_main_v3 (h0 : WK (Proc.devRef .tc Cert.KernelIdeal.main_arg21) = WR (Proc.devRef .tc Cert.ReferenceIdeal.main_arg21))
    (h1 : WK (Proc.devRef .tc Cert.KernelIdeal.main_arg22) = WR (Proc.devRef .tc Cert.ReferenceIdeal.main_arg22)) :
    after Cert.KernelIdeal.Gen.hostOps0 WK (Proc.devRef .tc Cert.KernelIdeal.main_v3) = after Cert.ReferenceIdeal.RefRun.ops0 WR (Proc.devRef .tc Cert.ReferenceIdeal.main_v3) := by
  after_results_simp <;> (try simp only [h0, h1]) <;> (try rfl)

set_option maxHeartbeats 4000000 in
theorem s0_main_v5 (h0 : WK (Proc.devRef .tc Cert.KernelIdeal.main_arg21) = WR (Proc.devRef .tc Cert.ReferenceIdeal.main_arg21))
    (h1 : WK (Proc.devRef .tc Cert.KernelIdeal.main_arg22) = WR (Proc.devRef .tc Cert.ReferenceIdeal.main_arg22)) :
    after Cert.KernelIdeal.Gen.hostOps0 WK (Proc.devRef .tc Cert.KernelIdeal.main_v5) = after Cert.ReferenceIdeal.RefRun.ops0 WR (Proc.devRef .tc Cert.ReferenceIdeal.main_v5) := by
  after_results_simp <;> (try simp only [h0, h1]) <;> (try rfl)

set_option maxHeartbeats 4000000 in
theorem s0_main_v7 (h0 : WK (Proc.devRef .tc Cert.KernelIdeal.main_arg21) = WR (Proc.devRef .tc Cert.ReferenceIdeal.main_arg21))
    (h1 : WK (Proc.devRef .tc Cert.KernelIdeal.main_arg22) = WR (Proc.devRef .tc Cert.ReferenceIdeal.main_arg22)) :
    after Cert.KernelIdeal.Gen.hostOps0 WK (Proc.devRef .tc Cert.KernelIdeal.main_v7) = after Cert.ReferenceIdeal.RefRun.ops0 WR (Proc.devRef .tc Cert.ReferenceIdeal.main_v7) := by
  after_results_simp <;> (try simp only [h0, h1]) <;> (try rfl)

set_option maxHeartbeats 4000000 in
theorem s2_main_v54 (h0 : WK (Proc.devRef .tc Cert.KernelIdeal.main_v10) = WR (Proc.devRef .tc Cert.ReferenceIdeal.main_v17))
    (h1 : WK (Proc.devRef .tc Cert.KernelIdeal.main_v1) = WR (Proc.devRef .tc Cert.ReferenceIdeal.main_v1))
    (h2 : WK (Proc.devRef .tc Cert.KernelIdeal.main_v3) = WR (Proc.devRef .tc Cert.ReferenceIdeal.main_v3))
    (h3 : WK (Proc.devRef .tc Cert.KernelIdeal.main_arg1) = WR (Proc.devRef .tc Cert.ReferenceIdeal.main_arg1))
    (h4 : WK (Proc.devRef .tc Cert.KernelIdeal.main_arg7) = WR (Proc.devRef .tc Cert.ReferenceIdeal.main_arg7))
    (h5 : WK (Proc.devRef .tc Cert.KernelIdeal.main_arg8) = WR (Proc.devRef .tc Cert.ReferenceIdeal.main_arg8)) :
    after Cert.KernelIdeal.Gen.hostOps1 WK (Proc.devRef .tc Cert.KernelIdeal.main_v54) = after Cert.ReferenceIdeal.RefRun.ops2 WR (Proc.devRef .tc Cert.ReferenceIdeal.main_v61) := by
  after_results_simp <;> (try simp only [h0, h1, h2, h3, h4, h5]) <;> (try rfl)

set_option maxHeartbeats 4000000 in
theorem s3_main_v55 (h0 : WK (Proc.devRef .tc Cert.KernelIdeal.main_v54) = WR (Proc.devRef .tc Cert.ReferenceIdeal.main_v61)) :
    after Cert.KernelIdeal.Gen.hostOps1_1 WK (Proc.devRef .tc Cert.KernelIdeal.main_v55) = after Cert.ReferenceIdeal.RefRun.ops3 WR (Proc.devRef .tc Cert.ReferenceIdeal.main_v62) := by
  after_results_simp <;> (try simp only [h0]) <;> (try rfl)

set_option maxHeartbeats 4000000 in
theorem s4_main_v148 (h0 : WK (Proc.devRef .tc Cert.KernelIdeal.main_v55) = WR (Proc.devRef .tc Cert.ReferenceIdeal.main_v62))
    (h1 : WK (Proc.devRef .tc Cert.KernelIdeal.main_v10) = WR (Proc.devRef .tc Cert.ReferenceIdeal.main_v17))
    (h2 : WK (Proc.devRef .tc Cert.KernelIdeal.main_v1) = WR (Proc.devRef .tc Cert.ReferenceIdeal.main_v1))
    (h3 : WK (Proc.devRef .tc Cert.KernelIdeal.main_v3) = WR (Proc.devRef .tc Cert.ReferenceIdeal.main_v3))
    (h4 : WK (Proc.devRef .tc Cert.KernelIdeal.main_arg1) = WR (Proc.devRef .tc Cert.ReferenceIdeal.main_arg1))
    (h5 : WK (Proc.devRef .tc Cert.KernelIdeal.main_arg2) = WR (Proc.devRef .tc Cert.ReferenceIdeal.main_arg2))
    (h6 : WK (Proc.devRef .tc Cert.KernelIdeal.main_arg9) = WR (Proc.devRef .tc Cert.ReferenceIdeal.main_arg9))
    (h7 : WK (Proc.devRef .tc Cert.KernelIdeal.main_arg10) = WR (Proc.devRef .tc Cert.ReferenceIdeal.main_arg10))
    (h8 : WK (Proc.devRef .tc Cert.KernelIdeal.main_arg11) = WR (Proc.devRef .tc Cert.ReferenceIdeal.main_arg11))
    (h9 : WK (Proc.devRef .tc Cert.KernelIdeal.main_arg12) = WR (Proc.devRef .tc Cert.ReferenceIdeal.main_arg12)) :
    after Cert.KernelIdeal.Gen.hostOps1_2 WK (Proc.devRef .tc Cert.KernelIdeal.main_v148) = after (Cert.ReferenceIdeal.RefRun.ops4 ++ Cert.ReferenceIdeal.RefRun.ops4c) WR (Proc.devRef .tc Cert.ReferenceIdeal.main_v155) := by
  after_results_simp <;> (try simp only [h0, h1, h2, h3, h4, h5, h6, h7, h8, h9]) <;> (try rfl)

set_option maxHeartbeats 4000000 in
theorem s4_main_v10 (h0 : WK (Proc.devRef .tc Cert.KernelIdeal.main_v55) = WR (Proc.devRef .tc Cert.ReferenceIdeal.main_v62))
    (h1 : WK (Proc.devRef .tc Cert.KernelIdeal.main_v10) = WR (Proc.devRef .tc Cert.ReferenceIdeal.main_v17))
    (h2 : WK (Proc.devRef .tc Cert.KernelIdeal.main_v1) = WR (Proc.devRef .tc Cert.ReferenceIdeal.main_v1))
    (h3 : WK (Proc.devRef .tc Cert.KernelIdeal.main_v3) = WR (Proc.devRef .tc Cert.ReferenceIdeal.main_v3))
    (h4 : WK (Proc.devRef .tc Cert.KernelIdeal.main_arg1) = WR (Proc.devRef .tc Cert.ReferenceIdeal.main_arg1))
    (h5 : WK (Proc.devRef .tc Cert.KernelIdeal.main_arg2) = WR (Proc.devRef .tc Cert.ReferenceIdeal.main_arg2))
    (h6 : WK (Proc.devRef .tc Cert.KernelIdeal.main_arg9) = WR (Proc.devRef .tc Cert.ReferenceIdeal.main_arg9))
    (h7 : WK (Proc.devRef .tc Cert.KernelIdeal.main_arg10) = WR (Proc.devRef .tc Cert.ReferenceIdeal.main_arg10))
    (h8 : WK (Proc.devRef .tc Cert.KernelIdeal.main_arg11) = WR (Proc.devRef .tc Cert.ReferenceIdeal.main_arg11))
    (h9 : WK (Proc.devRef .tc Cert.KernelIdeal.main_arg12) = WR (Proc.devRef .tc Cert.ReferenceIdeal.main_arg12)) :
    after Cert.KernelIdeal.Gen.hostOps1_2 WK (Proc.devRef .tc Cert.KernelIdeal.main_v10) = after (Cert.ReferenceIdeal.RefRun.ops4 ++ Cert.ReferenceIdeal.RefRun.ops4c) WR (Proc.devRef .tc Cert.ReferenceIdeal.main_v17) := by
  after_results_simp <;> (try simp only [h0, h1, h2, h3, h4, h5, h6, h7, h8, h9]) <;> (try rfl)

set_option maxHeartbeats 4000000 in
theorem s4_main_v145 (h0 : WK (Proc.devRef .tc Cert.KernelIdeal.main_v55) = WR (Proc.devRef .tc Cert.ReferenceIdeal.main_v62))
    (h1 : WK (Proc.devRef .tc Cert.KernelIdeal.main_v10) = WR (Proc.devRef .tc Cert.ReferenceIdeal.main_v17))
    (h2 : WK (Proc.devRef .tc Cert.KernelIdeal.main_v1) = WR (Proc.devRef .tc Cert.ReferenceIdeal.main_v1))
    (h3 : WK (Proc.devRef .tc Cert.KernelIdeal.main_v3) = WR (Proc.devRef .tc Cert.ReferenceIdeal.main_v3))
    (h4 : WK (Proc.devRef .tc Cert.KernelIdeal.main_arg1) = WR (Proc.devRef .tc Cert.ReferenceIdeal.main_arg1))
    (h5 : WK (Proc.devRef .tc Cert.KernelIdeal.main_arg2) = WR (Proc.devRef .tc Cert.ReferenceIdeal.main_arg2))
    (h6 : WK (Proc.devRef .tc Cert.KernelIdeal.main_arg9) = WR (Proc.devRef .tc Cert.ReferenceIdeal.main_arg9))
    (h7 : WK (Proc.devRef .tc Cert.KernelIdeal.main_arg10) = WR (Proc.devRef .tc Cert.ReferenceIdeal.main_arg10))
    (h8 : WK (Proc.devRef .tc Cert.KernelIdeal.main_arg11) = WR (Proc.devRef .tc Cert.ReferenceIdeal.main_arg11))
    (h9 : WK (Proc.devRef .tc Cert.KernelIdeal.main_arg12) = WR (Proc.devRef .tc Cert.ReferenceIdeal.main_arg12)) :
    after Cert.KernelIdeal.Gen.hostOps1_2 WK (Proc.devRef .tc Cert.KernelIdeal.main_v145) = after (Cert.ReferenceIdeal.RefRun.ops4 ++ Cert.ReferenceIdeal.RefRun.ops4c) WR (Proc.devRef .tc Cert.ReferenceIdeal.main_v152) := by
  after_results_simp <;> (try simp only [h0, h1, h2, h3, h4, h5, h6, h7, h8, h9]) <;> (try rfl)

set_option maxHeartbeats 4000000 in
theorem s4_main_v99 (h0 : WK (Proc.devRef .tc Cert.KernelIdeal.main_v55) = WR (Proc.devRef .tc Cert.ReferenceIdeal.main_v62))
    (h1 : WK (Proc.devRef .tc Cert.KernelIdeal.main_v10) = WR (Proc.devRef .tc Cert.ReferenceIdeal.main_v17))
    (h2 : WK (Proc.devRef .tc Cert.KernelIdeal.main_v1) = WR (Proc.devRef .tc Cert.ReferenceIdeal.main_v1))
    (h3 : WK (Proc.devRef .tc Cert.KernelIdeal.main_v3) = WR (Proc.devRef .tc Cert.ReferenceIdeal.main_v3))
    (h4 : WK (Proc.devRef .tc Cert.KernelIdeal.main_arg1) = WR (Proc.devRef .tc Cert.ReferenceIdeal.main_arg1))
    (h5 : WK (Proc.devRef .tc Cert.KernelIdeal.main_arg2) = WR (Proc.devRef .tc Cert.ReferenceIdeal.main_arg2))
    (h6 : WK (Proc.devRef .tc Cert.KernelIdeal.main_arg9) = WR (Proc.devRef .tc Cert.ReferenceIdeal.main_arg9))
    (h7 : WK (Proc.devRef .tc Cert.KernelIdeal.main_arg10) = WR (Proc.devRef .tc Cert.ReferenceIdeal.main_arg10))
    (h8 : WK (Proc.devRef .tc Cert.KernelIdeal.main_arg11) = WR (Proc.devRef .tc Cert.ReferenceIdeal.main_arg11))
    (h9 : WK (Proc.devRef .tc Cert.KernelIdeal.main_arg12) = WR (Proc.devRef .tc Cert.ReferenceIdeal.main_arg12)) :
    after Cert.KernelIdeal.Gen.hostOps1_2 WK (Proc.devRef .tc Cert.KernelIdeal.main_v99) = after (Cert.ReferenceIdeal.RefRun.ops4 ++ Cert.ReferenceIdeal.RefRun.ops4c) WR (Proc.devRef .tc Cert.ReferenceIdeal.main_v106) := by
  after_results_simp <;> (try simp only [h0, h1, h2, h3, h4, h5, h6, h7, h8, h9]) <;> (try rfl)

set_option maxHeartbeats 4000000 in
theorem s6_main_v222 (h0 : WK (Proc.devRef .tc Cert.KernelIdeal.main_v154_3) = WR (Proc.devRef .tc Cert.ReferenceIdeal.main_v189))
    (h1 : WK (Proc.devRef .tc Cert.KernelIdeal.main_v145) = WR (Proc.devRef .tc Cert.ReferenceIdeal.main_v152))
    (h2 : WK (Proc.devRef .tc Cert.KernelIdeal.main_v99) = WR (Proc.devRef .tc Cert.ReferenceIdeal.main_v106))
    (h3 : WK (Proc.devRef .tc Cert.KernelIdeal.main_v1) = WR (Proc.devRef .tc Cert.ReferenceIdeal.main_v1))
    (h4 : WK (Proc.devRef .tc Cert.KernelIdeal.main_v3) = WR (Proc.devRef .tc Cert.ReferenceIdeal.main_v3))
    (h5 : WK (Proc.devRef .tc Cert.KernelIdeal.main_v5) = WR (Proc.devRef .tc Cert.ReferenceIdeal.main_v5))
    (h6 : WK (Proc.devRef .tc Cert.KernelIdeal.main_v7) = WR (Proc.devRef .tc Cert.ReferenceIdeal.main_v7))
    (h7 : WK (Proc.devRef .tc Cert.KernelIdeal.main_arg1) = WR (Proc.devRef .tc Cert.ReferenceIdeal.main_arg1)) :
    after Cert.KernelIdeal.Gen.hostOps2 WK (Proc.devRef .tc Cert.KernelIdeal.main_v222) = after Cert.ReferenceIdeal.RefRun.ops6 WR (Proc.devRef .tc Cert.ReferenceIdeal.main_v257) := by
  after_results_simp <;> (try simp only [h0, h1, h2, h3, h4, h5, h6, h7]) <;> (try rfl)

end Cert.Sim

end
-- ==== Proof.SimCat.lean ====
/-
  The join of the two halves of the features, side by side.

  Both programs end the stretch that computes the sampled code by laying the encoded rows and the sampled code side by
  side as 40 features per row.  From contents that agree on what the stretch reads, the two joined arrays agree: the
  halves agree (the stretches' lemmas), and the join is the same operation of them.
-/
import proofs.«421300_j19232863552045_4_alg».proof.Proof.Sim
import Idealize.ShloMosaic.Lib.Pipeline.Frame

set_option maxRecDepth 65536

noncomputable section

namespace Cert.Sim

open Idealize.ShloMosaic Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

/-! ## The kernel program's stretch, cut before the join -/

section Kernel

open Cert.KernelIdeal Cert.KernelIdeal.Gen

/-- The last five operations of the kernel program's stretch: the join, then four biases recast as rows. -/
abbrev kTail : List (HloOp τ sig (Elt F)) :=
  ( StableHlo.binary main_v10 main_v148 main_v149 ((fun a b => concatenate S10000x40 1 [⟨S10000x20, a⟩, ⟨S10000x20, b⟩] concatenates_S10000x20_S10000x20_S10000x40_d1) : (⟨S10000x20, .f32⟩ : BufTy).Contents (Elt F) → (⟨S10000x20, .f32⟩ : BufTy).Contents (Elt F) → (⟨S10000x40, .f32⟩ : BufTy).Contents (Elt F))
  :: StableHlo.reshape main_arg14 main_v150 rfl shapeCasts_S2000_S1x2000
  :: StableHlo.reshape main_arg20 main_v151 rfl shapeCasts_S20000_S1x20000
  :: StableHlo.reshape main_arg18 main_v152 rfl shapeCasts_S10_S1x10
  :: StableHlo.reshape main_arg16 main_v153 rfl shapeCasts_S64_S1x64
  :: [] )

/-- The first 112 operations of the kernel program's stretch: everything before the join. -/
def kHead : List (HloOp τ sig (Elt F)) := hostOps1_2.take 112

/-- The stretch is its first 112 operations followed by the last five. -/
theorem kSplit : (hostOps1_2 : List (HloOp τ sig (Elt F))) = kHead ++ kTail := rfl

variable (V : Valuation τ sig (Elt F))

/-- The last five operations do not write the encoded rows. -/
theorem kTail_v10 : after kTail V (Proc.devRef .tc main_v10) = V (Proc.devRef .tc main_v10) := by
  after_results

/-- The last five operations do not write the sampled code. -/
theorem kTail_v148 : after kTail V (Proc.devRef .tc main_v148) = V (Proc.devRef .tc main_v148) := by
  after_results

/-- After the last five operations the joined array is the join of the two halves as they stood before them: the
    four recasts write other buffers. -/
theorem kTail_v149 : after kTail V (Proc.devRef .tc main_v149)
      = concatenate S10000x40 1 [⟨S10000x20, V (Proc.devRef .tc main_v10)⟩, ⟨S10000x20, V (Proc.devRef .tc main_v148)⟩] concatenates_S10000x20_S10000x20_S10000x40_d1 := by
  after_results

end Kernel

/-! ## The reference's stretch: the join is its last operation -/

section Reference

open Cert.ReferenceIdeal Cert.ReferenceIdeal.Gen Cert.ReferenceIdeal.RefRun

variable (V : Valuation τ sig (Elt F))

/-- The join does not write the encoded rows. -/
theorem rTail_v17 : after ops4c V (Proc.devRef .tc main_v17) = V (Proc.devRef .tc main_v17) := by
  after_results

/-- The join does not write the sampled code. -/
theorem rTail_v155 : after ops4c V (Proc.devRef .tc main_v155) = V (Proc.devRef .tc main_v155) := by
  after_results

/-- After the join the joined array is the join of the two halves as they stood before it. -/
theorem rTail_v156 : after ops4c V (Proc.devRef .tc main_v156)
      = concatenate S10000x40 1 [⟨S10000x20, V (Proc.devRef .tc main_v17)⟩, ⟨S10000x20, V (Proc.devRef .tc main_v155)⟩] concatenates_S10000x20_S10000x20_S10000x40_d1 := by
  after_results

end Reference

/-! ## The join -/

theorem s4_main_v149 (h0 : WK (Proc.devRef .tc Cert.KernelIdeal.main_v55) = WR (Proc.devRef .tc Cert.ReferenceIdeal.main_v62))
    (h1 : WK (Proc.devRef .tc Cert.KernelIdeal.main_v10) = WR (Proc.devRef .tc Cert.ReferenceIdeal.main_v17))
    (h2 : WK (Proc.devRef .tc Cert.KernelIdeal.main_v1) = WR (Proc.devRef .tc Cert.ReferenceIdeal.main_v1))
    (h3 : WK (Proc.devRef .tc Cert.KernelIdeal.main_v3) = WR (Proc.devRef .tc Cert.ReferenceIdeal.main_v3))
    (h4 : WK (Proc.devRef .tc Cert.KernelIdeal.main_arg1) = WR (Proc.devRef .tc Cert.ReferenceIdeal.main_arg1))
    (h5 : WK (Proc.devRef .tc Cert.KernelIdeal.main_arg2) = WR (Proc.devRef .tc Cert.ReferenceIdeal.main_arg2))
    (h6 : WK (Proc.devRef .tc Cert.KernelIdeal.main_arg9) = WR (Proc.devRef .tc Cert.ReferenceIdeal.main_arg9))
    (h7 : WK (Proc.devRef .tc Cert.KernelIdeal.main_arg10) = WR (Proc.devRef .tc Cert.ReferenceIdeal.main_arg10))
    (h8 : WK (Proc.devRef .tc Cert.KernelIdeal.main_arg11) = WR (Proc.devRef .tc Cert.ReferenceIdeal.main_arg11))
    (h9 : WK (Proc.devRef .tc Cert.KernelIdeal.main_arg12) = WR (Proc.devRef .tc Cert.ReferenceIdeal.main_arg12)) :
    after Cert.KernelIdeal.Gen.hostOps1_2 WK (Proc.devRef .tc Cert.KernelIdeal.main_v149) = after (Cert.ReferenceIdeal.RefRun.ops4 ++ Cert.ReferenceIdeal.RefRun.ops4c) WR (Proc.devRef .tc Cert.ReferenceIdeal.main_v156) := by
  -- The halves agree after the whole stretches.
  have e10 := s4_main_v10 WK WR h0 h1 h2 h3 h4 h5 h6 h7 h8 h9
  have e148 := s4_main_v148 WK WR h0 h1 h2 h3 h4 h5 h6 h7 h8 h9
  -- Cut both stretches before the join; name the contents just before it on each side.
  rw [kSplit, StableHlo.after_append, StableHlo.after_append] at e10 e148
  rw [kSplit, StableHlo.after_append, StableHlo.after_append]
  generalize after kHead WK = VK at e10 e148 ⊢
  generalize after Cert.ReferenceIdeal.RefRun.ops4 WR = VR at e10 e148 ⊢
  -- The tails leave the halves as they were, so the halves agree just before the join.
  rw [kTail_v10, rTail_v17] at e10
  rw [kTail_v148, rTail_v155] at e148
  -- Both joined arrays are the join of those halves.
  rw [kTail_v149, rTail_v156, e10, e148]

end Cert.Sim

end
-- ==== Proof.Bridge.lean ====
/-
  The two runs, boundary by boundary.

  The kernel's program is a fold of host stretches and two launches; the reference is a fold of host stretches.  Cut at
  the same places, the two folds agree on every buffer that is read later: the index rows (same slices of the same
  arrays), the encoded rows (both are the specification's entries of the same arguments), everything the shared host
  stretches compute from them, the four heads (again the specification's entries, now of equal joined features), and the
  loss.  The arguments agree by hypothesis and no stretch writes them.
-/
import proofs.«421300_j19232863552045_4_alg».proof.Proof.KVals
import proofs.«421300_j19232863552045_4_alg».proof.Proof.RVals
import proofs.«421300_j19232863552045_4_alg».proof.Proof.Sim
import proofs.«421300_j19232863552045_4_alg».proof.Proof.SimCat
import Idealize.ShloMosaic.Lib.Pipeline.Frame

set_option maxRecDepth 65536

noncomputable section

namespace Cert.Bridge

open Idealize.ShloMosaic Idealize.ShloMosaic.TcCoe Idealize.SL.Sem Idealize.ShloMosaic.ValueIdx Idealize.ShloMosaic.StableHlo
open Cert.KernelIdeal.Gen (W0 W1 W2 W3 W4 W5 W6 W7 W2_of_ne W6_of_ne)
open Cert.ReferenceIdeal.RefRun (U0 U1 U2 U3 U4 U4c U5 U6 ops4 ops4c)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The two memories hold the same argument arrays on core `c`. -/
@[reducible] def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)

variable {m m' c}

/-! ## The index rows -/

theorem idx1_W1 (h : Agree m m' c) : W1 m ρ c (Proc.devRef .tc Cert.KernelIdeal.main_v1) = U0 m' c (Proc.devRef .tc Cert.ReferenceIdeal.main_v1) :=
  Cert.Sim.s0_main_v1 (W0 m ρ c) (launchContents m' c) h.2.2.2.2.2.2.2.2.2.2.2.2.2.2.2.2.2.2.2.2.2.1.symm h.2.2.2.2.2.2.2.2.2.2.2.2.2.2.2.2.2.2.2.2.2.2.symm
theorem idx3_W1 (h : Agree m m' c) : W1 m ρ c (Proc.devRef .tc Cert.KernelIdeal.main_v3) = U0 m' c (Proc.devRef .tc Cert.ReferenceIdeal.main_v3) :=
  Cert.Sim.s0_main_v3 (W0 m ρ c) (launchContents m' c) h.2.2.2.2.2.2.2.2.2.2.2.2.2.2.2.2.2.2.2.2.2.1.symm h.2.2.2.2.2.2.2.2.2.2.2.2.2.2.2.2.2.2.2.2.2.2.symm
theorem idx5_W1 (h : Agree m m' c) : W1 m ρ c (Proc.devRef .tc Cert.KernelIdeal.main_v5) = U0 m' c (Proc.devRef .tc Cert.ReferenceIdeal.main_v5) :=
  Cert.Sim.s0_main_v5 (W0 m ρ c) (launchContents m' c) h.2.2.2.2.2.2.2.2.2.2.2.2.2.2.2.2.2.2.2.2.2.1.symm h.2.2.2.2.2.2.2.2.2.2.2.2.2.2.2.2.2.2.2.2.2.2.symm
theorem idx7_W1 (h : Agree m m' c) : W1 m ρ c (Proc.devRef .tc Cert.KernelIdeal.main_v7) = U0 m' c (Proc.devRef .tc Cert.ReferenceIdeal.main_v7) :=
  Cert.Sim.s0_main_v7 (W0 m ρ c) (launchContents m' c) h.2.2.2.2.2.2.2.2.2.2.2.2.2.2.2.2.2.2.2.2.2.1.symm h.2.2.2.2.2.2.2.2.2.2.2.2.2.2.2.2.2.2.2.2.2.2.symm

/-! ## The index rows are carried unchanged to every later boundary -/

theorem k1_W2 : W2 m ρ c (Proc.devRef .tc Cert.KernelIdeal.main_v1) = W1 m ρ c (Proc.devRef .tc Cert.KernelIdeal.main_v1) := W2_of_ne m ρ c Cert.KernelIdeal.main_v1 (by decide)
theorem k1_W3 : W3 m ρ c (Proc.devRef .tc Cert.KernelIdeal.main_v1) = W1 m ρ c (Proc.devRef .tc Cert.KernelIdeal.main_v1) := (Cert.KernelIdeal.Kept.hostOps1_keeps _ Cert.KernelIdeal.main_v1 (by decide)).trans (k1_W2 ρ)
theorem k1_W4 : W4 m ρ c (Proc.devRef .tc Cert.KernelIdeal.main_v1) = W1 m ρ c (Proc.devRef .tc Cert.KernelIdeal.main_v1) := (Cert.KernelIdeal.Kept.hostOps1_1_keeps _ Cert.KernelIdeal.main_v1 (by decide)).trans (k1_W3 ρ)
theorem k1_W5 : W5 m ρ c (Proc.devRef .tc Cert.KernelIdeal.main_v1) = W1 m ρ c (Proc.devRef .tc Cert.KernelIdeal.main_v1) := (Cert.KernelIdeal.Kept.hostOps1_2_keeps _ Cert.KernelIdeal.main_v1 (by decide)).trans (k1_W4 ρ)
theorem k1_W6 : W6 m ρ c (Proc.devRef .tc Cert.KernelIdeal.main_v1) = W1 m ρ c (Proc.devRef .tc Cert.KernelIdeal.main_v1) := (W6_of_ne m ρ c Cert.KernelIdeal.main_v1 (by decide)).trans (k1_W5 ρ)
theorem r1_U1 : U1 m' c (Proc.devRef .tc Cert.ReferenceIdeal.main_v1) = U0 m' c (Proc.devRef .tc Cert.ReferenceIdeal.main_v1) := Cert.ReferenceIdeal.Kept.ops1_keeps _ Cert.ReferenceIdeal.main_v1 (by decide)
theorem r1_U2 : U2 m' c (Proc.devRef .tc Cert.ReferenceIdeal.main_v1) = U0 m' c (Proc.devRef .tc Cert.ReferenceIdeal.main_v1) := (Cert.ReferenceIdeal.Kept.ops2_keeps _ Cert.ReferenceIdeal.main_v1 (by decide)).trans r1_U1
theorem r1_U3 : U3 m' c (Proc.devRef .tc Cert.ReferenceIdeal.main_v1) = U0 m' c (Proc.devRef .tc Cert.ReferenceIdeal.main_v1) := (Cert.ReferenceIdeal.Kept.ops3_keeps _ Cert.ReferenceIdeal.main_v1 (by decide)).trans r1_U2
theorem r1_U4 : U4 m' c (Proc.devRef .tc Cert.ReferenceIdeal.main_v1) = U0 m' c (Proc.devRef .tc Cert.ReferenceIdeal.main_v1) := (Cert.ReferenceIdeal.Kept.ops4_keeps _ Cert.ReferenceIdeal.main_v1 (by decide)).trans r1_U3
theorem r1_U4c : U4c m' c (Proc.devRef .tc Cert.ReferenceIdeal.main_v1) = U0 m' c (Proc.devRef .tc Cert.ReferenceIdeal.main_v1) := (Cert.ReferenceIdeal.Kept.ops4c_keeps _ Cert.ReferenceIdeal.main_v1 (by decide)).trans r1_U4
theorem r1_U5 : U5 m' c (Proc.devRef .tc Cert.ReferenceIdeal.main_v1) = U0 m' c (Proc.devRef .tc Cert.ReferenceIdeal.main_v1) := (Cert.ReferenceIdeal.Kept.ops5_keeps _ Cert.ReferenceIdeal.main_v1 (by decide)).trans r1_U4c

theorem k3_W2 : W2 m ρ c (Proc.devRef .tc Cert.KernelIdeal.main_v3) = W1 m ρ c (Proc.devRef .tc Cert.KernelIdeal.main_v3) := W2_of_ne m ρ c Cert.KernelIdeal.main_v3 (by decide)
theorem k3_W3 : W3 m ρ c (Proc.devRef .tc Cert.KernelIdeal.main_v3) = W1 m ρ c (Proc.devRef .tc Cert.KernelIdeal.main_v3) := (Cert.KernelIdeal.Kept.hostOps1_keeps _ Cert.KernelIdeal.main_v3 (by decide)).trans (k3_W2 ρ)
theorem k3_W4 : W4 m ρ c (Proc.devRef .tc Cert.KernelIdeal.main_v3) = W1 m ρ c (Proc.devRef .tc Cert.KernelIdeal.main_v3) := (Cert.KernelIdeal.Kept.hostOps1_1_keeps _ Cert.KernelIdeal.main_v3 (by decide)).trans (k3_W3 ρ)
theorem k3_W5 : W5 m ρ c (Proc.devRef .tc Cert.KernelIdeal.main_v3) = W1 m ρ c (Proc.devRef .tc Cert.KernelIdeal.main_v3) := (Cert.KernelIdeal.Kept.hostOps1_2_keeps _ Cert.KernelIdeal.main_v3 (by decide)).trans (k3_W4 ρ)
theorem k3_W6 : W6 m ρ c (Proc.devRef .tc Cert.KernelIdeal.main_v3) = W1 m ρ c (Proc.devRef .tc Cert.KernelIdeal.main_v3) := (W6_of_ne m ρ c Cert.KernelIdeal.main_v3 (by decide)).trans (k3_W5 ρ)
theorem r3_U1 : U1 m' c (Proc.devRef .tc Cert.ReferenceIdeal.main_v3) = U0 m' c (Proc.devRef .tc Cert.ReferenceIdeal.main_v3) := Cert.ReferenceIdeal.Kept.ops1_keeps _ Cert.ReferenceIdeal.main_v3 (by decide)
theorem r3_U2 : U2 m' c (Proc.devRef .tc Cert.ReferenceIdeal.main_v3) = U0 m' c (Proc.devRef .tc Cert.ReferenceIdeal.main_v3) := (Cert.ReferenceIdeal.Kept.ops2_keeps _ Cert.ReferenceIdeal.main_v3 (by decide)).trans r3_U1
theorem r3_U3 : U3 m' c (Proc.devRef .tc Cert.ReferenceIdeal.main_v3) = U0 m' c (Proc.devRef .tc Cert.ReferenceIdeal.main_v3) := (Cert.ReferenceIdeal.Kept.ops3_keeps _ Cert.ReferenceIdeal.main_v3 (by decide)).trans r3_U2
theorem r3_U4 : U4 m' c (Proc.devRef .tc Cert.ReferenceIdeal.main_v3) = U0 m' c (Proc.devRef .tc Cert.ReferenceIdeal.main_v3) := (Cert.ReferenceIdeal.Kept.ops4_keeps _ Cert.ReferenceIdeal.main_v3 (by decide)).trans r3_U3
theorem r3_U4c : U4c m' c (Proc.devRef .tc Cert.ReferenceIdeal.main_v3) = U0 m' c (Proc.devRef .tc Cert.ReferenceIdeal.main_v3) := (Cert.ReferenceIdeal.Kept.ops4c_keeps _ Cert.ReferenceIdeal.main_v3 (by decide)).trans r3_U4
theorem r3_U5 : U5 m' c (Proc.devRef .tc Cert.ReferenceIdeal.main_v3) = U0 m' c (Proc.devRef .tc Cert.ReferenceIdeal.main_v3) := (Cert.ReferenceIdeal.Kept.ops5_keeps _ Cert.ReferenceIdeal.main_v3 (by decide)).trans r3_U4c

theorem k5_W2 : W2 m ρ c (Proc.devRef .tc Cert.KernelIdeal.main_v5) = W1 m ρ c (Proc.devRef .tc Cert.KernelIdeal.main_v5) := W2_of_ne m ρ c Cert.KernelIdeal.main_v5 (by decide)
theorem k5_W3 : W3 m ρ c (Proc.devRef .tc Cert.KernelIdeal.main_v5) = W1 m ρ c (Proc.devRef .tc Cert.KernelIdeal.main_v5) := (Cert.KernelIdeal.Kept.hostOps1_keeps _ Cert.KernelIdeal.main_v5 (by decide)).trans (k5_W2 ρ)
theorem k5_W4 : W4 m ρ c (Proc.devRef .tc Cert.KernelIdeal.main_v5) = W1 m ρ c (Proc.devRef .tc Cert.KernelIdeal.main_v5) := (Cert.KernelIdeal.Kept.hostOps1_1_keeps _ Cert.KernelIdeal.main_v5 (by decide)).trans (k5_W3 ρ)
theorem k5_W5 : W5 m ρ c (Proc.devRef .tc Cert.KernelIdeal.main_v5) = W1 m ρ c (Proc.devRef .tc Cert.KernelIdeal.main_v5) := (Cert.KernelIdeal.Kept.hostOps1_2_keeps _ Cert.KernelIdeal.main_v5 (by decide)).trans (k5_W4 ρ)
theorem k5_W6 : W6 m ρ c (Proc.devRef .tc Cert.KernelIdeal.main_v5) = W1 m ρ c (Proc.devRef .tc Cert.KernelIdeal.main_v5) := (W6_of_ne m ρ c Cert.KernelIdeal.main_v5 (by decide)).trans (k5_W5 ρ)
theorem r5_U1 : U1 m' c (Proc.devRef .tc Cert.ReferenceIdeal.main_v5) = U0 m' c (Proc.devRef .tc Cert.ReferenceIdeal.main_v5) := Cert.ReferenceIdeal.Kept.ops1_keeps _ Cert.ReferenceIdeal.main_v5 (by decide)
theorem r5_U2 : U2 m' c (Proc.devRef .tc Cert.ReferenceIdeal.main_v5) = U0 m' c (Proc.devRef .tc Cert.ReferenceIdeal.main_v5) := (Cert.ReferenceIdeal.Kept.ops2_keeps _ Cert.ReferenceIdeal.main_v5 (by decide)).trans r5_U1
theorem r5_U3 : U3 m' c (Proc.devRef .tc Cert.ReferenceIdeal.main_v5) = U0 m' c (Proc.devRef .tc Cert.ReferenceIdeal.main_v5) := (Cert.ReferenceIdeal.Kept.ops3_keeps _ Cert.ReferenceIdeal.main_v5 (by decide)).trans r5_U2
theorem r5_U4 : U4 m' c (Proc.devRef .tc Cert.ReferenceIdeal.main_v5) = U0 m' c (Proc.devRef .tc Cert.ReferenceIdeal.main_v5) := (Cert.ReferenceIdeal.Kept.ops4_keeps _ Cert.ReferenceIdeal.main_v5 (by decide)).trans r5_U3
theorem r5_U4c : U4c m' c (Proc.devRef .tc Cert.ReferenceIdeal.main_v5) = U0 m' c (Proc.devRef .tc Cert.ReferenceIdeal.main_v5) := (Cert.ReferenceIdeal.Kept.ops4c_keeps _ Cert.ReferenceIdeal.main_v5 (by decide)).trans r5_U4
theorem r5_U5 : U5 m' c (Proc.devRef .tc Cert.ReferenceIdeal.main_v5) = U0 m' c (Proc.devRef .tc Cert.ReferenceIdeal.main_v5) := (Cert.ReferenceIdeal.Kept.ops5_keeps _ Cert.ReferenceIdeal.main_v5 (by decide)).trans r5_U4c

theorem k7_W2 : W2 m ρ c (Proc.devRef .tc Cert.KernelIdeal.main_v7) = W1 m ρ c (Proc.devRef .tc Cert.KernelIdeal.main_v7) := W2_of_ne m ρ c Cert.KernelIdeal.main_v7 (by decide)
theorem k7_W3 : W3 m ρ c (Proc.devRef .tc Cert.KernelIdeal.main_v7) = W1 m ρ c (Proc.devRef .tc Cert.KernelIdeal.main_v7) := (Cert.KernelIdeal.Kept.hostOps1_keeps _ Cert.KernelIdeal.main_v7 (by decide)).trans (k7_W2 ρ)
theorem k7_W4 : W4 m ρ c (Proc.devRef .tc Cert.KernelIdeal.main_v7) = W1 m ρ c (Proc.devRef .tc Cert.KernelIdeal.main_v7) := (Cert.KernelIdeal.Kept.hostOps1_1_keeps _ Cert.KernelIdeal.main_v7 (by decide)).trans (k7_W3 ρ)
theorem k7_W5 : W5 m ρ c (Proc.devRef .tc Cert.KernelIdeal.main_v7) = W1 m ρ c (Proc.devRef .tc Cert.KernelIdeal.main_v7) := (Cert.KernelIdeal.Kept.hostOps1_2_keeps _ Cert.KernelIdeal.main_v7 (by decide)).trans (k7_W4 ρ)
theorem k7_W6 : W6 m ρ c (Proc.devRef .tc Cert.KernelIdeal.main_v7) = W1 m ρ c (Proc.devRef .tc Cert.KernelIdeal.main_v7) := (W6_of_ne m ρ c Cert.KernelIdeal.main_v7 (by decide)).trans (k7_W5 ρ)
theorem r7_U1 : U1 m' c (Proc.devRef .tc Cert.ReferenceIdeal.main_v7) = U0 m' c (Proc.devRef .tc Cert.ReferenceIdeal.main_v7) := Cert.ReferenceIdeal.Kept.ops1_keeps _ Cert.ReferenceIdeal.main_v7 (by decide)
theorem r7_U2 : U2 m' c (Proc.devRef .tc Cert.ReferenceIdeal.main_v7) = U0 m' c (Proc.devRef .tc Cert.ReferenceIdeal.main_v7) := (Cert.ReferenceIdeal.Kept.ops2_keeps _ Cert.ReferenceIdeal.main_v7 (by decide)).trans r7_U1
theorem r7_U3 : U3 m' c (Proc.devRef .tc Cert.ReferenceIdeal.main_v7) = U0 m' c (Proc.devRef .tc Cert.ReferenceIdeal.main_v7) := (Cert.ReferenceIdeal.Kept.ops3_keeps _ Cert.ReferenceIdeal.main_v7 (by decide)).trans r7_U2
theorem r7_U4 : U4 m' c (Proc.devRef .tc Cert.ReferenceIdeal.main_v7) = U0 m' c (Proc.devRef .tc Cert.ReferenceIdeal.main_v7) := (Cert.ReferenceIdeal.Kept.ops4_keeps _ Cert.ReferenceIdeal.main_v7 (by decide)).trans r7_U3
theorem r7_U4c : U4c m' c (Proc.devRef .tc Cert.ReferenceIdeal.main_v7) = U0 m' c (Proc.devRef .tc Cert.ReferenceIdeal.main_v7) := (Cert.ReferenceIdeal.Kept.ops4c_keeps _ Cert.ReferenceIdeal.main_v7 (by decide)).trans r7_U4
theorem r7_U5 : U5 m' c (Proc.devRef .tc Cert.ReferenceIdeal.main_v7) = U0 m' c (Proc.devRef .tc Cert.ReferenceIdeal.main_v7) := (Cert.ReferenceIdeal.Kept.ops5_keeps _ Cert.ReferenceIdeal.main_v7 (by decide)).trans r7_U4c

/-! ## The encoded rows -/

theorem featx_eq (h : Agree m m' c) : W2 m ρ c (Proc.devRef .tc Cert.KernelIdeal.main_v10) = U1 m' c (Proc.devRef .tc Cert.ReferenceIdeal.main_v17) := by
  funext i
  obtain ⟨r, j, rfl⟩ : ∃ (r : Fin 10000) (j : Fin 20), i = ix2 r j := ⟨i 0, i 1, eq_ix2 i⟩
  rw [Cert.KernelIdeal.Vals.W2_featx, Cert.ReferenceIdeal.Vals.U1_featx, h.1, h.2.2.2.1, h.2.2.2.2.1, h.2.2.2.2.2.1, h.2.2.2.2.2.2.1]

/-! ## The first graph convolution -/

theorem v54_eq (h : Agree m m' c) : W3 m ρ c (Proc.devRef .tc Cert.KernelIdeal.main_v54) = U2 m' c (Proc.devRef .tc Cert.ReferenceIdeal.main_v61) :=
  Cert.Sim.s2_main_v54 (W2 m ρ c) (U1 m' c) (featx_eq ρ h)
    ((k1_W2 ρ).trans ((idx1_W1 ρ h).trans r1_U1.symm)) ((k3_W2 ρ).trans ((idx3_W1 ρ h).trans r3_U1.symm))
    ((Cert.KernelIdeal.Vals.W2_of_not m ρ c Cert.KernelIdeal.main_arg1 (by decide) (by decide)).trans ((h.2.1).symm.trans (Cert.ReferenceIdeal.Vals.U1_of_not m' c Cert.ReferenceIdeal.main_arg1 (by decide) (by decide)).symm)) ((Cert.KernelIdeal.Vals.W2_of_not m ρ c Cert.KernelIdeal.main_arg7 (by decide) (by decide)).trans ((h.2.2.2.2.2.2.2.1).symm.trans (Cert.ReferenceIdeal.Vals.U1_of_not m' c Cert.ReferenceIdeal.main_arg7 (by decide) (by decide)).symm)) ((Cert.KernelIdeal.Vals.W2_of_not m ρ c Cert.KernelIdeal.main_arg8 (by decide) (by decide)).trans ((h.2.2.2.2.2.2.2.2.1).symm.trans (Cert.ReferenceIdeal.Vals.U1_of_not m' c Cert.ReferenceIdeal.main_arg8 (by decide) (by decide)).symm))

theorem v55_eq (h : Agree m m' c) : W4 m ρ c (Proc.devRef .tc Cert.KernelIdeal.main_v55) = U3 m' c (Proc.devRef .tc Cert.ReferenceIdeal.main_v62) :=
  Cert.Sim.s3_main_v55 (W3 m ρ c) (U2 m' c) (v54_eq ρ h)

/-! ## The two later graph convolutions, the sampled code, and the joined features -/

theorem v10_W4 (h : Agree m m' c) : W4 m ρ c (Proc.devRef .tc Cert.KernelIdeal.main_v10) = U3 m' c (Proc.devRef .tc Cert.ReferenceIdeal.main_v17) :=
  ((Cert.KernelIdeal.Kept.hostOps1_1_keeps _ Cert.KernelIdeal.main_v10 (by decide)).trans (Cert.KernelIdeal.Kept.hostOps1_keeps _ Cert.KernelIdeal.main_v10 (by decide))).trans
    ((featx_eq ρ h).trans ((Cert.ReferenceIdeal.Kept.ops3_keeps _ Cert.ReferenceIdeal.main_v17 (by decide)).trans (Cert.ReferenceIdeal.Kept.ops2_keeps _ Cert.ReferenceIdeal.main_v17 (by decide))).symm)

theorem v149_eq (h : Agree m m' c) : W5 m ρ c (Proc.devRef .tc Cert.KernelIdeal.main_v149) = U4c m' c (Proc.devRef .tc Cert.ReferenceIdeal.main_v156) :=
  (Cert.Sim.s4_main_v149 (W4 m ρ c) (U3 m' c) (v55_eq ρ h) (v10_W4 ρ h)
    ((k1_W4 ρ).trans ((idx1_W1 ρ h).trans r1_U3.symm)) ((k3_W4 ρ).trans ((idx3_W1 ρ h).trans r3_U3.symm))
    ((Cert.KernelIdeal.Vals.W4_of_not m ρ c Cert.KernelIdeal.main_arg1 (by decide) (by decide) (by decide) (by decide)).trans ((h.2.1).symm.trans (Cert.ReferenceIdeal.Vals.U3_of_not m' c Cert.ReferenceIdeal.main_arg1 (by decide) (by decide) (by decide) (by decide)).symm))
    ((Cert.KernelIdeal.Vals.W4_of_not m ρ c Cert.KernelIdeal.main_arg2 (by decide) (by decide) (by decide) (by decide)).trans ((h.2.2.1).symm.trans (Cert.ReferenceIdeal.Vals.U3_of_not m' c Cert.ReferenceIdeal.main_arg2 (by decide) (by decide) (by decide) (by decide)).symm))
    ((Cert.KernelIdeal.Vals.W4_of_not m ρ c Cert.KernelIdeal.main_arg9 (by decide) (by decide) (by decide) (by decide)).trans ((h.2.2.2.2.2.2.2.2.2.1).symm.trans (Cert.ReferenceIdeal.Vals.U3_of_not m' c Cert.ReferenceIdeal.main_arg9 (by decide) (by decide) (by decide) (by decide)).symm))
    ((Cert.KernelIdeal.Vals.W4_of_not m ρ c Cert.KernelIdeal.main_arg10 (by decide) (by decide) (by decide) (by decide)).trans ((h.2.2.2.2.2.2.2.2.2.2.1).symm.trans (Cert.ReferenceIdeal.Vals.U3_of_not m' c Cert.ReferenceIdeal.main_arg10 (by decide) (by decide) (by decide) (by decide)).symm))
    ((Cert.KernelIdeal.Vals.W4_of_not m ρ c Cert.KernelIdeal.main_arg11 (by decide) (by decide) (by decide) (by decide)).trans ((h.2.2.2.2.2.2.2.2.2.2.2.1).symm.trans (Cert.ReferenceIdeal.Vals.U3_of_not m' c Cert.ReferenceIdeal.main_arg11 (by decide) (by decide) (by decide) (by decide)).symm))
    ((Cert.KernelIdeal.Vals.W4_of_not m ρ c Cert.KernelIdeal.main_arg12 (by decide) (by decide) (by decide) (by decide)).trans ((h.2.2.2.2.2.2.2.2.2.2.2.2.1).symm.trans (Cert.ReferenceIdeal.Vals.U3_of_not m' c Cert.ReferenceIdeal.main_arg12 (by decide) (by decide) (by decide) (by decide)).symm))).trans
    (congrFun (StableHlo.after_append ops4 ops4c (U3 m' c)) _)

theorem v145_eq (h : Agree m m' c) : W5 m ρ c (Proc.devRef .tc Cert.KernelIdeal.main_v145) = U4c m' c (Proc.devRef .tc Cert.ReferenceIdeal.main_v152) :=
  (Cert.Sim.s4_main_v145 (W4 m ρ c) (U3 m' c) (v55_eq ρ h) (v10_W4 ρ h)
    ((k1_W4 ρ).trans ((idx1_W1 ρ h).trans r1_U3.symm)) ((k3_W4 ρ).trans ((idx3_W1 ρ h).trans r3_U3.symm))
    ((Cert.KernelIdeal.Vals.W4_of_not m ρ c Cert.KernelIdeal.main_arg1 (by decide) (by decide) (by decide) (by decide)).trans ((h.2.1).symm.trans (Cert.ReferenceIdeal.Vals.U3_of_not m' c Cert.ReferenceIdeal.main_arg1 (by decide) (by decide) (by decide) (by decide)).symm))
    ((Cert.KernelIdeal.Vals.W4_of_not m ρ c Cert.KernelIdeal.main_arg2 (by decide) (by decide) (by decide) (by decide)).trans ((h.2.2.1).symm.trans (Cert.ReferenceIdeal.Vals.U3_of_not m' c Cert.ReferenceIdeal.main_arg2 (by decide) (by decide) (by decide) (by decide)).symm))
    ((Cert.KernelIdeal.Vals.W4_of_not m ρ c Cert.KernelIdeal.main_arg9 (by decide) (by decide) (by decide) (by decide)).trans ((h.2.2.2.2.2.2.2.2.2.1).symm.trans (Cert.ReferenceIdeal.Vals.U3_of_not m' c Cert.ReferenceIdeal.main_arg9 (by decide) (by decide) (by decide) (by decide)).symm))
    ((Cert.KernelIdeal.Vals.W4_of_not m ρ c Cert.KernelIdeal.main_arg10 (by decide) (by decide) (by decide) (by decide)).trans ((h.2.2.2.2.2.2.2.2.2.2.1).symm.trans (Cert.ReferenceIdeal.Vals.U3_of_not m' c Cert.ReferenceIdeal.main_arg10 (by decide) (by decide) (by decide) (by decide)).symm))
    ((Cert.KernelIdeal.Vals.W4_of_not m ρ c Cert.KernelIdeal.main_arg11 (by decide) (by decide) (by decide) (by decide)).trans ((h.2.2.2.2.2.2.2.2.2.2.2.1).symm.trans (Cert.ReferenceIdeal.Vals.U3_of_not m' c Cert.ReferenceIdeal.main_arg11 (by decide) (by decide) (by decide) (by decide)).symm))
    ((Cert.KernelIdeal.Vals.W4_of_not m ρ c Cert.KernelIdeal.main_arg12 (by decide) (by decide) (by decide) (by decide)).trans ((h.2.2.2.2.2.2.2.2.2.2.2.2.1).symm.trans (Cert.ReferenceIdeal.Vals.U3_of_not m' c Cert.ReferenceIdeal.main_arg12 (by decide) (by decide) (by decide) (by decide)).symm))).trans
    (congrFun (StableHlo.after_append ops4 ops4c (U3 m' c)) _)

theorem v99_eq (h : Agree m m' c) : W5 m ρ c (Proc.devRef .tc Cert.KernelIdeal.main_v99) = U4c m' c (Proc.devRef .tc Cert.ReferenceIdeal.main_v106) :=
  (Cert.Sim.s4_main_v99 (W4 m ρ c) (U3 m' c) (v55_eq ρ h) (v10_W4 ρ h)
    ((k1_W4 ρ).trans ((idx1_W1 ρ h).trans r1_U3.symm)) ((k3_W4 ρ).trans ((idx3_W1 ρ h).trans r3_U3.symm))
    ((Cert.KernelIdeal.Vals.W4_of_not m ρ c Cert.KernelIdeal.main_arg1 (by decide) (by decide) (by decide) (by decide)).trans ((h.2.1).symm.trans (Cert.ReferenceIdeal.Vals.U3_of_not m' c Cert.ReferenceIdeal.main_arg1 (by decide) (by decide) (by decide) (by decide)).symm))
    ((Cert.KernelIdeal.Vals.W4_of_not m ρ c Cert.KernelIdeal.main_arg2 (by decide) (by decide) (by decide) (by decide)).trans ((h.2.2.1).symm.trans (Cert.ReferenceIdeal.Vals.U3_of_not m' c Cert.ReferenceIdeal.main_arg2 (by decide) (by decide) (by decide) (by decide)).symm))
    ((Cert.KernelIdeal.Vals.W4_of_not m ρ c Cert.KernelIdeal.main_arg9 (by decide) (by decide) (by decide) (by decide)).trans ((h.2.2.2.2.2.2.2.2.2.1).symm.trans (Cert.ReferenceIdeal.Vals.U3_of_not m' c Cert.ReferenceIdeal.main_arg9 (by decide) (by decide) (by decide) (by decide)).symm))
    ((Cert.KernelIdeal.Vals.W4_of_not m ρ c Cert.KernelIdeal.main_arg10 (by decide) (by decide) (by decide) (by decide)).trans ((h.2.2.2.2.2.2.2.2.2.2.1).symm.trans (Cert.ReferenceIdeal.Vals.U3_of_not m' c Cert.ReferenceIdeal.main_arg10 (by decide) (by decide) (by decide) (by decide)).symm))
    ((Cert.KernelIdeal.Vals.W4_of_not m ρ c Cert.KernelIdeal.main_arg11 (by decide) (by decide) (by decide) (by decide)).trans ((h.2.2.2.2.2.2.2.2.2.2.2.1).symm.trans (Cert.ReferenceIdeal.Vals.U3_of_not m' c Cert.ReferenceIdeal.main_arg11 (by decide) (by decide) (by decide) (by decide)).symm))
    ((Cert.KernelIdeal.Vals.W4_of_not m ρ c Cert.KernelIdeal.main_arg12 (by decide) (by decide) (by decide) (by decide)).trans ((h.2.2.2.2.2.2.2.2.2.2.2.2.1).symm.trans (Cert.ReferenceIdeal.Vals.U3_of_not m' c Cert.ReferenceIdeal.main_arg12 (by decide) (by decide) (by decide) (by decide)).symm))).trans
    (congrFun (StableHlo.after_append ops4 ops4c (U3 m' c)) _)

/-! ## The four heads -/

theorem xdec_eq (h : Agree m m' c) : W6 m ρ c (Proc.devRef .tc Cert.KernelIdeal.main_v154_0) = U5 m' c (Proc.devRef .tc Cert.ReferenceIdeal.main_v184) := by
  funext i
  obtain ⟨r, j, rfl⟩ : ∃ (r : Fin 10000) (j : Fin 2000), i = ix2 r j := ⟨i 0, i 1, eq_ix2 i⟩
  rw [Cert.KernelIdeal.Vals.W6_xdec, Cert.ReferenceIdeal.Vals.U5_xdec, v149_eq ρ h, h.2.2.2.2.2.2.2.2.2.2.2.2.2.1, h.2.2.2.2.2.2.2.2.2.2.2.2.2.2.1]

theorem pw_eq (h : Agree m m' c) : W6 m ρ c (Proc.devRef .tc Cert.KernelIdeal.main_v154_1) = U5 m' c (Proc.devRef .tc Cert.ReferenceIdeal.main_v180) := by
  funext i
  obtain ⟨r, j, rfl⟩ : ∃ (r : Fin 10000) (j : Fin 20000), i = ix2 r j := ⟨i 0, i 1, eq_ix2 i⟩
  rw [Cert.KernelIdeal.Vals.W6_pw, Cert.ReferenceIdeal.Vals.U5_pw, v149_eq ρ h, h.2.2.2.2.2.2.2.2.2.2.2.2.2.2.2.2.2.2.2.1, h.2.2.2.2.2.2.2.2.2.2.2.2.2.2.2.2.2.2.2.2.1]

theorem ct_eq (h : Agree m m' c) : W6 m ρ c (Proc.devRef .tc Cert.KernelIdeal.main_v154_2) = U5 m' c (Proc.devRef .tc Cert.ReferenceIdeal.main_v167) := by
  funext i
  obtain ⟨r, j, rfl⟩ : ∃ (r : Fin 10000) (j : Fin 10), i = ix2 r j := ⟨i 0, i 1, eq_ix2 i⟩
  rw [Cert.KernelIdeal.Vals.W6_ct, Cert.ReferenceIdeal.Vals.U5_ct, v149_eq ρ h, h.2.2.2.2.2.2.2.2.2.2.2.2.2.2.2.2.2.1, h.2.2.2.2.2.2.2.2.2.2.2.2.2.2.2.2.2.2.1]

theorem zg_eq (h : Agree m m' c) : W6 m ρ c (Proc.devRef .tc Cert.KernelIdeal.main_v154_3) = U5 m' c (Proc.devRef .tc Cert.ReferenceIdeal.main_v189) := by
  funext i
  obtain ⟨r, j, rfl⟩ : ∃ (r : Fin 10000) (j : Fin 64), i = ix2 r j := ⟨i 0, i 1, eq_ix2 i⟩
  rw [Cert.KernelIdeal.Vals.W6_zg, Cert.ReferenceIdeal.Vals.U5_zg, v149_eq ρ h, h.2.2.2.2.2.2.2.2.2.2.2.2.2.2.2.1, h.2.2.2.2.2.2.2.2.2.2.2.2.2.2.2.2.1]

/-! ## The loss -/

theorem loss_eq (h : Agree m m' c) : W7 m ρ c (Proc.devRef .tc Cert.KernelIdeal.main_v222) = U6 m' c (Proc.devRef .tc Cert.ReferenceIdeal.main_v257) :=
  Cert.Sim.s6_main_v222 (W6 m ρ c) (U5 m' c) (zg_eq ρ h)
    ((W6_of_ne m ρ c Cert.KernelIdeal.main_v145 (by decide)).trans ((v145_eq ρ h).trans (Cert.ReferenceIdeal.Kept.ops5_keeps _ Cert.ReferenceIdeal.main_v152 (by decide)).symm))
    ((W6_of_ne m ρ c Cert.KernelIdeal.main_v99 (by decide)).trans ((v99_eq ρ h).trans (Cert.ReferenceIdeal.Kept.ops5_keeps _ Cert.ReferenceIdeal.main_v106 (by decide)).symm))
    ((k1_W6 ρ).trans ((idx1_W1 ρ h).trans r1_U5.symm))
    ((k3_W6 ρ).trans ((idx3_W1 ρ h).trans r3_U5.symm))
    ((k5_W6 ρ).trans ((idx5_W1 ρ h).trans r5_U5.symm))
    ((k7_W6 ρ).trans ((idx7_W1 ρ h).trans r7_U5.symm))
    ((Cert.KernelIdeal.Vals.W6_of_not m ρ c Cert.KernelIdeal.main_arg1 (by decide) (by decide) (by decide) (by decide) (by decide) (by decide)).trans ((h.2.1).symm.trans (Cert.ReferenceIdeal.Vals.U5_of_not m' c Cert.ReferenceIdeal.main_arg1 (by decide) (by decide) (by decide) (by decide) (by decide) (by decide) (by decide)).symm))

/-! ## The returned buffers -/

theorem out_ct (h : Agree m m' c) : W7 m ρ c (Proc.devRef .tc Cert.KernelIdeal.main_v154_2) = U6 m' c (Proc.devRef .tc Cert.ReferenceIdeal.main_v167) :=
  (Cert.KernelIdeal.Kept.hostOps2_keeps _ Cert.KernelIdeal.main_v154_2 (by decide)).trans ((ct_eq ρ h).trans (Cert.ReferenceIdeal.Kept.ops6_keeps _ Cert.ReferenceIdeal.main_v167 (by decide)).symm)

theorem out_xdec (h : Agree m m' c) : W7 m ρ c (Proc.devRef .tc Cert.KernelIdeal.main_v154_0) = U6 m' c (Proc.devRef .tc Cert.ReferenceIdeal.main_v184) :=
  (Cert.KernelIdeal.Kept.hostOps2_keeps _ Cert.KernelIdeal.main_v154_0 (by decide)).trans ((xdec_eq ρ h).trans (Cert.ReferenceIdeal.Kept.ops6_keeps _ Cert.ReferenceIdeal.main_v184 (by decide)).symm)

theorem out_loss (h : Agree m m' c) : W7 m ρ c (Proc.devRef .tc Cert.KernelIdeal.main_v222) = U6 m' c (Proc.devRef .tc Cert.ReferenceIdeal.main_v257) := loss_eq ρ h

theorem out_pw (h : Agree m m' c) : W7 m ρ c (Proc.devRef .tc Cert.KernelIdeal.main_v154_1) = U6 m' c (Proc.devRef .tc Cert.ReferenceIdeal.main_v180) :=
  (Cert.KernelIdeal.Kept.hostOps2_keeps _ Cert.KernelIdeal.main_v154_1 (by decide)).trans ((pw_eq ρ h).trans (Cert.ReferenceIdeal.Kept.ops6_keeps _ Cert.ReferenceIdeal.main_v180 (by decide)).symm)

end Cert.Bridge

end
-- ==== Proof.lean ====
/-
  The certificate: the kernel's program and the reference compute the same four results over the extended reals.

  Both programs send the rows of `x` through a dense autoencoder (two affine layers with celu), a graph encoder of three
  weighted graph convolutions over the edge list, a sampled code `mu + eps * exp(min(logstd, 10))`, and — from the encoded
  rows and the code joined into 40 features per row — four affine heads: a decoder, a 64-wide relu projection whose rows
  are gathered along the positive and the negative edges for the reconstruction loss, a 10-way classifier normalized by
  its row sums, and a 20000-wide head normalized over consecutive groups of ten.  The kernel's program runs the
  autoencoder and the four heads as two launches over row blocks (1000 and 200 rows at a time, the widest head in twenty
  column chunks) and everything else as the same host operations as the reference.  Entry by entry a launch's output is
  the specification's value of the arrays the launch finds (a row of a matrix product depends on that row alone; a sum
  over a row or over a group of ten is the same sum however the array is tiled; celu written with `exp y - 1` under a
  comparison is celu written with maximum, minimum and `expm1`), and so is the reference's; the shared host stretches then
  carry equal inputs to equal outputs.  No finiteness is used: every step is an identity of the extended reals.
  The three frame claims are the generated frames of the two kernel programs and the reference's run with its results
  dropped; the idealization rewrote nothing.
-/
import proofs.«421300_j19232863552045_4_alg».proof.Defs
import proofs.«421300_j19232863552045_4_alg».proof.Proof.Gen.Kernel
import proofs.«421300_j19232863552045_4_alg».proof.Proof.Gen.Kernel.Frame
import proofs.«421300_j19232863552045_4_alg».proof.Proof.Gen.KernelIdeal
import proofs.«421300_j19232863552045_4_alg».proof.Proof.Gen.KernelIdeal.Frame
import proofs.«421300_j19232863552045_4_alg».proof.Proof.Gen.ReferenceIdeal
import proofs.«421300_j19232863552045_4_alg».proof.Proof.Gen.Pre_finite_inputs
import proofs.«421300_j19232863552045_4_alg».proof.Proof.KRun
import proofs.«421300_j19232863552045_4_alg».proof.Proof.RefRun
import proofs.«421300_j19232863552045_4_alg».proof.Proof.RKept
import proofs.«421300_j19232863552045_4_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem
open Cert.ReferenceIdeal.RefRun (U6)

/-- The kernel's program as printed: the generated frame. -/
theorem frame_k : Cert.frame_Kernel := fun m ρ _ => Cert.Kernel.Gen.frame m ρ

/-- The idealized kernel's program: the generated frame. -/
theorem frame_ki : Cert.frame_KernelIdeal := fun m ρ _ => Cert.KernelIdeal.Gen.frame m ρ

/-- The reference: its run, keeping only that no operation writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Kept.kept_all m c Cert.ReferenceIdeal.main_arg0 (by decide) (by decide) (by decide) (by decide) (by decide) (by decide) (by decide) (by decide)),
     (h c Cert.ReferenceIdeal.main_arg1).trans (Cert.ReferenceIdeal.Kept.kept_all m c Cert.ReferenceIdeal.main_arg1 (by decide) (by decide) (by decide) (by decide) (by decide) (by decide) (by decide) (by decide)),
     (h c Cert.ReferenceIdeal.main_arg2).trans (Cert.ReferenceIdeal.Kept.kept_all m c Cert.ReferenceIdeal.main_arg2 (by decide) (by decide) (by decide) (by decide) (by decide) (by decide) (by decide) (by decide)),
     (h c Cert.ReferenceIdeal.main_arg3).trans (Cert.ReferenceIdeal.Kept.kept_all m c Cert.ReferenceIdeal.main_arg3 (by decide) (by decide) (by decide) (by decide) (by decide) (by decide) (by decide) (by decide)),
     (h c Cert.ReferenceIdeal.main_arg4).trans (Cert.ReferenceIdeal.Kept.kept_all m c Cert.ReferenceIdeal.main_arg4 (by decide) (by decide) (by decide) (by decide) (by decide) (by decide) (by decide) (by decide)),
     (h c Cert.ReferenceIdeal.main_arg5).trans (Cert.ReferenceIdeal.Kept.kept_all m c Cert.ReferenceIdeal.main_arg5 (by decide) (by decide) (by decide) (by decide) (by decide) (by decide) (by decide) (by decide)),
     (h c Cert.ReferenceIdeal.main_arg6).trans (Cert.ReferenceIdeal.Kept.kept_all m c Cert.ReferenceIdeal.main_arg6 (by decide) (by decide) (by decide) (by decide) (by decide) (by decide) (by decide) (by decide)),
     (h c Cert.ReferenceIdeal.main_arg7).trans (Cert.ReferenceIdeal.Kept.kept_all m c Cert.ReferenceIdeal.main_arg7 (by decide) (by decide) (by decide) (by decide) (by decide) (by decide) (by decide) (by decide)),
     (h c Cert.ReferenceIdeal.main_arg8).trans (Cert.ReferenceIdeal.Kept.kept_all m c Cert.ReferenceIdeal.main_arg8 (by decide) (by decide) (by decide) (by decide) (by decide) (by decide) (by decide) (by decide)),
     (h c Cert.ReferenceIdeal.main_arg9).trans (Cert.ReferenceIdeal.Kept.kept_all m c Cert.ReferenceIdeal.main_arg9 (by decide) (by decide) (by decide) (by decide) (by decide) (by decide) (by decide) (by decide)),
     (h c Cert.ReferenceIdeal.main_arg10).trans (Cert.ReferenceIdeal.Kept.kept_all m c Cert.ReferenceIdeal.main_arg10 (by decide) (by decide) (by decide) (by decide) (by decide) (by decide) (by decide) (by decide)),
     (h c Cert.ReferenceIdeal.main_arg11).trans (Cert.ReferenceIdeal.Kept.kept_all m c Cert.ReferenceIdeal.main_arg11 (by decide) (by decide) (by decide) (by decide) (by decide) (by decide) (by decide) (by decide)),
     (h c Cert.ReferenceIdeal.main_arg12).trans (Cert.ReferenceIdeal.Kept.kept_all m c Cert.ReferenceIdeal.main_arg12 (by decide) (by decide) (by decide) (by decide) (by decide) (by decide) (by decide) (by decide)),
     (h c Cert.ReferenceIdeal.main_arg13).trans (Cert.ReferenceIdeal.Kept.kept_all m c Cert.ReferenceIdeal.main_arg13 (by decide) (by decide) (by decide) (by decide) (by decide) (by decide) (by decide) (by decide)),
     (h c Cert.ReferenceIdeal.main_arg14).trans (Cert.ReferenceIdeal.Kept.kept_all m c Cert.ReferenceIdeal.main_arg14 (by decide) (by decide) (by decide) (by decide) (by decide) (by decide) (by decide) (by decide)),
     (h c Cert.ReferenceIdeal.main_arg15).trans (Cert.ReferenceIdeal.Kept.kept_all m c Cert.ReferenceIdeal.main_arg15 (by decide) (by decide) (by decide) (by decide) (by decide) (by decide) (by decide) (by decide)),
     (h c Cert.ReferenceIdeal.main_arg16).trans (Cert.ReferenceIdeal.Kept.kept_all m c Cert.ReferenceIdeal.main_arg16 (by decide) (by decide) (by decide) (by decide) (by decide) (by decide) (by decide) (by decide)),
     (h c Cert.ReferenceIdeal.main_arg17).trans (Cert.ReferenceIdeal.Kept.kept_all m c Cert.ReferenceIdeal.main_arg17 (by decide) (by decide) (by decide) (by decide) (by decide) (by decide) (by decide) (by decide)),
     (h c Cert.ReferenceIdeal.main_arg18).trans (Cert.ReferenceIdeal.Kept.kept_all m c Cert.ReferenceIdeal.main_arg18 (by decide) (by decide) (by decide) (by decide) (by decide) (by decide) (by decide) (by decide)),
     (h c Cert.ReferenceIdeal.main_arg19).trans (Cert.ReferenceIdeal.Kept.kept_all m c Cert.ReferenceIdeal.main_arg19 (by decide) (by decide) (by decide) (by decide) (by decide) (by decide) (by decide) (by decide)),
     (h c Cert.ReferenceIdeal.main_arg20).trans (Cert.ReferenceIdeal.Kept.kept_all m c Cert.ReferenceIdeal.main_arg20 (by decide) (by decide) (by decide) (by decide) (by decide) (by decide) (by decide) (by decide)),
     (h c Cert.ReferenceIdeal.main_arg21).trans (Cert.ReferenceIdeal.Kept.kept_all m c Cert.ReferenceIdeal.main_arg21 (by decide) (by decide) (by decide) (by decide) (by decide) (by decide) (by decide) (by decide)),
     (h c Cert.ReferenceIdeal.main_arg22).trans (Cert.ReferenceIdeal.Kept.kept_all m c Cert.ReferenceIdeal.main_arg22 (by decide) (by decide) (by decide) (by decide) (by decide) (by decide) (by decide) (by decide))⟩)
    (Cert.ReferenceIdeal.RefRun.run (F := Ideal) m ρ)

/-- Both idealized programs end with the same four results: the kernel's program's are the reference's, boundary by
    boundary (`Cert.Bridge`). -/
theorem algebraic : Cert.algebraic_KernelIdeal_ReferenceIdeal := by
  intro m ρ m' ρ' _ hagree
  refine ⟨fun c => U6 m' c (Proc.devRef .tc Cert.ReferenceIdeal.main_v167), fun c => U6 m' c (Proc.devRef .tc Cert.ReferenceIdeal.main_v184), fun c => U6 m' c (Proc.devRef .tc Cert.ReferenceIdeal.main_v257),
    fun c => U6 m' c (Proc.devRef .tc Cert.ReferenceIdeal.main_v180), ?_, ?_⟩
  · refine (θ_run Cert.KernelIdeal.defs _ _).mono (fun r h c => ?_) (Cert.KernelIdeal.KRun.run (F := Ideal) m ρ)
    obtain ⟨h0, h1, h2, h3, hrest⟩ := h c
    have hA : Cert.Bridge.Agree m m' c := hagree c
    exact ⟨h0.trans (Cert.Bridge.out_ct ρ hA), h1.trans (Cert.Bridge.out_xdec ρ hA), h2.trans (Cert.Bridge.out_loss ρ hA),
      h3.trans (Cert.Bridge.out_pw ρ hA), hrest⟩
  · exact (θ_run Cert.ReferenceIdeal.defs _ _).mono (fun _ h c =>
      ⟨h c Cert.ReferenceIdeal.main_v167, h c Cert.ReferenceIdeal.main_v184, h c Cert.ReferenceIdeal.main_v257, h c Cert.ReferenceIdeal.main_v180,
       (h c Cert.ReferenceIdeal.main_arg0).trans (Cert.ReferenceIdeal.Kept.kept_all m' c Cert.ReferenceIdeal.main_arg0 (by decide) (by decide) (by decide) (by decide) (by decide) (by decide) (by decide) (by decide)),
       (h c Cert.ReferenceIdeal.main_arg1).trans (Cert.ReferenceIdeal.Kept.kept_all m' c Cert.ReferenceIdeal.main_arg1 (by decide) (by decide) (by decide) (by decide) (by decide) (by decide) (by decide) (by decide)),
       (h c Cert.ReferenceIdeal.main_arg2).trans (Cert.ReferenceIdeal.Kept.kept_all m' c Cert.ReferenceIdeal.main_arg2 (by decide) (by decide) (by decide) (by decide) (by decide) (by decide) (by decide) (by decide)),
       (h c Cert.ReferenceIdeal.main_arg3).trans (Cert.ReferenceIdeal.Kept.kept_all m' c Cert.ReferenceIdeal.main_arg3 (by decide) (by decide) (by decide) (by decide) (by decide) (by decide) (by decide) (by decide)),
       (h c Cert.ReferenceIdeal.main_arg4).trans (Cert.ReferenceIdeal.Kept.kept_all m' c Cert.ReferenceIdeal.main_arg4 (by decide) (by decide) (by decide) (by decide) (by decide) (by decide) (by decide) (by decide)),
       (h c Cert.ReferenceIdeal.main_arg5).trans (Cert.ReferenceIdeal.Kept.kept_all m' c Cert.ReferenceIdeal.main_arg5 (by decide) (by decide) (by decide) (by decide) (by decide) (by decide) (by decide) (by decide)),
       (h c Cert.ReferenceIdeal.main_arg6).trans (Cert.ReferenceIdeal.Kept.kept_all m' c Cert.ReferenceIdeal.main_arg6 (by decide) (by decide) (by decide) (by decide) (by decide) (by decide) (by decide) (by decide)),
       (h c Cert.ReferenceIdeal.main_arg7).trans (Cert.ReferenceIdeal.Kept.kept_all m' c Cert.ReferenceIdeal.main_arg7 (by decide) (by decide) (by decide) (by decide) (by decide) (by decide) (by decide) (by decide)),
       (h c Cert.ReferenceIdeal.main_arg8).trans (Cert.ReferenceIdeal.Kept.kept_all m' c Cert.ReferenceIdeal.main_arg8 (by decide) (by decide) (by decide) (by decide) (by decide) (by decide) (by decide) (by decide)),
       (h c Cert.ReferenceIdeal.main_arg9).trans (Cert.ReferenceIdeal.Kept.kept_all m' c Cert.ReferenceIdeal.main_arg9 (by decide) (by decide) (by decide) (by decide) (by decide) (by decide) (by decide) (by decide)),
       (h c Cert.ReferenceIdeal.main_arg10).trans (Cert.ReferenceIdeal.Kept.kept_all m' c Cert.ReferenceIdeal.main_arg10 (by decide) (by decide) (by decide) (by decide) (by decide) (by decide) (by decide) (by decide)),
       (h c Cert.ReferenceIdeal.main_arg11).trans (Cert.ReferenceIdeal.Kept.kept_all m' c Cert.ReferenceIdeal.main_arg11 (by decide) (by decide) (by decide) (by decide) (by decide) (by decide) (by decide) (by decide)),
       (h c Cert.ReferenceIdeal.main_arg12).trans (Cert.ReferenceIdeal.Kept.kept_all m' c Cert.ReferenceIdeal.main_arg12 (by decide) (by decide) (by decide) (by decide) (by decide) (by decide) (by decide) (by decide)),
       (h c Cert.ReferenceIdeal.main_arg13).trans (Cert.ReferenceIdeal.Kept.kept_all m' c Cert.ReferenceIdeal.main_arg13 (by decide) (by decide) (by decide) (by decide) (by decide) (by decide) (by decide) (by decide)),
       (h c Cert.ReferenceIdeal.main_arg14).trans (Cert.ReferenceIdeal.Kept.kept_all m' c Cert.ReferenceIdeal.main_arg14 (by decide) (by decide) (by decide) (by decide) (by decide) (by decide) (by decide) (by decide)),
       (h c Cert.ReferenceIdeal.main_arg15).trans (Cert.ReferenceIdeal.Kept.kept_all m' c Cert.ReferenceIdeal.main_arg15 (by decide) (by decide) (by decide) (by decide) (by decide) (by decide) (by decide) (by decide)),
       (h c Cert.ReferenceIdeal.main_arg16).trans (Cert.ReferenceIdeal.Kept.kept_all m' c Cert.ReferenceIdeal.main_arg16 (by decide) (by decide) (by decide) (by decide) (by decide) (by decide) (by decide) (by decide)),
       (h c Cert.ReferenceIdeal.main_arg17).trans (Cert.ReferenceIdeal.Kept.kept_all m' c Cert.ReferenceIdeal.main_arg17 (by decide) (by decide) (by decide) (by decide) (by decide) (by decide) (by decide) (by decide)),
       (h c Cert.ReferenceIdeal.main_arg18).trans (Cert.ReferenceIdeal.Kept.kept_all m' c Cert.ReferenceIdeal.main_arg18 (by decide) (by decide) (by decide) (by decide) (by decide) (by decide) (by decide) (by decide)),
       (h c Cert.ReferenceIdeal.main_arg19).trans (Cert.ReferenceIdeal.Kept.kept_all m' c Cert.ReferenceIdeal.main_arg19 (by decide) (by decide) (by decide) (by decide) (by decide) (by decide) (by decide) (by decide)),
       (h c Cert.ReferenceIdeal.main_arg20).trans (Cert.ReferenceIdeal.Kept.kept_all m' c Cert.ReferenceIdeal.main_arg20 (by decide) (by decide) (by decide) (by decide) (by decide) (by decide) (by decide) (by decide)),
       (h c Cert.ReferenceIdeal.main_arg21).trans (Cert.ReferenceIdeal.Kept.kept_all m' c Cert.ReferenceIdeal.main_arg21 (by decide) (by decide) (by decide) (by decide) (by decide) (by decide) (by decide) (by decide)),
       (h c Cert.ReferenceIdeal.main_arg22).trans (Cert.ReferenceIdeal.Kept.kept_all m' c Cert.ReferenceIdeal.main_arg22 (by decide) (by decide) (by decide) (by decide) (by decide) (by decide) (by decide) (by decide))⟩)
      (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
